-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x2 : Shape := ⟨2, ![1600000, 2]⟩
abbrev S50000 : Shape := ⟨1, ![50000]⟩
abbrev S2x64 : Shape := ⟨2, ![2, 64]⟩
abbrev S64 : Shape := ⟨1, ![64]⟩
abbrev S3x128x64 : Shape := ⟨3, ![3, 128, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 50000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg9 : FVec F S3x64 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg12
  let main_cst_18 : FVec F S_ .f32 := constant S_ .f32 0x7F800000#32
  let main_v50 : FVec F S32x1 .f32 := broadcastInDim S32x1 ![] bcast_S_S32x1 main_cst_18
  fn_part3 (F := F) main_arg1 main_arg13 main_v48 main_v49 main_v50

def fn_part1 {F : FTy → Type} [FloatOps F] (main_arg1 : IVec S2x1600000 32) (main_arg6 : FVec F S3x128x64 .f32) (main_arg7 : FVec F S3x64 .f32) (main_arg8 : FVec F S3x128x64 .f32) (main_arg9 : FVec F S3x64 .f32) (main_arg10 : FVec F S64x32 .f32) (main_arg11 : FVec F S32 .f32) (main_arg12 : FVec F S32x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x128x64 .f32 := Host.absf main_arg6
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x128x64 .f32 := Host.absf main_arg8
  let main_cst_10 : FVec F S_ .f32 := constant S_ .f32 0x7F800000#32
  let main_v30 : FVec F S3x128x64 .f32 := broadcastInDim S3x128x64 ![] bcast_S_S3x128x64 main_cst_10
  let main_v31 : IVec S3x128x64 1 := cmpf .olt main_v29 main_v30
  let main_c_11 : IVec S_ 1 := constantI S_ 1 1#1
  let main_v32 : IVec S_ 1 := (fun x v => Host.reduce IntOp.andi x v reducesTo_S3x128x64_S_d0_1_2 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x64 .f32) (main_arg1 : IVec S2x1600000 32) (main_arg2 : FVec F S1600000x2 .f32) (main_arg3 : IVec S50000 32) (main_arg4 : FVec F S2x64 .f32) (main_arg5 : FVec F S64 .f32) (main_arg6 : FVec F S3x128x64 .f32) (main_arg7 : FVec F S3x64 .f32) (main_arg8 : FVec F S3x128x64 .f32) (main_arg9 : FVec F S3x64 .f32) (main_arg10 : FVec F S64x32 .f32) (main_arg11 : FVec F S32 .f32) (main_arg12 : FVec F S32x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_v13 main_v16
-- ==== Kernel.lean ====
abbrev S50000x64 : Shape := ⟨2, ![50000, 64]⟩
abbrev S2x1600000 : Shape := ⟨2, ![2, 1600000]⟩
abbrev S1600000x2 : Shape := ⟨2, ![1600000, 2]⟩
abbrev S50000 : Shape := ⟨1, ![50000]⟩
abbrev S2x64 : Shape := ⟨2, ![2, 64]⟩
abbrev S64 : Shape := ⟨1, ![64]⟩
abbrev S3x128x64 : Shape := ⟨3, ![3, 128, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1600000x64 : Shape := ⟨2, ![1600000, 64]⟩
abbrev S4000x2 : Shape := ⟨2, ![4000, 2]⟩
abbrev S4000x64 : Shape := ⟨2, ![4000, 64]⟩
abbrev S4000x1 : Shape := ⟨2, ![4000, 1]⟩
abbrev S1x64 : Shape := ⟨2, ![1, 64]⟩
abbrev S_ : Shape := ⟨0, ![]⟩
abbrev S1600000x1 : Shape := ⟨2, ![1600000, 1]⟩
abbrev S1x1 : Shape := ⟨2, ![1, 1]⟩
abbrev S1x128x64 : Shape := ⟨3, ![1, 128, 64]⟩
abbrev S128x64 : Shape := ⟨2, ![128, 64]⟩
abbrev S4000x128 : Shape := ⟨2, ![4000, 128]⟩
abbrev S5000x64 : Shape := ⟨2, ![5000, 64]⟩
abbrev S5000x128 : Shape := ⟨2, ![5000, 128]⟩
abbrev S50000x1 : Shape := ⟨2, ![50000, 1]⟩
abbrev S5000x1 : Shape := ⟨2, ![5000, 1]⟩
abbrev S5000x32 : Shape := ⟨2, ![5000, 32]⟩
abbrev S1x32 : Shape := ⟨2, ![1, 32]⟩

abbrev nBuf : Space → Nat
  | .hbm => 131
  | .vmem => 62
  | .smem => 0
  | _ => 0

abbrev hbmTy0_0 (i : Nat) : BufTy := match i % 128 with
  | 0 => ⟨S50000x64, .f32⟩
  | 1 => ⟨S2x1600000, .i32⟩
  | 2 => ⟨S1600000x2, .f32⟩
  | 3 => ⟨S50000, .i32⟩
  | 4 => ⟨S2x64, .f32⟩
  | 5 => ⟨S64, .f32⟩
  | 6 => ⟨S3x128x64, .f32⟩
  | 7 => ⟨S3x64, .f32⟩
  | 8 => ⟨S3x128x64, .f32⟩
  | 9 => ⟨S3x64, .f32⟩
  | 10 => ⟨S64x32, .f32⟩
  | 11 => ⟨S32, .f32⟩
  | 12 => ⟨S32x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S1600000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x64, .f32⟩
  | 38 => ⟨S1600000x64, .i1⟩
  | 39 => ⟨S_, .f32⟩
  | 40 => ⟨S1600000x64, .f32⟩
  | 41 => ⟨S1600000x64, .f32⟩
  | 42 => ⟨S1x128x64, .f32⟩
  | 43 => ⟨S128x64, .f32⟩
  | 44 => ⟨S1x64, .f32⟩
  | 45 => ⟨S64, .f32⟩
  | 46 => ⟨S1600000x64, .f32⟩
  | 47 => ⟨S_, .f32⟩
  | 48 => ⟨S50000x64, .f32⟩
  | 49 => ⟨S1600000x1, .i32⟩
  | 50 => ⟨S50000x64, .f32⟩
  | 51 => ⟨S1x128x64, .f32⟩
  | 52 => ⟨S128x64, .f32⟩
  | 53 => ⟨S1x64, .f32⟩
  | 54 => ⟨S64, .f32⟩
  | 55 => ⟨S50000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1, .i32⟩
  | 65 => ⟨S_, .i32⟩
  | 66 => ⟨S1600000x1, .i32⟩
  | 67 => ⟨S1600000x1, .i1⟩
  | 68 => ⟨S1x1, .i32⟩
  | 69 => ⟨S1600000x1, .i32⟩
  | 70 => ⟨S1600000x1, .i1⟩
  | 71 => ⟨S1600000x1, .i1⟩
  | 72 => ⟨S_, .i1⟩
  | 73 => ⟨S1600000, .i1⟩
  | 74 => ⟨S1600000x64, .f32⟩
  | 75 => ⟨S1600000x64, .i1⟩
  | 76 => ⟨S_, .f32⟩
  | 77 => ⟨S1600000x64, .f32⟩
  | 78 => ⟨S1600000x64, .f32⟩
  | 79 => ⟨S1x128x64, .f32⟩
  | 80 => ⟨S128x64, .f32⟩
  | 81 => ⟨S1x64, .f32⟩
  | 82 => ⟨S64, .f32⟩
  | 83 => ⟨S1600000x64, .f32⟩
  | 84 => ⟨S_, .f32⟩
  | 85 => ⟨S50000x64, .f32⟩
  | 86 => ⟨S1600000x1, .i32⟩
  | 87 => ⟨S50000x64, .f32⟩
  | 88 => ⟨S1x128x64, .f32⟩
  | 89 => ⟨S128x64, .f32⟩
  | 90 => ⟨S1x64, .f32⟩
  | 91 => ⟨S64, .f32⟩
  | 92 => ⟨S50000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1, .i32⟩
  | 102 => ⟨S_, .i32⟩
  | 103 => ⟨S1600000x1, .i32⟩
  | 104 => ⟨S1600000x1, .i1⟩
  | 105 => ⟨S1x1, .i32⟩
  | 106 => ⟨S1600000x1, .i32⟩
  | 107 => ⟨S1600000x1, .i1⟩
  | 108 => ⟨S1600000x1, .i1⟩
  | 109 => ⟨S_, .i1⟩
  | 110 => ⟨S1600000, .i1⟩
  | 111 => ⟨S1600000x64, .f32⟩
  | 112 => ⟨S1600000x64, .i1⟩
  | 113 => ⟨S_, .f32⟩
  | 114 => ⟨S1600000x64, .f32⟩
  | 115 => ⟨S1600000x64, .f32⟩
  | 116 => ⟨S1x128x64, .f32⟩
  | 117 => ⟨S128x64, .f32⟩
  | 118 => ⟨S1x64, .f32⟩
  | 119 => ⟨S64, .f32⟩
  | 120 => ⟨S1600000x64, .f32⟩
  | 121 => ⟨S_, .f32⟩
  | 122 => ⟨S50000x64, .f32⟩
  | 123 => ⟨S1600000x1, .i32⟩
  | 124 => ⟨S50000x64, .f32⟩
  | 125 => ⟨S1x128x64, .f32⟩
  | 126 => ⟨S128x64, .f32⟩
  | 127 => ⟨S1x64, .f32⟩
  | _ => ⟨S50000x64, .f32⟩

abbrev hbmTy0_1 (i : Nat) : BufTy := match i % 128 with
  | 0 => ⟨S64, .f32⟩
  | 1 => ⟨S50000x64, .f32⟩
  | 2 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x2, .f32⟩
  | .local _ .vmem, ⟨1, _⟩ => ⟨S4000x2, .f32⟩
  | .local _ .vmem, ⟨2, _⟩ => ⟨S2x64, .f32⟩
  | .local _ .vmem, ⟨3, _⟩ => ⟨S64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S128x64, .f32⟩
  | .local _ .vmem, ⟨11, _⟩ => ⟨S64, .f32⟩
  | .local _ .vmem, ⟨12, _⟩ => ⟨S4000x64, .f32⟩
  | .local _ .vmem, ⟨13, _⟩ => ⟨S4000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S128x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S128x64, .f32⟩
  | .local _ .vmem, ⟨27, _⟩ => ⟨S64, .f32⟩
  | .local _ .vmem, ⟨28, _⟩ => ⟨S4000x64, .f32⟩
  | .local _ .vmem, ⟨29, _⟩ => ⟨S4000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S128x64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S128x64, .f32⟩
  | .local _ .vmem, ⟨43, _⟩ => ⟨S64, .f32⟩
  | .local _ .vmem, ⟨44, _⟩ => ⟨S4000x64, .f32⟩
  | .local _ .vmem, ⟨45, _⟩ => ⟨S4000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S128x64, .f32⟩
  | .local _ .vmem, ⟨51, _⟩ => ⟨S64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x32, .f32⟩
  | .local _ .vmem, ⟨57, _⟩ => ⟨S32, .f32⟩
  | .local _ .vmem, ⟨58, _⟩ => ⟨S32x1, .f32⟩
  | .local _ .vmem, ⟨59, _⟩ => ⟨S1, .f32⟩
  | .local _ .vmem, ⟨60, _⟩ => ⟨S5000x1, .f32⟩
  | .local _ .vmem, ⟨61, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_0 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_1 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem5_1 : DmaSem sig := 61

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x2_S4000x2_0_0 : ∀ a, (![0, 0] : Fin 2 → Nat) a + S4000x2.size a ≤ S4000x2.size a
  h_S4000x2 : 0 < S4000x2.numel
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  slices_S4000x2_o0_0_S4000x1 : S4000x2.Slices ![0, 0] S4000x1
  slices_S2x64_o0_0_S1x64 : S2x64.Slices ![0, 0] S1x64
  broadcasts_S4000x1_S4000x64 : S4000x1.Broadcasts S4000x64
  broadcasts_S1x64_S4000x64 : S1x64.Broadcasts S4000x64
  slices_S4000x2_o0_1_S4000x1 : S4000x2.Slices ![0, 1] S4000x1
  slices_S2x64_o1_0_S1x64 : S2x64.Slices ![1, 0] S1x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  shapeCasts_S4000x64_S4000x64 : S4000x64.ShapeCasts S4000x64
  concatenates_S4000x64_S4000x64_S4000x128_d1 : Shape.Concatenates [S4000x64, S4000x64] S4000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64_S64 : S64.ShapeCasts S64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  broadcasts_S1x64_S5000x64 : S1x64.Broadcasts S5000x64
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x64_S1600000x1_S1600000x64_1_0_n_n_0_1_164_wf : GatherDims.WF S50000x64 S1600000x1 S1600000x64 [1] [0] [] [0] [] 1 ![1, 64]
  dot_S4000x128_S128x64_S4000x64_1_0_0_1_n_n_wf : DotDims.WF S4000x128 S128x64 S4000x64 [1] [0] [0] [1] [] []
  scatter_S50000x64_S1600000x1_S1600000x64_1_0_0_1_wf : ScatterDims.WF S50000x64 S1600000x1 S1600000x64 [1] [0] [0] 1
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S1600000x2.size a
  hwx0_0 : ∀ i : grid0.Coords, EltTy.bits .f32 = 32 ∨ (Rect.block (s := S1600000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S1600000x64.size a
  hwx0_3 : ∀ i : grid0.Coords, EltTy.bits .f32 = 32 ∨ (Rect.block (s := S1600000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S1600000x64.size a
  hwx1_4 : ∀ i : grid1.Coords, EltTy.bits .f32 = 32 ∨ (Rect.block (s := S1600000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1600000x64.size a
  hwx3_0 : ∀ i : grid3.Coords, EltTy.bits .f32 = 32 ∨ (Rect.block (s := S1600000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S1600000x64.size a
  hwx3_1 : ∀ i : grid3.Coords, EltTy.bits .f32 = 32 ∨ (Rect.block (s := S1600000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S1600000x64.size a
  hwx3_4 : ∀ i : grid3.Coords, EltTy.bits .f32 = 32 ∨ (Rect.block (s := S1600000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S1600000x64.size a
  hwx5_0 : ∀ i : grid5.Coords, EltTy.bits .f32 = 32 ∨ (Rect.block (s := S1600000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S1600000x64.size a
  hwx5_1 : ∀ i : grid5.Coords, EltTy.bits .f32 = 32 ∨ (Rect.block (s := S1600000x64) S4000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S1600000x64.size a
  hwx5_4 : ∀ i : grid5.Coords, EltTy.bits .f32 = 32 ∨ (Rect.block (s := S1600000x64) S4000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32.size a ≤ S32.size a
  hwx7_2 : ∀ i : grid7.Coords, EltTy.bits .f32 = 32 ∨ (Rect.block (s := S32) S32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x1.size a ≤ S32x1.size a
  hwx7_3 : ∀ i : grid7.Coords, EltTy.bits .f32 = 32 ∨ (Rect.block (s := S32x1) S32x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1.size a ≤ S1.size a
  hwx7_4 : ∀ i : grid7.Coords, EltTy.bits .f32 = 32 ∨ (Rect.block (s := S1) S1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S50000x1.size a
  hwx7_5 : ∀ i : grid7.Coords, EltTy.bits .f32 = 32 ∨ (Rect.block (s := S50000x1) S5000x1.size (cc7_transform_5 i) (hinb7_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg2) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v18) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v33) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v38) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v32) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v41) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v43) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v45) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v46) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v46) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S32x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg13) S1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v47) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x2 : Shape := ⟨2, ![1600000, 2]⟩
abbrev S50000 : Shape := ⟨1, ![50000]⟩
abbrev S2x64 : Shape := ⟨2, ![2, 64]⟩
abbrev S64 : Shape := ⟨1, ![64]⟩
abbrev S3x128x64 : Shape := ⟨3, ![3, 128, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S1600000x128 : Shape := ⟨2, ![1600000, 128]⟩
abbrev S1x128x64 : Shape := ⟨3, ![1, 128, 64]⟩
abbrev S128x64 : Shape := ⟨2, ![128, 64]⟩
abbrev S50000x128 : Shape := ⟨2, ![50000, 128]⟩
abbrev S50000x32 : Shape := ⟨2, ![50000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S50000x64, .f32⟩
  | 1 => ⟨S2x1600000, .i32⟩
  | 2 => ⟨S1600000x2, .f32⟩
  | 3 => ⟨S50000, .i32⟩
  | 4 => ⟨S2x64, .f32⟩
  | 5 => ⟨S64, .f32⟩
  | 6 => ⟨S3x128x64, .f32⟩
  | 7 => ⟨S3x64, .f32⟩
  | 8 => ⟨S3x128x64, .f32⟩
  | 9 => ⟨S3x64, .f32⟩
  | 10 => ⟨S64x32, .f32⟩
  | 11 => ⟨S32, .f32⟩
  | 12 => ⟨S32x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S1600000x64, .f32⟩
  | 19 => ⟨S1x64, .f32⟩
  | 20 => ⟨S1600000x64, .f32⟩
  | 21 => ⟨S1600000x64, .f32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x128, .f32⟩
  | 33 => ⟨S1x128x64, .f32⟩
  | 34 => ⟨S128x64, .f32⟩
  | 35 => ⟨S1600000x64, .f32⟩
  | 36 => ⟨S1x64, .f32⟩
  | 37 => ⟨S64, .f32⟩
  | 38 => ⟨S1x64, .f32⟩
  | 39 => ⟨S1600000x64, .f32⟩
  | 40 => ⟨S1600000x64, .f32⟩
  | 41 => ⟨S1600000x64, .f32⟩
  | 42 => ⟨S_, .f32⟩
  | 43 => ⟨S50000x64, .f32⟩
  | 44 => ⟨S1600000x1, .i32⟩
  | 45 => ⟨S50000x64, .f32⟩
  | 46 => ⟨S50000x128, .f32⟩
  | 47 => ⟨S1x128x64, .f32⟩
  | 48 => ⟨S128x64, .f32⟩
  | 49 => ⟨S50000x64, .f32⟩
  | 50 => ⟨S1x64, .f32⟩
  | 51 => ⟨S64, .f32⟩
  | 52 => ⟨S1x64, .f32⟩
  | 53 => ⟨S50000x64, .f32⟩
  | 54 => ⟨S50000x64, .f32⟩
  | 55 => ⟨S50000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x128, .f32⟩
  | 66 => ⟨S1x128x64, .f32⟩
  | 67 => ⟨S128x64, .f32⟩
  | 68 => ⟨S1600000x64, .f32⟩
  | 69 => ⟨S1x64, .f32⟩
  | 70 => ⟨S64, .f32⟩
  | 71 => ⟨S1x64, .f32⟩
  | 72 => ⟨S1600000x64, .f32⟩
  | 73 => ⟨S1600000x64, .f32⟩
  | 74 => ⟨S1600000x64, .f32⟩
  | 75 => ⟨S_, .f32⟩
  | 76 => ⟨S50000x64, .f32⟩
  | 77 => ⟨S1600000x1, .i32⟩
  | 78 => ⟨S50000x64, .f32⟩
  | 79 => ⟨S50000x128, .f32⟩
  | 80 => ⟨S1x128x64, .f32⟩
  | 81 => ⟨S128x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S50000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x128, .f32⟩
  | 99 => ⟨S1x128x64, .f32⟩
  | 100 => ⟨S128x64, .f32⟩
  | 101 => ⟨S1600000x64, .f32⟩
  | 102 => ⟨S1x64, .f32⟩
  | 103 => ⟨S64, .f32⟩
  | 104 => ⟨S1x64, .f32⟩
  | 105 => ⟨S1600000x64, .f32⟩
  | 106 => ⟨S1600000x64, .f32⟩
  | 107 => ⟨S1600000x64, .f32⟩
  | 108 => ⟨S_, .f32⟩
  | 109 => ⟨S50000x64, .f32⟩
  | 110 => ⟨S1600000x1, .i32⟩
  | 111 => ⟨S50000x64, .f32⟩
  | 112 => ⟨S50000x128, .f32⟩
  | 113 => ⟨S1x128x64, .f32⟩
  | 114 => ⟨S128x64, .f32⟩
  | 115 => ⟨S50000x64, .f32⟩
  | 116 => ⟨S1x64, .f32⟩
  | 117 => ⟨S64, .f32⟩
  | 118 => ⟨S1x64, .f32⟩
  | 119 => ⟨S50000x64, .f32⟩
  | 120 => ⟨S50000x64, .f32⟩
  | 121 => ⟨S50000x64, .f32⟩
  | 122 => ⟨S50000x32, .f32⟩
  | 123 => ⟨S1x32, .f32⟩
  | 124 => ⟨S50000x32, .f32⟩
  | 125 => ⟨S50000x32, .f32⟩
  | 126 => ⟨S50000x32, .f32⟩
  | 127 => ⟨S50000x1, .f32⟩
  | _ => ⟨S50000x64, .f32⟩

abbrev hbmTy0_1 (i : Nat) : BufTy := match i % 128 with
  | 0 => ⟨S1x1, .f32⟩
  | 1 => ⟨S50000x1, .f32⟩
  | 2 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_1 : Ref sig .tc := ⟨.hbm, 56, rfl⟩
abbrev main_v39 : Ref sig .tc := ⟨.hbm, 57, rfl⟩
abbrev main_v40 : Ref sig .tc := ⟨.hbm, 58, rfl⟩
abbrev main_c_2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_4 : Ref sig .tc := ⟨.hbm, 89, rfl⟩
abbrev main_v69 : Ref sig .tc := ⟨.hbm, 90, rfl⟩
abbrev main_v70 : Ref sig .tc := ⟨.hbm, 91, rfl⟩
abbrev main_c_5 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_6 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S1600000x2_S2x64_S1600000x64_1_0_0_1_n_n_wf : DotDims.WF S1600000x2 S2x64 S1600000x64 [1] [0] [0] [1] [] []
  gather_S50000x64_S1600000x1_S1600000x64_1_0_n_n_0_1_164_wf : GatherDims.WF S50000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S50000x64_S1600000x1_S1600000x64_1_0_0_1_wf : ScatterDims.WF S50000x64 S1600000x1 S1600000x64 [1] [0] [0] 1
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def dot_S1600000x2_S2x64_S1600000x64_1_0_0_1_n_n : DotDims S1600000x2 S2x64 S1600000x64 where
  lhsContracting := [1]
  rhsContracting := [0]
  lhsNonContracting := [0]
  rhsNonContracting := [1]
  lhsBatch := []
  rhsBatch := []
  wf := dot_S1600000x2_S2x64_S1600000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.Spec.lean ====
/-
  The message-passing network as pure functions on the extended reals, entry by entry.

  Nodes carry rows of 64 numbers, edges carry rows of 64 numbers. One layer of the network is the same affine map
  followed by `tanh`, applied row by row to two matrices laid side by side: row `r` of the result is
  `tanh ([a r | b r] · W + bias)`, where `[a r | b r]` is the 128 numbers of `a`'s row `r` followed by `b`'s row `r`. The
  first edge rows come from the two raw edge features by a 2 × 64 affine map and `tanh`; the answer is read off the last
  node rows by a 64 → 32 affine map, `tanh`, and a 32 → 1 affine map.

  Between layers the node rows are carried to the edges (`take`: edge `e` receives the row of its source node) and the
  edge rows are summed back into the nodes (`seg`: node `n` receives the sum of the rows of the edges that point at it).
  The network is stated over an arbitrary `take` and `seg`: every layer is row-local, so nothing below depends on which
  rows those two maps move.
-/
import Idealize.ShloMosaic.Lib.ValueIdx
import Idealize.ShloMosaic.PureOps.Ideal

noncomputable section

open scoped BigOperators

namespace Cert.Spec

open Idealize.ShloMosaic Idealize.ShloMosaic.ValueIdx

/-- An `[R, C]` matrix of extended reals. -/
abbrev Mat (R C : Nat) : Type := FVec Ideal (⟨2, ![R, C]⟩ : Shape) .f32

/-- A vector of `C` extended reals. -/
abbrev Row (C : Nat) : Type := FVec Ideal (⟨1, ![C]⟩ : Shape) .f32

/-- Row `r` of `[a | b]`: the 64 entries of `a`'s row `r`, then the 64 entries of `b`'s row `r`. -/
def joined {R : Nat} (a b : Mat R 64) (r : Fin R) (k : Fin 128) : EReal :=
  if h : k.val < 64 then a (ix2 r ⟨k.val, h⟩) else b (ix2 r ⟨k.val - 64, by omega⟩)

/-- The first edge rows: `tanh (ef r 0 · W 0 + ef r 1 · W 1 + b)`, the two raw features of edge `r` through a 2 × 64
    affine map. -/
def embed {R : Nat} (ef : Mat R 2) (W : Mat 2 64) (b : Row 64) : Mat R 64 :=
  fun i => Ideal.tanh ((ef (ix2 (i 0) 0) * W (ix2 0 (i 1)) + ef (ix2 (i 0) 1) * W (ix2 1 (i 1))) + b (ix1 (i 1)))

/-- One layer: `tanh ([a r | b r] · W + bias)`, row by row. -/
def lin {R : Nat} (a b : Mat R 64) (W : Mat 128 64) (bias : Row 64) : Mat R 64 :=
  fun i => Ideal.tanh ((∑ k : Fin 128, joined a b (i 0) k * W (ix2 k (i 1))) + bias (ix1 (i 1)))

/-- The read-out: `tanh (h r · W1 + b1) · W2 + b2`, row by row. -/
def dec {R : Nat} (h : Mat R 64) (W1 : Mat 64 32) (b1 : Row 32) (W2 : Mat 32 1) (b2 : Row 1) : Mat R 1 :=
  fun i => (∑ q : Fin 32, Ideal.tanh ((∑ k : Fin 64, h (ix2 (i 0) k) * W1 (ix2 k q)) + b1 (ix1 q)) * W2 (ix2 q (i 1)))
    + b2 (ix1 (i 1))

/-- The whole network over `N` nodes and `E` edges: three rounds of (message along every edge from its source's row and
    the edge's own row; sum of the messages into their target nodes; update of every node from its row and that sum), the
    messages of a round being the next round's edge rows; then the read-out. -/
def gnn {N E : Nat} (take : Mat N 64 → Mat E 64) (seg : Mat E 64 → Mat N 64)
    (h0 : Mat N 64) (ef : Mat E 2) (Wemb : Mat 2 64) (bemb : Row 64)
    (Wm0 : Mat 128 64) (bm0 : Row 64) (Wu0 : Mat 128 64) (bu0 : Row 64)
    (Wm1 : Mat 128 64) (bm1 : Row 64) (Wu1 : Mat 128 64) (bu1 : Row 64)
    (Wm2 : Mat 128 64) (bm2 : Row 64) (Wu2 : Mat 128 64) (bu2 : Row 64)
    (Wd1 : Mat 64 32) (bd1 : Row 32) (Wd2 : Mat 32 1) (bd2 : Row 1) : Mat N 1 :=
  let e0 := embed ef Wemb bemb
  let m0 := lin (take h0) e0 Wm0 bm0
  let h1 := lin h0 (seg m0) Wu0 bu0
  let m1 := lin (take h1) m0 Wm1 bm1
  let h2 := lin h1 (seg m1) Wu1 bu1
  let m2 := lin (take h2) m1 Wm2 bm2
  let h3 := lin h2 (seg m2) Wu2 bu2
  dec h3 Wd1 bd1 Wd2 bd2

end Cert.Spec

end
-- ==== Proof.Take.lean ====
/-
  The guarded take of node rows along the edges, when every source number names a row.

  Edge `e` carries a source number `s e`. The take first adds the number of rows to a negative source number, then
  fetches the row that number names — the fetch itself clamps the number into the table —, and finally keeps the
  fetched row only where the wrapped number lies in `[0, 49999]`, putting a fill value in its place elsewhere. When
  every `s e` already lies in `[0, 50000)` the wrap changes nothing, the range test holds at every edge, and the
  guarded take is the plain fetch.
-/
import proofs.«424121_j82257213653679_2_alg».proof.Proof.Gen.KernelIdeal
import Idealize.ShloMosaic.Lib.ValueIdx
import Idealize.ShloMosaic.Lib.ReduceAll
import Idealize.ShloMosaic.Lib.StableHlo.Predicate

noncomputable section

namespace Cert.KernelIdeal.Take

open Cert.KernelIdeal Idealize.ShloMosaic Idealize.ShloMosaic.ValueIdx
open Cert.KernelIdeal.Facts₀ Cert.KernelIdeal.Facts

/-- The column of source rows: a negative number wrapped once by the number of rows, laid out as `[E, 1]`. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The plain fetch: edge `e` receives the row its source number names. -/
def take (s : IVec S1600000 32) (x : FVec Ideal S50000x64 .f32) : FVec Ideal S1600000x64 .f32 :=
  Host.gather gather_S50000x64_S1600000x1_S1600000x64_1_0_n_n_0_1_164 x (srcCol s)

/-- The guarded take: the fetched row where the wrapped source number lies in `[0, 49999]`, the fill value elsewhere. -/
def takeFill (s : IVec S1600000 32) (x : FVec Ideal S50000x64 .f32) : FVec Ideal S1600000x64 .f32 :=
  select
    (broadcastInDim S1600000x64 ![0] bcast_S1600000_S1600000x64_0
      (Host.reduce IntOp.andi
        (andi (cmpi .sge (srcCol s) (broadcastInDim S1600000x1 ![] bcast_S_S1600000x1 (constantI S_ 32 0#32)))
          (cmpi .sle (srcCol s)
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_))
    (Host.gather gather_S50000x64_S1600000x1_S1600000x64_1_0_n_n_0_1_164 x (srcCol s))
    (broadcastInDim S1600000x64 ![] bcast_S_S1600000x64 (constant (F := Ideal) S_ .f32 0x7FC00000#32))

/-! ## Words: a source number in `[0, 50000)` -/

/-- A word whose signed value lies in `[0, 50000)` has that value unsigned too. -/
private theorem toNat_lt_of_toInt (w : BitVec 32) (h0 : 0 ≤ w.toInt) (h1 : w.toInt < 50000) : w.toNat < 50000 := by
  have hlt := w.isLt
  rw [BitVec.toInt_eq_toNat_cond] at h0 h1
  split at h0 <;> omega

/-- The wrap leaves a source number in `[0, 50000)` as it is: it is not negative, so nothing is added. -/
private theorem wrap_eq (w : BitVec 32) (h0 : 0 ≤ w.toInt) (h1 : w.toInt < 50000) :
    Scalar.select (IntOp.cmpi .slt w 0#32) (IntOp.addi w 50000#32) w = w := by
  have hw := toNat_lt_of_toInt w h0 h1
  have hne : ¬ IntOp.cmpi .slt w 0#32 = 1#1 := fun h =>
    absurd ((StableHlo.Predicate.slt_iff_toNat (by omega) (by decide)).1 h) (by simp)
  rw [eq_zero_of_ne_one hne, select_zero]

/-- The range test `0 ≤ w ∧ w ≤ 49999` gives the bit 1 on a word in `[0, 50000)`. -/
private theorem range_bit (w : BitVec 32) (h0 : 0 ≤ w.toInt) (h1 : w.toInt < 50000) :
    IntOp.andi (IntOp.cmpi .sge w 0#32) (IntOp.cmpi .sle w 49999#32) = 1#1 := by
  have hw := toNat_lt_of_toInt w h0 h1
  have hge : IntOp.cmpi .sge w 0#32 = 1#1 :=
    (StableHlo.Predicate.sge_iff_toNat (by omega) (by decide)).2 (by simp)
  have hle : IntOp.cmpi .sle w 49999#32 = 1#1 :=
    (StableHlo.Predicate.sle_iff_toNat (by omega) (by decide)).2 (by
      show w.toNat ≤ 49999
      omega)
  rw [hge, hle]
  rfl

/-! ## A conjunction over bits that are all 1 -/

/-- A left fold by `and` that starts at 1 and meets only 1s ends at 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a (List.mem_cons_self ..)]
    rfl

/-- A reduction by `and` from 1 of an array whose every bit is 1 is 1 at every result index. -/
private theorem reduce_andi_one {s t u : Shape} {axes : List (Fin s.rank)} (p : s.Idx → BitVec 1)
    (init : u.Idx → BitVec 1) (h : s.ReducesTo axes t) (hu : 0 < u.numel) (j : t.Idx)
    (hinit : init (Shape.Idx.first hu) = 1#1) (hp : ∀ i, p i = 1#1) :
    Host.reduce IntOp.andi p init h hu j = 1#1 := by
  rw [Host.reduce_eq_foldl]
  exact foldl_andi_one p _ _ hinit (fun i _ => hp i)

/-- A select whose condition is the bit 1 is its first operand. -/
private theorem select_of_one {α : Type} (c : BitVec 1) (a b : α) (h : c = 1#1) : Scalar.select c a b = a := by
  rw [h]
  exact select_one a b

/-! ## The guard at every edge -/

/-- Row `k` of the column of source rows is the source number of the edge it belongs to. -/
private theorem srcCol_apply (s : IVec S1600000 32) (hs : ∀ e : S1600000.Idx, 0 ≤ (s e).toInt ∧ (s e).toInt < 50000)
    (k : S1600000x1.Idx) : ∃ e : S1600000.Idx, srcCol s k = s e :=
  ⟨_, wrap_eq (s _) (hs _).1 (hs _).2⟩

/-- The range test is 1 at every row of the column. -/
private theorem guard_one (s : IVec S1600000 32) (hs : ∀ e : S1600000.Idx, 0 ≤ (s e).toInt ∧ (s e).toInt < 50000)
    (k : S1600000x1.Idx) :
    andi (cmpi .sge (srcCol s) (broadcastInDim S1600000x1 ![] bcast_S_S1600000x1 (constantI S_ 32 0#32)))
      (cmpi .sle (srcCol s)
        (broadcastInDim S1600000x1 ![0, 1] bcast_S1x1_S1600000x1_0_1
          (broadcastInDim S1x1 ![1] bcast_S1_S1x1_1 (constantI S1 32 49999#32)))) k = 1#1 := by
  obtain ⟨e, he⟩ := srcCol_apply s hs k
  show IntOp.andi (IntOp.cmpi .sge (srcCol s k) 0#32) (IntOp.cmpi .sle (srcCol s k) 49999#32) = 1#1
  rw [he]
  exact range_bit (s e) (hs e).1 (hs e).2

/-- With every source number in `[0, 50000)` the guard holds everywhere: the guarded take is the plain fetch. -/
theorem takeFill_eq (s : IVec S1600000 32) (hs : ∀ e : S1600000.Idx, 0 ≤ (s e).toInt ∧ (s e).toInt < 50000)
    (x : FVec Ideal S50000x64 .f32) : takeFill s x = take s x := by
  funext i
  unfold takeFill take
  rw [select_apply]
  refine select_of_one _ _ _ ?_
  exact reduce_andi_one _ _ _ _ _ rfl (guard_one s hs)

end Cert.KernelIdeal.Take

end
-- ==== Proof.Keeps.lean ====
/-
  Buffers that nothing writes between two boundaries of @main.

  @main's run is cut at nineteen boundaries: the launch, and the end of each of its eighteen segments (ten stretches of
  host operations, eight regions). A host stretch changes only the buffers its operations write; a region changes only
  its own output array. So a buffer that no segment between boundary i and boundary j writes holds at j what it held at
  i: one case per buffer and pair of boundaries, each a chain of one step per segment crossed.
-/
import proofs.«424121_j82257213653679_2_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer none of a host stretch's operations writes is unchanged by the stretch. -/
macro "keep_host" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_main_arg0_0_2 (c : Dev nD) : W2 m ρ c (Proc.devRef .tc main_arg0) = W0 m ρ c (Proc.devRef .tc main_arg0) :=
  calc W2 m ρ c (Proc.devRef .tc main_arg0)
    _ = W1 m ρ c (Proc.devRef .tc main_arg0) := W2_of_ne m ρ c main_arg0 (by decide)
    _ = W0 m ρ c (Proc.devRef .tc main_arg0) := by keep_host hostOps0

theorem keep_main_arg0_2_6 (c : Dev nD) : W6 m ρ c (Proc.devRef .tc main_arg0) = W2 m ρ c (Proc.devRef .tc main_arg0) :=
  calc W6 m ρ c (Proc.devRef .tc main_arg0)
    _ = W5 m ρ c (Proc.devRef .tc main_arg0) := by keep_host hostOps2
    _ = W4 m ρ c (Proc.devRef .tc main_arg0) := W5_of_ne m ρ c main_arg0 (by decide)
    _ = W3 m ρ c (Proc.devRef .tc main_arg0) := by keep_host hostOps1_1
    _ = W2 m ρ c (Proc.devRef .tc main_arg0) := by keep_host hostOps1

theorem keep_main_arg0_0_6 (c : Dev nD) : W6 m ρ c (Proc.devRef .tc main_arg0) = W0 m ρ c (Proc.devRef .tc main_arg0) :=
  (keep_main_arg0_2_6 m ρ c).trans (keep_main_arg0_0_2 m ρ c)

theorem keep_main_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by keep_host hostOps0

theorem keep_main_arg4_0_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := by keep_host hostOps0

theorem keep_main_arg5_0_1 (c : Dev nD) : W1 m ρ c (Proc.devRef .tc main_arg5) = W0 m ρ c (Proc.devRef .tc main_arg5) :=
  calc W1 m ρ c (Proc.devRef .tc main_arg5)
    _ = W0 m ρ c (Proc.devRef .tc main_arg5) := by keep_host hostOps0

theorem keep_main_arg6_0_3 (c : Dev nD) : W3 m ρ c (Proc.devRef .tc main_arg6) = W0 m ρ c (Proc.devRef .tc main_arg6) :=
  calc W3 m ρ c (Proc.devRef .tc main_arg6)
    _ = W2 m ρ c (Proc.devRef .tc main_arg6) := by keep_host hostOps1
    _ = W1 m ρ c (Proc.devRef .tc main_arg6) := W2_of_ne m ρ c main_arg6 (by decide)
    _ = W0 m ρ c (Proc.devRef .tc main_arg6) := by keep_host hostOps0

theorem keep_main_arg6_3_8 (c : Dev nD) : W8 m ρ c (Proc.devRef .tc main_arg6) = W3 m ρ c (Proc.devRef .tc main_arg6) :=
  calc W8 m ρ c (Proc.devRef .tc main_arg6)
    _ = W7 m ρ c (Proc.devRef .tc main_arg6) := by keep_host hostOps3
    _ = W6 m ρ c (Proc.devRef .tc main_arg6) := W7_of_ne m ρ c main_arg6 (by decide)
    _ = W5 m ρ c (Proc.devRef .tc main_arg6) := by keep_host hostOps2
    _ = W4 m ρ c (Proc.devRef .tc main_arg6) := W5_of_ne m ρ c main_arg6 (by decide)
    _ = W3 m ρ c (Proc.devRef .tc main_arg6) := by keep_host hostOps1_1

theorem keep_main_arg6_8_13 (c : Dev nD) : W13 m ρ c (Proc.devRef .tc main_arg6) = W8 m ρ c (Proc.devRef .tc main_arg6) :=
  calc W13 m ρ c (Proc.devRef .tc main_arg6)
    _ = W12 m ρ c (Proc.devRef .tc main_arg6) := by keep_host hostOps5
    _ = W11 m ρ c (Proc.devRef .tc main_arg6) := W12_of_ne m ρ c main_arg6 (by decide)
    _ = W10 m ρ c (Proc.devRef .tc main_arg6) := by keep_host hostOps4
    _ = W9 m ρ c (Proc.devRef .tc main_arg6) := W10_of_ne m ρ c main_arg6 (by decide)
    _ = W8 m ρ c (Proc.devRef .tc main_arg6) := by keep_host hostOps3_1

theorem keep_main_arg6_0_8 (c : Dev nD) : W8 m ρ c (Proc.devRef .tc main_arg6) = W0 m ρ c (Proc.devRef .tc main_arg6) :=
  (keep_main_arg6_3_8 m ρ c).trans (keep_main_arg6_0_3 m ρ c)

theorem keep_main_arg6_0_13 (c : Dev nD) : W13 m ρ c (Proc.devRef .tc main_arg6) = W0 m ρ c (Proc.devRef .tc main_arg6) :=
  (keep_main_arg6_8_13 m ρ c).trans (keep_main_arg6_0_8 m ρ c)

theorem keep_main_arg7_0_3 (c : Dev nD) : W3 m ρ c (Proc.devRef .tc main_arg7) = W0 m ρ c (Proc.devRef .tc main_arg7) :=
  calc W3 m ρ c (Proc.devRef .tc main_arg7)
    _ = W2 m ρ c (Proc.devRef .tc main_arg7) := by keep_host hostOps1
    _ = W1 m ρ c (Proc.devRef .tc main_arg7) := W2_of_ne m ρ c main_arg7 (by decide)
    _ = W0 m ρ c (Proc.devRef .tc main_arg7) := by keep_host hostOps0

theorem keep_main_arg7_3_8 (c : Dev nD) : W8 m ρ c (Proc.devRef .tc main_arg7) = W3 m ρ c (Proc.devRef .tc main_arg7) :=
  calc W8 m ρ c (Proc.devRef .tc main_arg7)
    _ = W7 m ρ c (Proc.devRef .tc main_arg7) := by keep_host hostOps3
    _ = W6 m ρ c (Proc.devRef .tc main_arg7) := W7_of_ne m ρ c main_arg7 (by decide)
    _ = W5 m ρ c (Proc.devRef .tc main_arg7) := by keep_host hostOps2
    _ = W4 m ρ c (Proc.devRef .tc main_arg7) := W5_of_ne m ρ c main_arg7 (by decide)
    _ = W3 m ρ c (Proc.devRef .tc main_arg7) := by keep_host hostOps1_1

theorem keep_main_arg7_8_13 (c : Dev nD) : W13 m ρ c (Proc.devRef .tc main_arg7) = W8 m ρ c (Proc.devRef .tc main_arg7) :=
  calc W13 m ρ c (Proc.devRef .tc main_arg7)
    _ = W12 m ρ c (Proc.devRef .tc main_arg7) := by keep_host hostOps5
    _ = W11 m ρ c (Proc.devRef .tc main_arg7) := W12_of_ne m ρ c main_arg7 (by decide)
    _ = W10 m ρ c (Proc.devRef .tc main_arg7) := by keep_host hostOps4
    _ = W9 m ρ c (Proc.devRef .tc main_arg7) := W10_of_ne m ρ c main_arg7 (by decide)
    _ = W8 m ρ c (Proc.devRef .tc main_arg7) := by keep_host hostOps3_1

theorem keep_main_arg7_0_8 (c : Dev nD) : W8 m ρ c (Proc.devRef .tc main_arg7) = W0 m ρ c (Proc.devRef .tc main_arg7) :=
  (keep_main_arg7_3_8 m ρ c).trans (keep_main_arg7_0_3 m ρ c)

theorem keep_main_arg7_0_13 (c : Dev nD) : W13 m ρ c (Proc.devRef .tc main_arg7) = W0 m ρ c (Proc.devRef .tc main_arg7) :=
  (keep_main_arg7_8_13 m ρ c).trans (keep_main_arg7_0_8 m ρ c)

theorem keep_main_arg8_0_5 (c : Dev nD) : W5 m ρ c (Proc.devRef .tc main_arg8) = W0 m ρ c (Proc.devRef .tc main_arg8) :=
  calc W5 m ρ c (Proc.devRef .tc main_arg8)
    _ = W4 m ρ c (Proc.devRef .tc main_arg8) := W5_of_ne m ρ c main_arg8 (by decide)
    _ = W3 m ρ c (Proc.devRef .tc main_arg8) := by keep_host hostOps1_1
    _ = W2 m ρ c (Proc.devRef .tc main_arg8) := by keep_host hostOps1
    _ = W1 m ρ c (Proc.devRef .tc main_arg8) := W2_of_ne m ρ c main_arg8 (by decide)
    _ = W0 m ρ c (Proc.devRef .tc main_arg8) := by keep_host hostOps0

theorem keep_main_arg8_5_10 (c : Dev nD) : W10 m ρ c (Proc.devRef .tc main_arg8) = W5 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := by keep_host hostOps3_1
    _ = W7 m ρ c (Proc.devRef .tc main_arg8) := by keep_host hostOps3
    _ = W6 m ρ c (Proc.devRef .tc main_arg8) := W7_of_ne m ρ c main_arg8 (by decide)
    _ = W5 m ρ c (Proc.devRef .tc main_arg8) := by keep_host hostOps2

theorem keep_main_arg8_10_15 (c : Dev nD) : W15 m ρ c (Proc.devRef .tc main_arg8) = W10 m ρ c (Proc.devRef .tc main_arg8) :=
  calc W15 m ρ c (Proc.devRef .tc main_arg8)
    _ = W14 m ρ c (Proc.devRef .tc main_arg8) := W15_of_ne m ρ c main_arg8 (by decide)
    _ = W13 m ρ c (Proc.devRef .tc main_arg8) := by keep_host hostOps5_1
    _ = W12 m ρ c (Proc.devRef .tc main_arg8) := by keep_host hostOps5
    _ = W11 m ρ c (Proc.devRef .tc main_arg8) := W12_of_ne m ρ c main_arg8 (by decide)
    _ = W10 m ρ c (Proc.devRef .tc main_arg8) := by keep_host hostOps4

theorem keep_main_arg8_0_10 (c : Dev nD) : W10 m ρ c (Proc.devRef .tc main_arg8) = W0 m ρ c (Proc.devRef .tc main_arg8) :=
  (keep_main_arg8_5_10 m ρ c).trans (keep_main_arg8_0_5 m ρ c)

theorem keep_main_arg8_0_15 (c : Dev nD) : W15 m ρ c (Proc.devRef .tc main_arg8) = W0 m ρ c (Proc.devRef .tc main_arg8) :=
  (keep_main_arg8_10_15 m ρ c).trans (keep_main_arg8_0_10 m ρ c)

theorem keep_main_arg9_0_5 (c : Dev nD) : W5 m ρ c (Proc.devRef .tc main_arg9) = W0 m ρ c (Proc.devRef .tc main_arg9) :=
  calc W5 m ρ c (Proc.devRef .tc main_arg9)
    _ = W4 m ρ c (Proc.devRef .tc main_arg9) := W5_of_ne m ρ c main_arg9 (by decide)
    _ = W3 m ρ c (Proc.devRef .tc main_arg9) := by keep_host hostOps1_1
    _ = W2 m ρ c (Proc.devRef .tc main_arg9) := by keep_host hostOps1
    _ = W1 m ρ c (Proc.devRef .tc main_arg9) := W2_of_ne m ρ c main_arg9 (by decide)
    _ = W0 m ρ c (Proc.devRef .tc main_arg9) := by keep_host hostOps0

theorem keep_main_arg9_5_10 (c : Dev nD) : W10 m ρ c (Proc.devRef .tc main_arg9) = W5 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := by keep_host hostOps3_1
    _ = W7 m ρ c (Proc.devRef .tc main_arg9) := by keep_host hostOps3
    _ = W6 m ρ c (Proc.devRef .tc main_arg9) := W7_of_ne m ρ c main_arg9 (by decide)
    _ = W5 m ρ c (Proc.devRef .tc main_arg9) := by keep_host hostOps2

theorem keep_main_arg9_10_15 (c : Dev nD) : W15 m ρ c (Proc.devRef .tc main_arg9) = W10 m ρ c (Proc.devRef .tc main_arg9) :=
  calc W15 m ρ c (Proc.devRef .tc main_arg9)
    _ = W14 m ρ c (Proc.devRef .tc main_arg9) := W15_of_ne m ρ c main_arg9 (by decide)
    _ = W13 m ρ c (Proc.devRef .tc main_arg9) := by keep_host hostOps5_1
    _ = W12 m ρ c (Proc.devRef .tc main_arg9) := by keep_host hostOps5
    _ = W11 m ρ c (Proc.devRef .tc main_arg9) := W12_of_ne m ρ c main_arg9 (by decide)
    _ = W10 m ρ c (Proc.devRef .tc main_arg9) := by keep_host hostOps4

theorem keep_main_arg9_0_10 (c : Dev nD) : W10 m ρ c (Proc.devRef .tc main_arg9) = W0 m ρ c (Proc.devRef .tc main_arg9) :=
  (keep_main_arg9_5_10 m ρ c).trans (keep_main_arg9_0_5 m ρ c)

theorem keep_main_arg9_0_15 (c : Dev nD) : W15 m ρ c (Proc.devRef .tc main_arg9) = W0 m ρ c (Proc.devRef .tc main_arg9) :=
  (keep_main_arg9_10_15 m ρ c).trans (keep_main_arg9_0_10 m ρ c)

theorem keep_main_arg10_0_17 (c : Dev nD) : W17 m ρ c (Proc.devRef .tc main_arg10) = W0 m ρ c (Proc.devRef .tc main_arg10) :=
  calc W17 m ρ c (Proc.devRef .tc main_arg10)
    _ = W16 m ρ c (Proc.devRef .tc main_arg10) := W17_of_ne m ρ c main_arg10 (by decide)
    _ = W15 m ρ c (Proc.devRef .tc main_arg10) := by keep_host hostOps6
    _ = W14 m ρ c (Proc.devRef .tc main_arg10) := W15_of_ne m ρ c main_arg10 (by decide)
    _ = W13 m ρ c (Proc.devRef .tc main_arg10) := by keep_host hostOps5_1
    _ = W12 m ρ c (Proc.devRef .tc main_arg10) := by keep_host hostOps5
    _ = W11 m ρ c (Proc.devRef .tc main_arg10) := W12_of_ne m ρ c main_arg10 (by decide)
    _ = W10 m ρ c (Proc.devRef .tc main_arg10) := by keep_host hostOps4
    _ = W9 m ρ c (Proc.devRef .tc main_arg10) := W10_of_ne m ρ c main_arg10 (by decide)
    _ = W8 m ρ c (Proc.devRef .tc main_arg10) := by keep_host hostOps3_1
    _ = W7 m ρ c (Proc.devRef .tc main_arg10) := by keep_host hostOps3
    _ = W6 m ρ c (Proc.devRef .tc main_arg10) := W7_of_ne m ρ c main_arg10 (by decide)
    _ = W5 m ρ c (Proc.devRef .tc main_arg10) := by keep_host hostOps2
    _ = W4 m ρ c (Proc.devRef .tc main_arg10) := W5_of_ne m ρ c main_arg10 (by decide)
    _ = W3 m ρ c (Proc.devRef .tc main_arg10) := by keep_host hostOps1_1
    _ = W2 m ρ c (Proc.devRef .tc main_arg10) := by keep_host hostOps1
    _ = W1 m ρ c (Proc.devRef .tc main_arg10) := W2_of_ne m ρ c main_arg10 (by decide)
    _ = W0 m ρ c (Proc.devRef .tc main_arg10) := by keep_host hostOps0

theorem keep_main_arg11_0_17 (c : Dev nD) : W17 m ρ c (Proc.devRef .tc main_arg11) = W0 m ρ c (Proc.devRef .tc main_arg11) :=
  calc W17 m ρ c (Proc.devRef .tc main_arg11)
    _ = W16 m ρ c (Proc.devRef .tc main_arg11) := W17_of_ne m ρ c main_arg11 (by decide)
    _ = W15 m ρ c (Proc.devRef .tc main_arg11) := by keep_host hostOps6
    _ = W14 m ρ c (Proc.devRef .tc main_arg11) := W15_of_ne m ρ c main_arg11 (by decide)
    _ = W13 m ρ c (Proc.devRef .tc main_arg11) := by keep_host hostOps5_1
    _ = W12 m ρ c (Proc.devRef .tc main_arg11) := by keep_host hostOps5
    _ = W11 m ρ c (Proc.devRef .tc main_arg11) := W12_of_ne m ρ c main_arg11 (by decide)
    _ = W10 m ρ c (Proc.devRef .tc main_arg11) := by keep_host hostOps4
    _ = W9 m ρ c (Proc.devRef .tc main_arg11) := W10_of_ne m ρ c main_arg11 (by decide)
    _ = W8 m ρ c (Proc.devRef .tc main_arg11) := by keep_host hostOps3_1
    _ = W7 m ρ c (Proc.devRef .tc main_arg11) := by keep_host hostOps3
    _ = W6 m ρ c (Proc.devRef .tc main_arg11) := W7_of_ne m ρ c main_arg11 (by decide)
    _ = W5 m ρ c (Proc.devRef .tc main_arg11) := by keep_host hostOps2
    _ = W4 m ρ c (Proc.devRef .tc main_arg11) := W5_of_ne m ρ c main_arg11 (by decide)
    _ = W3 m ρ c (Proc.devRef .tc main_arg11) := by keep_host hostOps1_1
    _ = W2 m ρ c (Proc.devRef .tc main_arg11) := by keep_host hostOps1
    _ = W1 m ρ c (Proc.devRef .tc main_arg11) := W2_of_ne m ρ c main_arg11 (by decide)
    _ = W0 m ρ c (Proc.devRef .tc main_arg11) := by keep_host hostOps0

theorem keep_main_arg12_0_17 (c : Dev nD) : W17 m ρ c (Proc.devRef .tc main_arg12) = W0 m ρ c (Proc.devRef .tc main_arg12) :=
  calc W17 m ρ c (Proc.devRef .tc main_arg12)
    _ = W16 m ρ c (Proc.devRef .tc main_arg12) := W17_of_ne m ρ c main_arg12 (by decide)
    _ = W15 m ρ c (Proc.devRef .tc main_arg12) := by keep_host hostOps6
    _ = W14 m ρ c (Proc.devRef .tc main_arg12) := W15_of_ne m ρ c main_arg12 (by decide)
    _ = W13 m ρ c (Proc.devRef .tc main_arg12) := by keep_host hostOps5_1
    _ = W12 m ρ c (Proc.devRef .tc main_arg12) := by keep_host hostOps5
    _ = W11 m ρ c (Proc.devRef .tc main_arg12) := W12_of_ne m ρ c main_arg12 (by decide)
    _ = W10 m ρ c (Proc.devRef .tc main_arg12) := by keep_host hostOps4
    _ = W9 m ρ c (Proc.devRef .tc main_arg12) := W10_of_ne m ρ c main_arg12 (by decide)
    _ = W8 m ρ c (Proc.devRef .tc main_arg12) := by keep_host hostOps3_1
    _ = W7 m ρ c (Proc.devRef .tc main_arg12) := by keep_host hostOps3
    _ = W6 m ρ c (Proc.devRef .tc main_arg12) := W7_of_ne m ρ c main_arg12 (by decide)
    _ = W5 m ρ c (Proc.devRef .tc main_arg12) := by keep_host hostOps2
    _ = W4 m ρ c (Proc.devRef .tc main_arg12) := W5_of_ne m ρ c main_arg12 (by decide)
    _ = W3 m ρ c (Proc.devRef .tc main_arg12) := by keep_host hostOps1_1
    _ = W2 m ρ c (Proc.devRef .tc main_arg12) := by keep_host hostOps1
    _ = W1 m ρ c (Proc.devRef .tc main_arg12) := W2_of_ne m ρ c main_arg12 (by decide)
    _ = W0 m ρ c (Proc.devRef .tc main_arg12) := by keep_host hostOps0

theorem keep_main_arg13_0_17 (c : Dev nD) : W17 m ρ c (Proc.devRef .tc main_arg13) = W0 m ρ c (Proc.devRef .tc main_arg13) :=
  calc W17 m ρ c (Proc.devRef .tc main_arg13)
    _ = W16 m ρ c (Proc.devRef .tc main_arg13) := W17_of_ne m ρ c main_arg13 (by decide)
    _ = W15 m ρ c (Proc.devRef .tc main_arg13) := by keep_host hostOps6
    _ = W14 m ρ c (Proc.devRef .tc main_arg13) := W15_of_ne m ρ c main_arg13 (by decide)
    _ = W13 m ρ c (Proc.devRef .tc main_arg13) := by keep_host hostOps5_1
    _ = W12 m ρ c (Proc.devRef .tc main_arg13) := by keep_host hostOps5
    _ = W11 m ρ c (Proc.devRef .tc main_arg13) := W12_of_ne m ρ c main_arg13 (by decide)
    _ = W10 m ρ c (Proc.devRef .tc main_arg13) := by keep_host hostOps4
    _ = W9 m ρ c (Proc.devRef .tc main_arg13) := W10_of_ne m ρ c main_arg13 (by decide)
    _ = W8 m ρ c (Proc.devRef .tc main_arg13) := by keep_host hostOps3_1
    _ = W7 m ρ c (Proc.devRef .tc main_arg13) := by keep_host hostOps3
    _ = W6 m ρ c (Proc.devRef .tc main_arg13) := W7_of_ne m ρ c main_arg13 (by decide)
    _ = W5 m ρ c (Proc.devRef .tc main_arg13) := by keep_host hostOps2
    _ = W4 m ρ c (Proc.devRef .tc main_arg13) := W5_of_ne m ρ c main_arg13 (by decide)
    _ = W3 m ρ c (Proc.devRef .tc main_arg13) := by keep_host hostOps1_1
    _ = W2 m ρ c (Proc.devRef .tc main_arg13) := by keep_host hostOps1
    _ = W1 m ρ c (Proc.devRef .tc main_arg13) := W2_of_ne m ρ c main_arg13 (by decide)
    _ = W0 m ρ c (Proc.devRef .tc main_arg13) := by keep_host hostOps0

theorem keep_main_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_main_v1_2_7 (c : Dev nD) : W7 m ρ c (Proc.devRef .tc main_v1) = W2 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := by keep_host hostOps2
    _ = W4 m ρ c (Proc.devRef .tc main_v1) := W5_of_ne m ρ c main_v1 (by decide)
    _ = W3 m ρ c (Proc.devRef .tc main_v1) := by keep_host hostOps1_1
    _ = W2 m ρ c (Proc.devRef .tc main_v1) := by keep_host hostOps1

theorem keep_main_v1_7_12 (c : Dev nD) : W12 m ρ c (Proc.devRef .tc main_v1) = W7 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by keep_host hostOps4
    _ = W9 m ρ c (Proc.devRef .tc main_v1) := W10_of_ne m ρ c main_v1 (by decide)
    _ = W8 m ρ c (Proc.devRef .tc main_v1) := by keep_host hostOps3_1
    _ = W7 m ρ c (Proc.devRef .tc main_v1) := by keep_host hostOps3

theorem keep_main_v1_1_7 (c : Dev nD) : W7 m ρ c (Proc.devRef .tc main_v1) = W1 m ρ c (Proc.devRef .tc main_v1) :=
  (keep_main_v1_2_7 m ρ c).trans (keep_main_v1_1_2 m ρ c)

theorem keep_main_v1_1_12 (c : Dev nD) : W12 m ρ c (Proc.devRef .tc main_v1) = W1 m ρ c (Proc.devRef .tc main_v1) :=
  (keep_main_v1_7_12 m ρ c).trans (keep_main_v1_1_7 m ρ c)

theorem keep_main_v3_1_5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by keep_host hostOps1_1
    _ = W2 m ρ c (Proc.devRef .tc main_v3) := by keep_host hostOps1
    _ = W1 m ρ c (Proc.devRef .tc main_v3) := W2_of_ne m ρ c main_v3 (by decide)

theorem keep_main_v3_5_10 (c : Dev nD) : W10 m ρ c (Proc.devRef .tc main_v3) = W5 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by keep_host hostOps3_1
    _ = W7 m ρ c (Proc.devRef .tc main_v3) := by keep_host hostOps3
    _ = W6 m ρ c (Proc.devRef .tc main_v3) := W7_of_ne m ρ c main_v3 (by decide)
    _ = W5 m ρ c (Proc.devRef .tc main_v3) := by keep_host hostOps2

theorem keep_main_v3_10_15 (c : Dev nD) : W15 m ρ c (Proc.devRef .tc main_v3) = W10 m ρ c (Proc.devRef .tc main_v3) :=
  calc W15 m ρ c (Proc.devRef .tc main_v3)
    _ = W14 m ρ c (Proc.devRef .tc main_v3) := W15_of_ne m ρ c main_v3 (by decide)
    _ = W13 m ρ c (Proc.devRef .tc main_v3) := by keep_host hostOps5_1
    _ = W12 m ρ c (Proc.devRef .tc main_v3) := by keep_host hostOps5
    _ = W11 m ρ c (Proc.devRef .tc main_v3) := W12_of_ne m ρ c main_v3 (by decide)
    _ = W10 m ρ c (Proc.devRef .tc main_v3) := by keep_host hostOps4

theorem keep_main_v3_1_10 (c : Dev nD) : W10 m ρ c (Proc.devRef .tc main_v3) = W1 m ρ c (Proc.devRef .tc main_v3) :=
  (keep_main_v3_5_10 m ρ c).trans (keep_main_v3_1_5 m ρ c)

theorem keep_main_v3_1_15 (c : Dev nD) : W15 m ρ c (Proc.devRef .tc main_v3) = W1 m ρ c (Proc.devRef .tc main_v3) :=
  (keep_main_v3_10_15 m ρ c).trans (keep_main_v3_1_10 m ρ c)

theorem keep_main_v4_2_4 (c : Dev nD) : W4 m ρ c (Proc.devRef .tc main_v4) = W2 m ρ c (Proc.devRef .tc main_v4) :=
  calc W4 m ρ c (Proc.devRef .tc main_v4)
    _ = W3 m ρ c (Proc.devRef .tc main_v4) := by keep_host hostOps1_1
    _ = W2 m ρ c (Proc.devRef .tc main_v4) := by keep_host hostOps1

theorem keep_main_v5_3_4 (c : Dev nD) : W4 m ρ c (Proc.devRef .tc main_v5) = W3 m ρ c (Proc.devRef .tc main_v5) :=
  calc W4 m ρ c (Proc.devRef .tc main_v5)
    _ = W3 m ρ c (Proc.devRef .tc main_v5) := by keep_host hostOps1_1

theorem keep_main_v10_5_9 (c : Dev nD) : W9 m ρ c (Proc.devRef .tc main_v10) = W5 m ρ c (Proc.devRef .tc main_v10) :=
  calc W9 m ρ c (Proc.devRef .tc main_v10)
    _ = W8 m ρ c (Proc.devRef .tc main_v10) := by keep_host hostOps3_1
    _ = W7 m ρ c (Proc.devRef .tc main_v10) := by keep_host hostOps3
    _ = W6 m ρ c (Proc.devRef .tc main_v10) := W7_of_ne m ρ c main_v10 (by decide)
    _ = W5 m ρ c (Proc.devRef .tc main_v10) := by keep_host hostOps2

theorem keep_main_v18_7_11 (c : Dev nD) : W11 m ρ c (Proc.devRef .tc main_v18) = W7 m ρ c (Proc.devRef .tc main_v18) :=
  calc W11 m ρ c (Proc.devRef .tc main_v18)
    _ = W10 m ρ c (Proc.devRef .tc main_v18) := by keep_host hostOps4
    _ = W9 m ρ c (Proc.devRef .tc main_v18) := W10_of_ne m ρ c main_v18 (by decide)
    _ = W8 m ρ c (Proc.devRef .tc main_v18) := by keep_host hostOps3_1
    _ = W7 m ρ c (Proc.devRef .tc main_v18) := by keep_host hostOps3

theorem keep_main_v19_8_9 (c : Dev nD) : W9 m ρ c (Proc.devRef .tc main_v19) = W8 m ρ c (Proc.devRef .tc main_v19) :=
  calc W9 m ρ c (Proc.devRef .tc main_v19)
    _ = W8 m ρ c (Proc.devRef .tc main_v19) := by keep_host hostOps3_1

theorem keep_main_v24_10_14 (c : Dev nD) : W14 m ρ c (Proc.devRef .tc main_v24) = W10 m ρ c (Proc.devRef .tc main_v24) :=
  calc W14 m ρ c (Proc.devRef .tc main_v24)
    _ = W13 m ρ c (Proc.devRef .tc main_v24) := by keep_host hostOps5_1
    _ = W12 m ρ c (Proc.devRef .tc main_v24) := by keep_host hostOps5
    _ = W11 m ρ c (Proc.devRef .tc main_v24) := W12_of_ne m ρ c main_v24 (by decide)
    _ = W10 m ρ c (Proc.devRef .tc main_v24) := by keep_host hostOps4

theorem keep_main_v33_13_14 (c : Dev nD) : W14 m ρ c (Proc.devRef .tc main_v33) = W13 m ρ c (Proc.devRef .tc main_v33) :=
  calc W14 m ρ c (Proc.devRef .tc main_v33)
    _ = W13 m ρ c (Proc.devRef .tc main_v33) := by keep_host hostOps5_1

theorem keep_main_v32_12_16 (c : Dev nD) : W16 m ρ c (Proc.devRef .tc main_v32) = W12 m ρ c (Proc.devRef .tc main_v32) :=
  calc W16 m ρ c (Proc.devRef .tc main_v32)
    _ = W15 m ρ c (Proc.devRef .tc main_v32) := by keep_host hostOps6
    _ = W14 m ρ c (Proc.devRef .tc main_v32) := W15_of_ne m ρ c main_v32 (by decide)
    _ = W13 m ρ c (Proc.devRef .tc main_v32) := by keep_host hostOps5_1
    _ = W12 m ρ c (Proc.devRef .tc main_v32) := by keep_host hostOps5

end Cert.KernelIdeal.Keeps

end
-- ==== Proof.LibJoin.lean ====
/-
  Two matrices of 64 columns laid side by side, read at an entry.

  `concatenate` along the column axis of `a, b : [R, 64]` is the `[R, 128]` matrix whose row `r` is `a`'s row `r`
  followed by `b`'s row `r`: entry `(r, k)` is `a (r, k)` for `k < 64` and `b (r, k − 64)` otherwise.
-/
import Idealize.ShloMosaic.Lib.Pipeline.Value
import proofs.«424121_j82257213653679_2_alg».proof.Proof.Spec

noncomputable section

namespace Cert.Spec

open Idealize.ShloMosaic Idealize.ShloMosaic.ValueIdx

/-- Entry `(r, k)` of `[a | b]` is the `k`-th of the 128 numbers `joined a b r`. -/
theorem concat_apply {R : Nat} (a b : Mat R 64)
    (h : Shape.Concatenates [(⟨2, ![R, 64]⟩ : Shape), (⟨2, ![R, 64]⟩ : Shape)] (⟨2, ![R, 128]⟩ : Shape) 1)
    (r : Fin R) (k : Fin 128) :
    concatenate (⟨2, ![R, 128]⟩ : Shape) 1 [⟨(⟨2, ![R, 64]⟩ : Shape), a⟩, ⟨(⟨2, ![R, 64]⟩ : Shape), b⟩] h (ix2 r k)
      = joined a b r k := by
  unfold joined
  by_cases hk : k.val < 64
  · rw [dif_pos hk]
    refine concatenate_pair_apply_left (1 : Fin 2) a b h (ix2 r k) rfl (ix2 r ⟨k.val, hk⟩) ?_
    intro d
    match d with
    | ⟨0, _⟩ => rfl
    | ⟨1, _⟩ => rfl
  · rw [dif_neg hk]
    have hk' : k.val - 64 < 64 := by have := k.isLt; omega
    refine concatenate_pair_apply_right (1 : Fin 2) a b h (ix2 r k) rfl rfl (ix2 r ⟨k.val - 64, hk'⟩) ?_ ?_
    · intro d hd
      match d with
      | ⟨0, _⟩ => rfl
      | ⟨1, _⟩ => exact absurd rfl hd
    · show k.val - 64 + 64 = k.val
      omega

end Cert.Spec

end
-- ==== Proof.Embed0.lean ====
/-
  The first region's result array, read whole.

  The region walks the 1,600,000 edge rows in 400 blocks of 4,000; at each block the body computes, entry by entry,
  `tanh (ef r 0 · W 0 j + ef r 1 · W 1 j + b j)` from the block's rows of the raw edge features and the whole 2 × 64 weight
  and the bias, and writes the block back. The blocks tile the rows, so the array after the region is `Spec.embed` of the
  arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Embed0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of the body's block -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(r, j)` of what the body computes from a block `x0` of 4,000 feature rows, the weight `x1` and the bias `x2`:
    the two feature columns are spread along the 64 lanes, the two weight rows and the bias along the 4,000 rows, so the
    entry is `tanh (x0 r 0 · x1 0 j + x0 r 1 · x1 1 j + x2 j)`. -/
theorem embed_block_apply (x0 : Vec Ideal S4000x2 .f32) (x1 : Vec Ideal S2x64 .f32) (x2 : Vec Ideal S64 .f32)
    (r : Fin 4000) (j : Fin 64) :
    (k0_pay1 (F := Ideal) x0 x1 x2) (ix2 r j)
      = Ideal.tanh ((x0 (ix2 r 0) * x1 (ix2 0 j) + x0 (ix2 r 1) * x1 (ix2 1 j)) + x2 (ix1 j)) := by
  unfold k0_pay1
  show Ideal.tanh ((broadcastTo S4000x64 (extractStridedSlice S4000x1 ![0, 0] x0 slices_S4000x2_o0_0_S4000x1) broadcasts_S4000x1_S4000x64 (ix2 r j)
        * broadcastTo S4000x64 (extractStridedSlice S1x64 ![0, 0] x1 slices_S2x64_o0_0_S1x64) broadcasts_S1x64_S4000x64 (ix2 r j)
      + broadcastTo S4000x64 (extractStridedSlice S4000x1 ![0, 1] x0 slices_S4000x2_o0_1_S4000x1) broadcasts_S4000x1_S4000x64 (ix2 r j)
        * broadcastTo S4000x64 (extractStridedSlice S1x64 ![1, 0] x1 slices_S2x64_o1_0_S1x64) broadcasts_S1x64_S4000x64 (ix2 r j))
      + broadcastTo S4000x64 (shapeCast S1x64 x2 shapeCasts_S64_S1x64) broadcasts_S1x64_S4000x64 (ix2 r j)) = _
  rw [broadcastTo_a1_ab_apply, broadcastTo_a1_ab_apply, broadcastTo_1b_ab_apply, broadcastTo_1b_ab_apply, broadcastTo_1b_ab_apply]
  rw [slice2_axis1_apply 0 x0 slices_S4000x2_o0_0_S4000x1 r (0 : Fin 1) (0 : Fin 2) rfl,
    slice2_axis1_apply 1 x0 slices_S4000x2_o0_1_S4000x1 r (0 : Fin 1) (1 : Fin 2) rfl,
    slice2_axis0_apply 0 x1 slices_S2x64_o0_0_S1x64 (0 : Fin 1) j (0 : Fin 2) rfl,
    slice2_axis0_apply 1 x1 slices_S2x64_o1_0_S1x64 (0 : Fin 1) j (1 : Fin 2) rfl,
    shapeCast_a_1a_apply]

-- the TensorCore's buffer contents when the region is entered
variable (V : (c : Dev nD) → (b : Ref sig .tc) → Buf (Elt Ideal) ((c : Thread nD τ).loc b))

/-! ## From the blocks to the array -/

/-- The body reads and writes its whole blocks: every offset is zero. -/
theorem offsets2_zero : (![0, 0] : Fin 2 → Nat) = fun _ => 0 := funext fun a => by fin_cases a <;> rfl
theorem offsets1_zero : (![0] : Fin 1 → Nat) = fun _ => 0 := funext fun a => by fin_cases a <;> rfl

/-- Where each window's block sits at point `t` of the 400: the feature block and the result block are the `t`-th
    4,000 rows, all columns; the weight and the bias are whole at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `Spec.embed` of the arrays the region found: entry `(r, j)` of the block
    is row `4000 · t + r`, column `j` of the result; the feature rows the body read are rows `4000 · t + r` of the edge
    features, and the weight and bias it read are the whole arrays. -/
theorem written_back_eq (c : Dev nD) (t : Fin cfg0.N) :
    (dat0 (F := Ideal) V c).flushed 3 t
      = ((cfg0.win 3).blk t).view.read (Elt Ideal) (Cert.Spec.embed (V c main_arg2) (V c main_arg4) (V c main_arg5)) := by
  show (cfg0.win 3).cut (grid0.coords t) ((dat0 V c).after 3 t) = _
  rw [after0_3]
  unfold out0_3
  rw [View.canon_unit_zero offsets2_zero]
  simp only [View.ld_unit_zero (S := S4000x2) offsets2_zero, View.ld_unit_zero (S := S2x64) offsets2_zero,
    View.ld_unit_zero (S := S64) offsets1_zero]
  obtain ⟨e00, e01, e10, e11, e20, e30, e31⟩ := block_indices t
  have ht : t.val < 400 := lt_of_lt_of_eq t.isLt N_0
  funext y
  obtain ⟨r, j, rfl⟩ : ∃ (r : Fin 4000) (j : Fin 64), y = ix2 r j := ⟨y 0, y 1, eq_ix2 y⟩
  have hr : r.val < 4000 := r.isLt
  show k0_pay1 (F := Ideal) (iblk0 V c 0 t) (iblk0 V c 1 t) (iblk0 V c 2 t) (ix2 r j)
    = Cert.Spec.embed (V c main_arg2) (V c main_arg4) (V c main_arg5) (((cfg0.win 3).blk t).view.emb (ix2 r j))
  refine (embed_block_apply _ _ _ r j).trans ?_
  -- the block's entry (r, j) is the array's entry (4000 · t + r, j)
  have hemb : ((cfg0.win 3).blk t).view.emb (ix2 r j) = ix2 (⟨t.val * 4000 + r.val, by omega⟩ : Fin 1600000) j := by
    funext a; apply Fin.ext
    match a with
    | ⟨0, _⟩ => show win0_3.index t (0 : Fin 2) * 4000 + 1 * r.val = t.val * 4000 + r.val; omega
    | ⟨1, _⟩ => show win0_3.index t (1 : Fin 2) * 64 + 1 * j.val = j.val; omega
  refine Eq.trans ?_ (congrArg (Cert.Spec.embed (V c main_arg2) (V c main_arg4) (V c main_arg5)) hemb).symm
  -- the feature block's row r is the edge features' row 4000 · t + r
  have f0 : ∀ q : Fin 2, iblk0 V c 0 t (ix2 r q) = V c main_arg2 (ix2 (⟨t.val * 4000 + r.val, by omega⟩ : Fin 1600000) q) := by
    intro q
    show V c main_arg2 (((cfg0.win 0).blk t).view.emb (ix2 r q)) = _
    refine congrArg (V c main_arg2) (funext fun a => Fin.ext ?_)
    match a with
    | ⟨0, _⟩ => show win0_0.index t (0 : Fin 2) * 4000 + 1 * r.val = t.val * 4000 + r.val; omega
    | ⟨1, _⟩ => show win0_0.index t (1 : Fin 2) * 2 + 1 * q.val = q.val; omega
  -- the weight's block is the weight
  have f1 : ∀ p : Fin 2, iblk0 V c 1 t (ix2 p j) = V c main_arg4 (ix2 p j) := by
    intro p
    show V c main_arg4 (((cfg0.win 1).blk t).view.emb (ix2 p j)) = _
    refine congrArg (V c main_arg4) (funext fun a => Fin.ext ?_)
    match a with
    | ⟨0, _⟩ => show win0_1.index t (0 : Fin 2) * 2 + 1 * p.val = p.val; omega
    | ⟨1, _⟩ => show win0_1.index t (1 : Fin 2) * 64 + 1 * j.val = j.val; omega
  -- the bias's block is the bias
  have f2 : iblk0 V c 2 t (ix1 j) = V c main_arg5 (ix1 j) := by
    show V c main_arg5 (((cfg0.win 2).blk t).view.emb (ix1 j)) = _
    refine congrArg (V c main_arg5) (funext fun a => Fin.ext ?_)
    match a with
    | ⟨0, _⟩ => show win0_2.index t (0 : Fin 1) * 64 + 1 * j.val = j.val; omega
  rw [f0 0, f0 1, f1 0, f1 1, f2]
  rfl

/-- An entry of the result array is in point `t`'s block iff each coordinate is in the block's range on its axis. -/
theorem mem_rows_block (t : Fin cfg0.N) (i : S1600000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v4).slice (win0_3.rect t)).set ↔ _
  rw [View.set_slice_whole, Rect.mem_set_unit]
  exact Iff.rfl

/-- The 400 blocks of 4,000 rows tile the 1,600,000 rows: row `ρ` is in the block of point `ρ / 4000`. -/
theorem rows_covered (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  have hlt : (i 0).val / 4000 < cfg0.N := by rw [show cfg0.N = 400 from N_0]; omega
  obtain ⟨-, -, -, -, -, e30, e31⟩ := block_indices ⟨(i 0).val / 4000, hlt⟩
  refine ⟨⟨(i 0).val / 4000, hlt⟩, flush0_3 _, ?_⟩
  rw [mem_rows_block]
  intro a
  match a with
  | ⟨0, _⟩ =>
    show win0_3.index ⟨(i 0).val / 4000, hlt⟩ (0 : Fin 2) * 4000 ≤ (i 0).val ∧ (i 0).val < win0_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, hlt⟩ (1 : Fin 2) * 64 ≤ (i 1).val ∧ (i 1).val < win0_3.index ⟨(i 0).val / 4000, hlt⟩ (1 : Fin 2) * 64 + 64
    rw [e31]; omega

/-- After region 0 its output array holds `Spec.embed` of the edge features, the weight and the bias as the region found them. -/
theorem val (c : Dev nD) :
    (dat0 (F := Ideal) V c).arrAt 3 cfg0.N = Cert.Spec.embed (V c main_arg2) (V c main_arg4) (V c main_arg5) :=
  (dat0 (F := Ideal) V c).arrAt_eq_of_cover 3 (Cert.Spec.embed (V c main_arg2) (V c main_arg4) (V c main_arg5))
    (fun t _ => written_back_eq V c t) rows_covered

end Cert.KernelIdeal.Embed0

end
-- ==== Proof.Lin1.lean ====
/-
  Region 1's result array, read whole: one layer of the network over the edge rows.

  The region walks the 1,600,000 rows in 400 blocks of 4,000; at each block the body lays the two input blocks side by
  side, multiplies by the whole 128 × 64 weight, adds the bias and applies `tanh`, and writes the block back. Every row
  of the result depends on the same row of the two inputs only, and the blocks tile the rows, so the array after the
  region is `Spec.lin` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Lin1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's block, entry by entry -/

/-- The offsets of an access to a whole rank-2 block are all zero. -/
theorem hz2 : (![0, 0] : Fin 2 → Nat) = fun _ => 0 := funext fun a => by fin_cases a <;> rfl

/-- The offset of an access to a whole rank-1 block is zero. -/
theorem hz1 : (![0] : Fin 1 → Nat) = fun _ => 0 := funext fun a => by fin_cases a <;> rfl

/-- In the product of a block of 4000 rows of 128 numbers by the 128 × 64 weight, entry `i` of the result reads the left
    operand in row `i 0` … -/
theorem lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … at the column the sum runs over; -/
theorem lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- it reads the right operand in the row the sum runs over … -/
theorem rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- … at column `i 1`. -/
theorem rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry `(r, j)` of the product onto the zero block is row `r` of the left operand against column `j` of the right one. -/
theorem matmul_apply (x : FVec Ideal S4000x128 .f32) (w : FVec Ideal S128x64 .f32) (r : Fin 4000) (j : Fin 64) :
    matmul dot_S4000x128_S128x64_S4000x64_1_0_0_1_n_n none x w (constant (F := Ideal) S4000x64 .f32 0x00000000#32) (ix2 r j)
      = ∑ k : Fin 128, x (ix2 r k) * w (ix2 k j) := by
  refine (Ideal.matmul_constant_zero_apply dot_S4000x128_S128x64_S4000x64_1_0_0_1_n_n none x w (ix2 r j)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r j) ((contrEquiv1 dot_S4000x128_S128x64_S4000x64_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x64_S4000x64_1_0_0_1_n_n.rhsIdx (ix2 r j) ((contrEquiv1 dot_S4000x128_S128x64_S4000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- `tanh` of a block, at an entry, is `tanh` of the entry. -/
theorem tanh_apply {s : Shape} {φ : FTy} (a : FVec Ideal s φ) (i : s.Idx) : tanh a i = Ideal.tanh (a i) := rfl

/-- One layer at entry `(r, j)`: `tanh` of the joined row `r` against column `j` of the weight, plus the bias at `j`. -/
theorem lin_apply {R : Nat} (a b : Cert.Spec.Mat R 64) (W : Cert.Spec.Mat 128 64) (bias : Cert.Spec.Row 64) (r : Fin R) (j : Fin 64) :
    Cert.Spec.lin a b W bias (ix2 r j)
      = Ideal.tanh ((∑ k : Fin 128, Cert.Spec.joined a b r k * W (ix2 k j)) + bias (ix1 j)) := rfl

/-- THE BODY'S BLOCK is one layer of the four blocks it loaded: the two input blocks side by side, times the weight, plus the
    bias broadcast down the rows, through `tanh`. -/
theorem pay_apply (x0 x1 : Vec Ideal S4000x64 .f32) (x2 : Vec Ideal S128x64 .f32) (x3 : Vec Ideal S64 .f32)
    (r : Fin 4000) (j : Fin 64) :
    k1_pay1 (F := Ideal) x0 x1 x2 x3 (ix2 r j) = Cert.Spec.lin x0 x1 x2 x3 (ix2 r j) := by
  rw [lin_apply]
  unfold k1_pay1
  rw [tanh_apply, addf_apply, matmul_apply, broadcastTo_1b_ab_apply, shapeCast_a_1a_apply]
  simp only [shapeCast_self]
  congr 2
  refine Finset.sum_congr rfl fun k _ => ?_
  rw [Cert.Spec.concat_apply]

/-! ## The blocks as rows of the arrays -/

/-- The printed index maps, decided over the grid: point `t` takes block `t` of the rows of the two inputs and of the output,
    and the whole weight and the whole bias. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row `r` of block `t` is row `t · 4000 + r` of the 1600000. -/
def row (t : Fin cfg1.N) (r : Fin 4000) : Fin 1600000 :=
  ⟨t.val * 4000 + r.val, by
    have ht : t.val < 400 := Nat.lt_of_lt_of_eq t.isLt N_1
    have hr := r.isLt
    omega⟩

/-- Entry `(r, j)` of the first input's block at point `t` is entry `(t · 4000 + r, j)` of its array. -/
theorem blk0_apply (c : Dev nD) (t : Fin cfg1.N) (r : Fin 4000) (j : Fin 64) :
    (iblk1 V c 0 t : Vec Ideal S4000x64 .f32) (ix2 r j) = (V c main_v5 : Vec Ideal S1600000x64 .f32) (ix2 (row t r) j) := by
  obtain ⟨e0, e1, -⟩ := idx_facts t
  unfold iblk1
  rw [View.read_apply]
  show V c main_v5 _ = V c main_v5 _
  congr 1
  funext a
  apply Fin.ext
  match a with
  | ⟨0, _⟩ => show win1_0.index t (0 : Fin 2) * 4000 + 1 * r.val = t.val * 4000 + r.val; rw [e0]; omega
  | ⟨1, _⟩ => show win1_0.index t (1 : Fin 2) * 64 + 1 * j.val = j.val; rw [e1]; omega

/-- Entry `(r, j)` of the second input's block at point `t` is entry `(t · 4000 + r, j)` of its array. -/
theorem blk1_apply (c : Dev nD) (t : Fin cfg1.N) (r : Fin 4000) (j : Fin 64) :
    (iblk1 V c 1 t : Vec Ideal S4000x64 .f32) (ix2 r j) = (V c main_v4 : Vec Ideal S1600000x64 .f32) (ix2 (row t r) j) := by
  obtain ⟨-, -, e0, e1, -⟩ := idx_facts t
  unfold iblk1
  rw [View.read_apply]
  show V c main_v4 _ = V c main_v4 _
  congr 1
  funext a
  apply Fin.ext
  match a with
  | ⟨0, _⟩ => show win1_1.index t (0 : Fin 2) * 4000 + 1 * r.val = t.val * 4000 + r.val; rw [e0]; omega
  | ⟨1, _⟩ => show win1_1.index t (1 : Fin 2) * 64 + 1 * j.val = j.val; rw [e1]; omega

/-- The weight's block at every point is the whole weight. -/
theorem blk2_apply (c : Dev nD) (t : Fin cfg1.N) (k : Fin 128) (j : Fin 64) :
    (iblk1 V c 2 t : Vec Ideal S128x64 .f32) (ix2 k j) = (V c main_v7 : Vec Ideal S128x64 .f32) (ix2 k j) := by
  obtain ⟨-, -, -, -, e0, e1, -⟩ := idx_facts t
  unfold iblk1
  rw [View.read_apply]
  show V c main_v7 _ = V c main_v7 _
  congr 1
  funext a
  apply Fin.ext
  match a with
  | ⟨0, _⟩ => show win1_2.index t (0 : Fin 2) * 128 + 1 * k.val = k.val; rw [e0]; omega
  | ⟨1, _⟩ => show win1_2.index t (1 : Fin 2) * 64 + 1 * j.val = j.val; rw [e1]; omega

/-- The bias's block at every point is the whole bias. -/
theorem blk3_apply (c : Dev nD) (t : Fin cfg1.N) (j : Fin 64) :
    (iblk1 V c 3 t : Vec Ideal S64 .f32) (ix1 j) = (V c main_v9 : Vec Ideal S64 .f32) (ix1 j) := by
  obtain ⟨-, -, -, -, -, -, e0, -⟩ := idx_facts t
  unfold iblk1
  rw [View.read_apply]
  show V c main_v9 _ = V c main_v9 _
  congr 1
  funext a
  apply Fin.ext
  match a with
  | ⟨0, _⟩ => show win1_3.index t (0 : Fin 1) * 64 + 1 * j.val = j.val; rw [e0]; omega

/-- Entry `(r, j)` of the output's block at point `t` sits at `(t · 4000 + r, j)` in the array. -/
theorem out_emb (t : Fin cfg1.N) (r : Fin 4000) (j : Fin 64) :
    ((cfg1.win 4).blk t).view.emb (ix2 r j) = (ix2 (row t r) j : S1600000x64.Idx) := by
  obtain ⟨-, -, -, -, -, -, -, e0, e1⟩ := idx_facts t
  funext a
  apply Fin.ext
  match a with
  | ⟨0, _⟩ => show win1_4.index t (0 : Fin 2) * 4000 + 1 * r.val = t.val * 4000 + r.val; rw [e0]; omega
  | ⟨1, _⟩ => show win1_4.index t (1 : Fin 2) * 64 + 1 * j.val = j.val; rw [e1]; omega

/-- The joined row `r` of the two input blocks at point `t` is the joined row `t · 4000 + r` of the two arrays. -/
theorem joined_blk (c : Dev nD) (t : Fin cfg1.N) (r : Fin 4000) (k : Fin 128) :
    Cert.Spec.joined (iblk1 V c 0 t : Vec Ideal S4000x64 .f32) (iblk1 V c 1 t : Vec Ideal S4000x64 .f32) r k
      = Cert.Spec.joined (V c main_v5 : Vec Ideal S1600000x64 .f32) (V c main_v4 : Vec Ideal S1600000x64 .f32) (row t r) k := by
  unfold Cert.Spec.joined
  by_cases h : k.val < 64
  · rw [dif_pos h, dif_pos h]; exact blk0_apply V c t r _
  · rw [dif_neg h, dif_neg h]; exact blk1_apply V c t r _

/-! ## From the blocks to the array -/

/-- WHAT POINT `t` WRITES BACK is block `t` of one layer of the four arrays as the region found them. -/
theorem flushed_eq (c : Dev nD) (t : Fin cfg1.N) :
    (dat1 (F := Ideal) V c).flushed 4 t
      = ((cfg1.win 4).blk t).view.read (Elt Ideal) (Cert.Spec.lin (V c main_v5) (V c main_v4) (V c main_v7) (V c main_v9)) := by
  show (cfg1.win 4).cut (grid1.coords t) ((dat1 (F := Ideal) V c).after 4 t) = _
  rw [after1_4]
  unfold out1_4
  rw [View.canon_unit_zero hz2]
  simp only [View.ld_unit_zero (S := S4000x64) hz2, View.ld_unit_zero (S := S128x64) hz2, View.ld_unit_zero (S := S64) hz1]
  funext y
  obtain ⟨r, j, rfl⟩ : ∃ (r : Fin 4000) (j : Fin 64), y = ix2 r j := ⟨y 0, y 1, eq_ix2 y⟩
  show k1_pay1 (F := Ideal) (iblk1 V c 0 t) (iblk1 V c 1 t) (iblk1 V c 2 t) (iblk1 V c 3 t) (ix2 r j)
    = Cert.Spec.lin (V c main_v5) (V c main_v4) (V c main_v7) (V c main_v9) (((cfg1.win 4).blk t).view.emb (ix2 r j))
  rw [out_emb, pay_apply, lin_apply, lin_apply, blk3_apply]
  congr 2
  refine Finset.sum_congr rfl fun k _ => ?_
  rw [joined_blk, blk2_apply]

/-- An index of the array is in point `t`'s block iff each coordinate is in the block's range on its axis. -/
theorem mem_blk (t : Fin cfg1.N) (i : S1600000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v10).slice (win1_4.rect t)).set ↔ _
  rw [View.set_slice_whole, Rect.mem_set_unit]
  exact Iff.rfl

/-- THE BLOCKS TILE THE ROWS: row `n` of the array is in the block of point `n / 4000`. -/
theorem cover (i : S1600000x64.Idx) :
    ∃ t : Fin cfg1.N, (cfg1.win 4).flush t = true ∧ i ∈ ((cfg1.win 4).blk t).view.set := by
  have hi0 : (i 0).val < 1600000 := (i 0).isLt
  have hi1 : (i 1).val < 64 := (i 1).isLt
  obtain ⟨t, ht⟩ : ∃ t : Fin cfg1.N, t.val = (i 0).val / 4000 :=
    ⟨⟨(i 0).val / 4000, by rw [show cfg1.N = 400 from N_1]; omega⟩, rfl⟩
  obtain ⟨-, -, -, -, -, -, -, e0, e1⟩ := idx_facts t
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- After region 1 its output array holds `Spec.lin` of its four input arrays as the region found them. -/
theorem val (c : Dev nD) :
    (dat1 (F := Ideal) V c).arrAt 4 cfg1.N = Cert.Spec.lin (V c main_v5) (V c main_v4) (V c main_v7) (V c main_v9) := by
  exact (dat1 (F := Ideal) V c).arrAt_eq_of_cover 4 _ (fun t _ => flushed_eq V c t) cover

end Cert.KernelIdeal.Lin1

end
-- ==== Proof.Lin2.lean ====
/-
  Region 2's result array, read whole: one layer of the network over the node rows.

  The region walks the 50,000 rows in 10 blocks of 5,000; at each block the body lays the two input blocks side by
  side, multiplies by the whole 128 × 64 weight, adds the bias and applies `tanh`, and writes the block back. Every row
  of the result depends on the same row of the two inputs only, and the blocks tile the rows, so the array after the
  region is `Spec.lin` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Lin2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's block, entry by entry -/

/-- The offsets of an access to a whole rank-2 block are all zero. -/
theorem hz2 : (![0, 0] : Fin 2 → Nat) = fun _ => 0 := funext fun a => by fin_cases a <;> rfl

/-- The offset of an access to a whole rank-1 block is zero. -/
theorem hz1 : (![0] : Fin 1 → Nat) = fun _ => 0 := funext fun a => by fin_cases a <;> rfl

/-- In the product of a block of 5000 rows of 128 numbers by the 128 × 64 weight, entry `i` of the result reads the left
    operand in row `i 0` … -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the column the sum runs over; -/
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- it reads the right operand in the row the sum runs over … -/
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … at column `i 1`. -/
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(r, j)` of the product onto the zero block is row `r` of the left operand against column `j` of the right one. -/
theorem matmul_apply (x : FVec Ideal S5000x128 .f32) (w : FVec Ideal S128x64 .f32) (r : Fin 5000) (j : Fin 64) :
    matmul dot_S5000x128_S128x64_S5000x64_1_0_0_1_n_n none x w (constant (F := Ideal) S5000x64 .f32 0x00000000#32) (ix2 r j)
      = ∑ k : Fin 128, x (ix2 r k) * w (ix2 k j) := by
  refine (Ideal.matmul_constant_zero_apply dot_S5000x128_S128x64_S5000x64_1_0_0_1_n_n none x w (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- `tanh` of a block, at an entry, is `tanh` of the entry. -/
theorem tanh_apply {s : Shape} {φ : FTy} (a : FVec Ideal s φ) (i : s.Idx) : tanh a i = Ideal.tanh (a i) := rfl

/-- One layer at entry `(r, j)`: `tanh` of the joined row `r` against column `j` of the weight, plus the bias at `j`. -/
theorem lin_apply {R : Nat} (a b : Cert.Spec.Mat R 64) (W : Cert.Spec.Mat 128 64) (bias : Cert.Spec.Row 64) (r : Fin R) (j : Fin 64) :
    Cert.Spec.lin a b W bias (ix2 r j)
      = Ideal.tanh ((∑ k : Fin 128, Cert.Spec.joined a b r k * W (ix2 k j)) + bias (ix1 j)) := rfl

/-- THE BODY'S BLOCK is one layer of the four blocks it loaded: the two input blocks side by side, times the weight, plus the
    bias broadcast down the rows, through `tanh`. -/
theorem pay_apply (x0 x1 : Vec Ideal S5000x64 .f32) (x2 : Vec Ideal S128x64 .f32) (x3 : Vec Ideal S64 .f32)
    (r : Fin 5000) (j : Fin 64) :
    k2_pay1 (F := Ideal) x0 x1 x2 x3 (ix2 r j) = Cert.Spec.lin x0 x1 x2 x3 (ix2 r j) := by
  rw [lin_apply]
  unfold k2_pay1
  rw [tanh_apply, addf_apply, matmul_apply, broadcastTo_1b_ab_apply, shapeCast_a_1a_apply]
  simp only [shapeCast_self]
  congr 2
  refine Finset.sum_congr rfl fun k _ => ?_
  rw [Cert.Spec.concat_apply]

/-! ## The blocks as rows of the arrays -/

/-- The printed index maps, decided over the grid: point `t` takes block `t` of the rows of the two inputs and of the output,
    and the whole weight and the whole bias. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row `r` of block `t` is row `t · 5000 + r` of the 50000. -/
def row (t : Fin cfg2.N) (r : Fin 5000) : Fin 50000 :=
  ⟨t.val * 5000 + r.val, by
    have ht : t.val < 10 := Nat.lt_of_lt_of_eq t.isLt N_2
    have hr := r.isLt
    omega⟩

/-- Entry `(r, j)` of the first input's block at point `t` is entry `(t · 5000 + r, j)` of its array. -/
theorem blk0_apply (c : Dev nD) (t : Fin cfg2.N) (r : Fin 5000) (j : Fin 64) :
    (iblk2 V c 0 t : Vec Ideal S5000x64 .f32) (ix2 r j) = (V c main_arg0 : Vec Ideal S50000x64 .f32) (ix2 (row t r) j) := by
  obtain ⟨e0, e1, -⟩ := idx_facts t
  unfold iblk2
  rw [View.read_apply]
  show V c main_arg0 _ = V c main_arg0 _
  congr 1
  funext a
  apply Fin.ext
  match a with
  | ⟨0, _⟩ => show win2_0.index t (0 : Fin 2) * 5000 + 1 * r.val = t.val * 5000 + r.val; rw [e0]; omega
  | ⟨1, _⟩ => show win2_0.index t (1 : Fin 2) * 64 + 1 * j.val = j.val; rw [e1]; omega

/-- Entry `(r, j)` of the second input's block at point `t` is entry `(t · 5000 + r, j)` of its array. -/
theorem blk1_apply (c : Dev nD) (t : Fin cfg2.N) (r : Fin 5000) (j : Fin 64) :
    (iblk2 V c 1 t : Vec Ideal S5000x64 .f32) (ix2 r j) = (V c main_v13 : Vec Ideal S50000x64 .f32) (ix2 (row t r) j) := by
  obtain ⟨-, -, e0, e1, -⟩ := idx_facts t
  unfold iblk2
  rw [View.read_apply]
  show V c main_v13 _ = V c main_v13 _
  congr 1
  funext a
  apply Fin.ext
  match a with
  | ⟨0, _⟩ => show win2_1.index t (0 : Fin 2) * 5000 + 1 * r.val = t.val * 5000 + r.val; rw [e0]; omega
  | ⟨1, _⟩ => show win2_1.index t (1 : Fin 2) * 64 + 1 * j.val = j.val; rw [e1]; omega

/-- The weight's block at every point is the whole weight. -/
theorem blk2_apply (c : Dev nD) (t : Fin cfg2.N) (k : Fin 128) (j : Fin 64) :
    (iblk2 V c 2 t : Vec Ideal S128x64 .f32) (ix2 k j) = (V c main_v15 : Vec Ideal S128x64 .f32) (ix2 k j) := by
  obtain ⟨-, -, -, -, e0, e1, -⟩ := idx_facts t
  unfold iblk2
  rw [View.read_apply]
  show V c main_v15 _ = V c main_v15 _
  congr 1
  funext a
  apply Fin.ext
  match a with
  | ⟨0, _⟩ => show win2_2.index t (0 : Fin 2) * 128 + 1 * k.val = k.val; rw [e0]; omega
  | ⟨1, _⟩ => show win2_2.index t (1 : Fin 2) * 64 + 1 * j.val = j.val; rw [e1]; omega

/-- The bias's block at every point is the whole bias. -/
theorem blk3_apply (c : Dev nD) (t : Fin cfg2.N) (j : Fin 64) :
    (iblk2 V c 3 t : Vec Ideal S64 .f32) (ix1 j) = (V c main_v17 : Vec Ideal S64 .f32) (ix1 j) := by
  obtain ⟨-, -, -, -, -, -, e0, -⟩ := idx_facts t
  unfold iblk2
  rw [View.read_apply]
  show V c main_v17 _ = V c main_v17 _
  congr 1
  funext a
  apply Fin.ext
  match a with
  | ⟨0, _⟩ => show win2_3.index t (0 : Fin 1) * 64 + 1 * j.val = j.val; rw [e0]; omega

/-- Entry `(r, j)` of the output's block at point `t` sits at `(t · 5000 + r, j)` in the array. -/
theorem out_emb (t : Fin cfg2.N) (r : Fin 5000) (j : Fin 64) :
    ((cfg2.win 4).blk t).view.emb (ix2 r j) = (ix2 (row t r) j : S50000x64.Idx) := by
  obtain ⟨-, -, -, -, -, -, -, e0, e1⟩ := idx_facts t
  funext a
  apply Fin.ext
  match a with
  | ⟨0, _⟩ => show win2_4.index t (0 : Fin 2) * 5000 + 1 * r.val = t.val * 5000 + r.val; rw [e0]; omega
  | ⟨1, _⟩ => show win2_4.index t (1 : Fin 2) * 64 + 1 * j.val = j.val; rw [e1]; omega

/-- The joined row `r` of the two input blocks at point `t` is the joined row `t · 5000 + r` of the two arrays. -/
theorem joined_blk (c : Dev nD) (t : Fin cfg2.N) (r : Fin 5000) (k : Fin 128) :
    Cert.Spec.joined (iblk2 V c 0 t : Vec Ideal S5000x64 .f32) (iblk2 V c 1 t : Vec Ideal S5000x64 .f32) r k
      = Cert.Spec.joined (V c main_arg0 : Vec Ideal S50000x64 .f32) (V c main_v13 : Vec Ideal S50000x64 .f32) (row t r) k := by
  unfold Cert.Spec.joined
  by_cases h : k.val < 64
  · rw [dif_pos h, dif_pos h]; exact blk0_apply V c t r _
  · rw [dif_neg h, dif_neg h]; exact blk1_apply V c t r _

/-! ## From the blocks to the array -/

/-- WHAT POINT `t` WRITES BACK is block `t` of one layer of the four arrays as the region found them. -/
theorem flushed_eq (c : Dev nD) (t : Fin cfg2.N) :
    (dat2 (F := Ideal) V c).flushed 4 t
      = ((cfg2.win 4).blk t).view.read (Elt Ideal) (Cert.Spec.lin (V c main_arg0) (V c main_v13) (V c main_v15) (V c main_v17)) := by
  show (cfg2.win 4).cut (grid2.coords t) ((dat2 (F := Ideal) V c).after 4 t) = _
  rw [after2_4]
  unfold out2_4
  rw [View.canon_unit_zero hz2]
  simp only [View.ld_unit_zero (S := S5000x64) hz2, View.ld_unit_zero (S := S128x64) hz2, View.ld_unit_zero (S := S64) hz1]
  funext y
  obtain ⟨r, j, rfl⟩ : ∃ (r : Fin 5000) (j : Fin 64), y = ix2 r j := ⟨y 0, y 1, eq_ix2 y⟩
  show k2_pay1 (F := Ideal) (iblk2 V c 0 t) (iblk2 V c 1 t) (iblk2 V c 2 t) (iblk2 V c 3 t) (ix2 r j)
    = Cert.Spec.lin (V c main_arg0) (V c main_v13) (V c main_v15) (V c main_v17) (((cfg2.win 4).blk t).view.emb (ix2 r j))
  rw [out_emb, pay_apply, lin_apply, lin_apply, blk3_apply]
  congr 2
  refine Finset.sum_congr rfl fun k _ => ?_
  rw [joined_blk, blk2_apply]

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v18).slice (win2_4.rect t)).set ↔ _
  rw [View.set_slice_whole, Rect.mem_set_unit]
  exact Iff.rfl

/-- THE BLOCKS TILE THE ROWS: row `n` of the array is in the block of point `n / 5000`. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, -, -, e0, e1⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- After region 2 its output array holds `Spec.lin` of its four input arrays as the region found them. -/
theorem val (c : Dev nD) :
    (dat2 (F := Ideal) V c).arrAt 4 cfg2.N = Cert.Spec.lin (V c main_arg0) (V c main_v13) (V c main_v15) (V c main_v17) := by
  exact (dat2 (F := Ideal) V c).arrAt_eq_of_cover 4 _ (fun t _ => flushed_eq V c t) cover

end Cert.KernelIdeal.Lin2

end
-- ==== Proof.Lin3.lean ====
/-
  Region 3's result array, read whole: one layer of the network over the edge rows.

  The region walks the 1,600,000 rows in 400 blocks of 4,000; at each block the body lays the two input blocks side by
  side, multiplies by the whole 128 × 64 weight, adds the bias and applies `tanh`, and writes the block back. Every row
  of the result depends on the same row of the two inputs only, and the blocks tile the rows, so the array after the
  region is `Spec.lin` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Lin3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's block, entry by entry -/

/-- The offsets of an access to a whole rank-2 block are all zero. -/
theorem hz2 : (![0, 0] : Fin 2 → Nat) = fun _ => 0 := funext fun a => by fin_cases a <;> rfl

/-- The offset of an access to a whole rank-1 block is zero. -/
theorem hz1 : (![0] : Fin 1 → Nat) = fun _ => 0 := funext fun a => by fin_cases a <;> rfl

/-- In the product of a block of 4000 rows of 128 numbers by the 128 × 64 weight, entry `i` of the result reads the left
    operand in row `i 0` … -/
theorem lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … at the column the sum runs over; -/
theorem lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- it reads the right operand in the row the sum runs over … -/
theorem rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- … at column `i 1`. -/
theorem rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry `(r, j)` of the product onto the zero block is row `r` of the left operand against column `j` of the right one. -/
theorem matmul_apply (x : FVec Ideal S4000x128 .f32) (w : FVec Ideal S128x64 .f32) (r : Fin 4000) (j : Fin 64) :
    matmul dot_S4000x128_S128x64_S4000x64_1_0_0_1_n_n none x w (constant (F := Ideal) S4000x64 .f32 0x00000000#32) (ix2 r j)
      = ∑ k : Fin 128, x (ix2 r k) * w (ix2 k j) := by
  refine (Ideal.matmul_constant_zero_apply dot_S4000x128_S128x64_S4000x64_1_0_0_1_n_n none x w (ix2 r j)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r j) ((contrEquiv1 dot_S4000x128_S128x64_S4000x64_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x64_S4000x64_1_0_0_1_n_n.rhsIdx (ix2 r j) ((contrEquiv1 dot_S4000x128_S128x64_S4000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- `tanh` of a block, at an entry, is `tanh` of the entry. -/
theorem tanh_apply {s : Shape} {φ : FTy} (a : FVec Ideal s φ) (i : s.Idx) : tanh a i = Ideal.tanh (a i) := rfl

/-- One layer at entry `(r, j)`: `tanh` of the joined row `r` against column `j` of the weight, plus the bias at `j`. -/
theorem lin_apply {R : Nat} (a b : Cert.Spec.Mat R 64) (W : Cert.Spec.Mat 128 64) (bias : Cert.Spec.Row 64) (r : Fin R) (j : Fin 64) :
    Cert.Spec.lin a b W bias (ix2 r j)
      = Ideal.tanh ((∑ k : Fin 128, Cert.Spec.joined a b r k * W (ix2 k j)) + bias (ix1 j)) := rfl

/-- THE BODY'S BLOCK is one layer of the four blocks it loaded: the two input blocks side by side, times the weight, plus the
    bias broadcast down the rows, through `tanh`. -/
theorem pay_apply (x0 x1 : Vec Ideal S4000x64 .f32) (x2 : Vec Ideal S128x64 .f32) (x3 : Vec Ideal S64 .f32)
    (r : Fin 4000) (j : Fin 64) :
    k3_pay1 (F := Ideal) x0 x1 x2 x3 (ix2 r j) = Cert.Spec.lin x0 x1 x2 x3 (ix2 r j) := by
  rw [lin_apply]
  unfold k3_pay1
  rw [tanh_apply, addf_apply, matmul_apply, broadcastTo_1b_ab_apply, shapeCast_a_1a_apply]
  simp only [shapeCast_self]
  congr 2
  refine Finset.sum_congr rfl fun k _ => ?_
  rw [Cert.Spec.concat_apply]

/-! ## The blocks as rows of the arrays -/

/-- The printed index maps, decided over the grid: point `t` takes block `t` of the rows of the two inputs and of the output,
    and the whole weight and the whole bias. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row `r` of block `t` is row `t · 4000 + r` of the 1600000. -/
def row (t : Fin cfg3.N) (r : Fin 4000) : Fin 1600000 :=
  ⟨t.val * 4000 + r.val, by
    have ht : t.val < 400 := Nat.lt_of_lt_of_eq t.isLt N_3
    have hr := r.isLt
    omega⟩

/-- Entry `(r, j)` of the first input's block at point `t` is entry `(t · 4000 + r, j)` of its array. -/
theorem blk0_apply (c : Dev nD) (t : Fin cfg3.N) (r : Fin 4000) (j : Fin 64) :
    (iblk3 V c 0 t : Vec Ideal S4000x64 .f32) (ix2 r j) = (V c main_v19 : Vec Ideal S1600000x64 .f32) (ix2 (row t r) j) := by
  obtain ⟨e0, e1, -⟩ := idx_facts t
  unfold iblk3
  rw [View.read_apply]
  show V c main_v19 _ = V c main_v19 _
  congr 1
  funext a
  apply Fin.ext
  match a with
  | ⟨0, _⟩ => show win3_0.index t (0 : Fin 2) * 4000 + 1 * r.val = t.val * 4000 + r.val; rw [e0]; omega
  | ⟨1, _⟩ => show win3_0.index t (1 : Fin 2) * 64 + 1 * j.val = j.val; rw [e1]; omega

/-- Entry `(r, j)` of the second input's block at point `t` is entry `(t · 4000 + r, j)` of its array. -/
theorem blk1_apply (c : Dev nD) (t : Fin cfg3.N) (r : Fin 4000) (j : Fin 64) :
    (iblk3 V c 1 t : Vec Ideal S4000x64 .f32) (ix2 r j) = (V c main_v10 : Vec Ideal S1600000x64 .f32) (ix2 (row t r) j) := by
  obtain ⟨-, -, e0, e1, -⟩ := idx_facts t
  unfold iblk3
  rw [View.read_apply]
  show V c main_v10 _ = V c main_v10 _
  congr 1
  funext a
  apply Fin.ext
  match a with
  | ⟨0, _⟩ => show win3_1.index t (0 : Fin 2) * 4000 + 1 * r.val = t.val * 4000 + r.val; rw [e0]; omega
  | ⟨1, _⟩ => show win3_1.index t (1 : Fin 2) * 64 + 1 * j.val = j.val; rw [e1]; omega

/-- The weight's block at every point is the whole weight. -/
theorem blk2_apply (c : Dev nD) (t : Fin cfg3.N) (k : Fin 128) (j : Fin 64) :
    (iblk3 V c 2 t : Vec Ideal S128x64 .f32) (ix2 k j) = (V c main_v21 : Vec Ideal S128x64 .f32) (ix2 k j) := by
  obtain ⟨-, -, -, -, e0, e1, -⟩ := idx_facts t
  unfold iblk3
  rw [View.read_apply]
  show V c main_v21 _ = V c main_v21 _
  congr 1
  funext a
  apply Fin.ext
  match a with
  | ⟨0, _⟩ => show win3_2.index t (0 : Fin 2) * 128 + 1 * k.val = k.val; rw [e0]; omega
  | ⟨1, _⟩ => show win3_2.index t (1 : Fin 2) * 64 + 1 * j.val = j.val; rw [e1]; omega

/-- The bias's block at every point is the whole bias. -/
theorem blk3_apply (c : Dev nD) (t : Fin cfg3.N) (j : Fin 64) :
    (iblk3 V c 3 t : Vec Ideal S64 .f32) (ix1 j) = (V c main_v23 : Vec Ideal S64 .f32) (ix1 j) := by
  obtain ⟨-, -, -, -, -, -, e0, -⟩ := idx_facts t
  unfold iblk3
  rw [View.read_apply]
  show V c main_v23 _ = V c main_v23 _
  congr 1
  funext a
  apply Fin.ext
  match a with
  | ⟨0, _⟩ => show win3_3.index t (0 : Fin 1) * 64 + 1 * j.val = j.val; rw [e0]; omega

/-- Entry `(r, j)` of the output's block at point `t` sits at `(t · 4000 + r, j)` in the array. -/
theorem out_emb (t : Fin cfg3.N) (r : Fin 4000) (j : Fin 64) :
    ((cfg3.win 4).blk t).view.emb (ix2 r j) = (ix2 (row t r) j : S1600000x64.Idx) := by
  obtain ⟨-, -, -, -, -, -, -, e0, e1⟩ := idx_facts t
  funext a
  apply Fin.ext
  match a with
  | ⟨0, _⟩ => show win3_4.index t (0 : Fin 2) * 4000 + 1 * r.val = t.val * 4000 + r.val; rw [e0]; omega
  | ⟨1, _⟩ => show win3_4.index t (1 : Fin 2) * 64 + 1 * j.val = j.val; rw [e1]; omega

/-- The joined row `r` of the two input blocks at point `t` is the joined row `t · 4000 + r` of the two arrays. -/
theorem joined_blk (c : Dev nD) (t : Fin cfg3.N) (r : Fin 4000) (k : Fin 128) :
    Cert.Spec.joined (iblk3 V c 0 t : Vec Ideal S4000x64 .f32) (iblk3 V c 1 t : Vec Ideal S4000x64 .f32) r k
      = Cert.Spec.joined (V c main_v19 : Vec Ideal S1600000x64 .f32) (V c main_v10 : Vec Ideal S1600000x64 .f32) (row t r) k := by
  unfold Cert.Spec.joined
  by_cases h : k.val < 64
  · rw [dif_pos h, dif_pos h]; exact blk0_apply V c t r _
  · rw [dif_neg h, dif_neg h]; exact blk1_apply V c t r _

/-! ## From the blocks to the array -/

/-- WHAT POINT `t` WRITES BACK is block `t` of one layer of the four arrays as the region found them. -/
theorem flushed_eq (c : Dev nD) (t : Fin cfg3.N) :
    (dat3 (F := Ideal) V c).flushed 4 t
      = ((cfg3.win 4).blk t).view.read (Elt Ideal) (Cert.Spec.lin (V c main_v19) (V c main_v10) (V c main_v21) (V c main_v23)) := by
  show (cfg3.win 4).cut (grid3.coords t) ((dat3 (F := Ideal) V c).after 4 t) = _
  rw [after3_4]
  unfold out3_4
  rw [View.canon_unit_zero hz2]
  simp only [View.ld_unit_zero (S := S4000x64) hz2, View.ld_unit_zero (S := S128x64) hz2, View.ld_unit_zero (S := S64) hz1]
  funext y
  obtain ⟨r, j, rfl⟩ : ∃ (r : Fin 4000) (j : Fin 64), y = ix2 r j := ⟨y 0, y 1, eq_ix2 y⟩
  show k3_pay1 (F := Ideal) (iblk3 V c 0 t) (iblk3 V c 1 t) (iblk3 V c 2 t) (iblk3 V c 3 t) (ix2 r j)
    = Cert.Spec.lin (V c main_v19) (V c main_v10) (V c main_v21) (V c main_v23) (((cfg3.win 4).blk t).view.emb (ix2 r j))
  rw [out_emb, pay_apply, lin_apply, lin_apply, blk3_apply]
  congr 2
  refine Finset.sum_congr rfl fun k _ => ?_
  rw [joined_blk, blk2_apply]

/-- An index of the array is in point `t`'s block iff each coordinate is in the block's range on its axis. -/
theorem mem_blk (t : Fin cfg3.N) (i : S1600000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v24).slice (win3_4.rect t)).set ↔ _
  rw [View.set_slice_whole, Rect.mem_set_unit]
  exact Iff.rfl

/-- THE BLOCKS TILE THE ROWS: row `n` of the array is in the block of point `n / 4000`. -/
theorem cover (i : S1600000x64.Idx) :
    ∃ t : Fin cfg3.N, (cfg3.win 4).flush t = true ∧ i ∈ ((cfg3.win 4).blk t).view.set := by
  have hi0 : (i 0).val < 1600000 := (i 0).isLt
  have hi1 : (i 1).val < 64 := (i 1).isLt
  obtain ⟨t, ht⟩ : ∃ t : Fin cfg3.N, t.val = (i 0).val / 4000 :=
    ⟨⟨(i 0).val / 4000, by rw [show cfg3.N = 400 from N_3]; omega⟩, rfl⟩
  obtain ⟨-, -, -, -, -, -, -, e0, e1⟩ := idx_facts t
  refine ⟨t, flush3_4 t, ?_⟩
  rw [mem_blk]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 64 ≤ (i 1).val ∧ (i 1).val < win3_4.index t (1 : Fin 2) * 64 + 64; omega

/-- After region 3 its output array holds `Spec.lin` of its four input arrays as the region found them. -/
theorem val (c : Dev nD) :
    (dat3 (F := Ideal) V c).arrAt 4 cfg3.N = Cert.Spec.lin (V c main_v19) (V c main_v10) (V c main_v21) (V c main_v23) := by
  exact (dat3 (F := Ideal) V c).arrAt_eq_of_cover 4 _ (fun t _ => flushed_eq V c t) cover

end Cert.KernelIdeal.Lin3

end
-- ==== Proof.Lin4.lean ====
/-
  Region 4's result array, read whole: one layer of the network over the node rows.

  The region walks the 50,000 rows in 10 blocks of 5,000; at each block the body lays the two input blocks side by
  side, multiplies by the whole 128 × 64 weight, adds the bias and applies `tanh`, and writes the block back. Every row
  of the result depends on the same row of the two inputs only, and the blocks tile the rows, so the array after the
  region is `Spec.lin` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Lin4

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's block, entry by entry -/

/-- The offsets of an access to a whole rank-2 block are all zero. -/
theorem hz2 : (![0, 0] : Fin 2 → Nat) = fun _ => 0 := funext fun a => by fin_cases a <;> rfl

/-- The offset of an access to a whole rank-1 block is zero. -/
theorem hz1 : (![0] : Fin 1 → Nat) = fun _ => 0 := funext fun a => by fin_cases a <;> rfl

/-- In the product of a block of 5000 rows of 128 numbers by the 128 × 64 weight, entry `i` of the result reads the left
    operand in row `i 0` … -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the column the sum runs over; -/
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- it reads the right operand in the row the sum runs over … -/
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … at column `i 1`. -/
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(r, j)` of the product onto the zero block is row `r` of the left operand against column `j` of the right one. -/
theorem matmul_apply (x : FVec Ideal S5000x128 .f32) (w : FVec Ideal S128x64 .f32) (r : Fin 5000) (j : Fin 64) :
    matmul dot_S5000x128_S128x64_S5000x64_1_0_0_1_n_n none x w (constant (F := Ideal) S5000x64 .f32 0x00000000#32) (ix2 r j)
      = ∑ k : Fin 128, x (ix2 r k) * w (ix2 k j) := by
  refine (Ideal.matmul_constant_zero_apply dot_S5000x128_S128x64_S5000x64_1_0_0_1_n_n none x w (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- `tanh` of a block, at an entry, is `tanh` of the entry. -/
theorem tanh_apply {s : Shape} {φ : FTy} (a : FVec Ideal s φ) (i : s.Idx) : tanh a i = Ideal.tanh (a i) := rfl

/-- One layer at entry `(r, j)`: `tanh` of the joined row `r` against column `j` of the weight, plus the bias at `j`. -/
theorem lin_apply {R : Nat} (a b : Cert.Spec.Mat R 64) (W : Cert.Spec.Mat 128 64) (bias : Cert.Spec.Row 64) (r : Fin R) (j : Fin 64) :
    Cert.Spec.lin a b W bias (ix2 r j)
      = Ideal.tanh ((∑ k : Fin 128, Cert.Spec.joined a b r k * W (ix2 k j)) + bias (ix1 j)) := rfl

/-- THE BODY'S BLOCK is one layer of the four blocks it loaded: the two input blocks side by side, times the weight, plus the
    bias broadcast down the rows, through `tanh`. -/
theorem pay_apply (x0 x1 : Vec Ideal S5000x64 .f32) (x2 : Vec Ideal S128x64 .f32) (x3 : Vec Ideal S64 .f32)
    (r : Fin 5000) (j : Fin 64) :
    k4_pay1 (F := Ideal) x0 x1 x2 x3 (ix2 r j) = Cert.Spec.lin x0 x1 x2 x3 (ix2 r j) := by
  rw [lin_apply]
  unfold k4_pay1
  rw [tanh_apply, addf_apply, matmul_apply, broadcastTo_1b_ab_apply, shapeCast_a_1a_apply]
  simp only [shapeCast_self]
  congr 2
  refine Finset.sum_congr rfl fun k _ => ?_
  rw [Cert.Spec.concat_apply]

/-! ## The blocks as rows of the arrays -/

/-- The printed index maps, decided over the grid: point `t` takes block `t` of the rows of the two inputs and of the output,
    and the whole weight and the whole bias. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- Row `r` of block `t` is row `t · 5000 + r` of the 50000. -/
def row (t : Fin cfg4.N) (r : Fin 5000) : Fin 50000 :=
  ⟨t.val * 5000 + r.val, by
    have ht : t.val < 10 := Nat.lt_of_lt_of_eq t.isLt N_4
    have hr := r.isLt
    omega⟩

/-- Entry `(r, j)` of the first input's block at point `t` is entry `(t · 5000 + r, j)` of its array. -/
theorem blk0_apply (c : Dev nD) (t : Fin cfg4.N) (r : Fin 5000) (j : Fin 64) :
    (iblk4 V c 0 t : Vec Ideal S5000x64 .f32) (ix2 r j) = (V c main_v18 : Vec Ideal S50000x64 .f32) (ix2 (row t r) j) := by
  obtain ⟨e0, e1, -⟩ := idx_facts t
  unfold iblk4
  rw [View.read_apply]
  show V c main_v18 _ = V c main_v18 _
  congr 1
  funext a
  apply Fin.ext
  match a with
  | ⟨0, _⟩ => show win4_0.index t (0 : Fin 2) * 5000 + 1 * r.val = t.val * 5000 + r.val; rw [e0]; omega
  | ⟨1, _⟩ => show win4_0.index t (1 : Fin 2) * 64 + 1 * j.val = j.val; rw [e1]; omega

/-- Entry `(r, j)` of the second input's block at point `t` is entry `(t · 5000 + r, j)` of its array. -/
theorem blk1_apply (c : Dev nD) (t : Fin cfg4.N) (r : Fin 5000) (j : Fin 64) :
    (iblk4 V c 1 t : Vec Ideal S5000x64 .f32) (ix2 r j) = (V c main_v27 : Vec Ideal S50000x64 .f32) (ix2 (row t r) j) := by
  obtain ⟨-, -, e0, e1, -⟩ := idx_facts t
  unfold iblk4
  rw [View.read_apply]
  show V c main_v27 _ = V c main_v27 _
  congr 1
  funext a
  apply Fin.ext
  match a with
  | ⟨0, _⟩ => show win4_1.index t (0 : Fin 2) * 5000 + 1 * r.val = t.val * 5000 + r.val; rw [e0]; omega
  | ⟨1, _⟩ => show win4_1.index t (1 : Fin 2) * 64 + 1 * j.val = j.val; rw [e1]; omega

/-- The weight's block at every point is the whole weight. -/
theorem blk2_apply (c : Dev nD) (t : Fin cfg4.N) (k : Fin 128) (j : Fin 64) :
    (iblk4 V c 2 t : Vec Ideal S128x64 .f32) (ix2 k j) = (V c main_v29 : Vec Ideal S128x64 .f32) (ix2 k j) := by
  obtain ⟨-, -, -, -, e0, e1, -⟩ := idx_facts t
  unfold iblk4
  rw [View.read_apply]
  show V c main_v29 _ = V c main_v29 _
  congr 1
  funext a
  apply Fin.ext
  match a with
  | ⟨0, _⟩ => show win4_2.index t (0 : Fin 2) * 128 + 1 * k.val = k.val; rw [e0]; omega
  | ⟨1, _⟩ => show win4_2.index t (1 : Fin 2) * 64 + 1 * j.val = j.val; rw [e1]; omega

/-- The bias's block at every point is the whole bias. -/
theorem blk3_apply (c : Dev nD) (t : Fin cfg4.N) (j : Fin 64) :
    (iblk4 V c 3 t : Vec Ideal S64 .f32) (ix1 j) = (V c main_v31 : Vec Ideal S64 .f32) (ix1 j) := by
  obtain ⟨-, -, -, -, -, -, e0, -⟩ := idx_facts t
  unfold iblk4
  rw [View.read_apply]
  show V c main_v31 _ = V c main_v31 _
  congr 1
  funext a
  apply Fin.ext
  match a with
  | ⟨0, _⟩ => show win4_3.index t (0 : Fin 1) * 64 + 1 * j.val = j.val; rw [e0]; omega

/-- Entry `(r, j)` of the output's block at point `t` sits at `(t · 5000 + r, j)` in the array. -/
theorem out_emb (t : Fin cfg4.N) (r : Fin 5000) (j : Fin 64) :
    ((cfg4.win 4).blk t).view.emb (ix2 r j) = (ix2 (row t r) j : S50000x64.Idx) := by
  obtain ⟨-, -, -, -, -, -, -, e0, e1⟩ := idx_facts t
  funext a
  apply Fin.ext
  match a with
  | ⟨0, _⟩ => show win4_4.index t (0 : Fin 2) * 5000 + 1 * r.val = t.val * 5000 + r.val; rw [e0]; omega
  | ⟨1, _⟩ => show win4_4.index t (1 : Fin 2) * 64 + 1 * j.val = j.val; rw [e1]; omega

/-- The joined row `r` of the two input blocks at point `t` is the joined row `t · 5000 + r` of the two arrays. -/
theorem joined_blk (c : Dev nD) (t : Fin cfg4.N) (r : Fin 5000) (k : Fin 128) :
    Cert.Spec.joined (iblk4 V c 0 t : Vec Ideal S5000x64 .f32) (iblk4 V c 1 t : Vec Ideal S5000x64 .f32) r k
      = Cert.Spec.joined (V c main_v18 : Vec Ideal S50000x64 .f32) (V c main_v27 : Vec Ideal S50000x64 .f32) (row t r) k := by
  unfold Cert.Spec.joined
  by_cases h : k.val < 64
  · rw [dif_pos h, dif_pos h]; exact blk0_apply V c t r _
  · rw [dif_neg h, dif_neg h]; exact blk1_apply V c t r _

/-! ## From the blocks to the array -/

/-- WHAT POINT `t` WRITES BACK is block `t` of one layer of the four arrays as the region found them. -/
theorem flushed_eq (c : Dev nD) (t : Fin cfg4.N) :
    (dat4 (F := Ideal) V c).flushed 4 t
      = ((cfg4.win 4).blk t).view.read (Elt Ideal) (Cert.Spec.lin (V c main_v18) (V c main_v27) (V c main_v29) (V c main_v31)) := by
  show (cfg4.win 4).cut (grid4.coords t) ((dat4 (F := Ideal) V c).after 4 t) = _
  rw [after4_4]
  unfold out4_4
  rw [View.canon_unit_zero hz2]
  simp only [View.ld_unit_zero (S := S5000x64) hz2, View.ld_unit_zero (S := S128x64) hz2, View.ld_unit_zero (S := S64) hz1]
  funext y
  obtain ⟨r, j, rfl⟩ : ∃ (r : Fin 5000) (j : Fin 64), y = ix2 r j := ⟨y 0, y 1, eq_ix2 y⟩
  show k4_pay1 (F := Ideal) (iblk4 V c 0 t) (iblk4 V c 1 t) (iblk4 V c 2 t) (iblk4 V c 3 t) (ix2 r j)
    = Cert.Spec.lin (V c main_v18) (V c main_v27) (V c main_v29) (V c main_v31) (((cfg4.win 4).blk t).view.emb (ix2 r j))
  rw [out_emb, pay_apply, lin_apply, lin_apply, blk3_apply]
  congr 2
  refine Finset.sum_congr rfl fun k _ => ?_
  rw [joined_blk, blk2_apply]

/-- An index of the array is in point `t`'s block iff each coordinate is in the block's range on its axis. -/
theorem mem_blk (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v32).slice (win4_4.rect t)).set ↔ _
  rw [View.set_slice_whole, Rect.mem_set_unit]
  exact Iff.rfl

/-- THE BLOCKS TILE THE ROWS: row `n` of the array is in the block of point `n / 5000`. -/
theorem cover (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by rw [show cfg4.N = 10 from N_4]; omega⟩, rfl⟩
  obtain ⟨-, -, -, -, -, -, -, e0, e1⟩ := idx_facts t
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- After region 4 its output array holds `Spec.lin` of its four input arrays as the region found them. -/
theorem val (c : Dev nD) :
    (dat4 (F := Ideal) V c).arrAt 4 cfg4.N = Cert.Spec.lin (V c main_v18) (V c main_v27) (V c main_v29) (V c main_v31) := by
  exact (dat4 (F := Ideal) V c).arrAt_eq_of_cover 4 _ (fun t _ => flushed_eq V c t) cover

end Cert.KernelIdeal.Lin4

end
-- ==== Proof.Lin5.lean ====
/-
  Region 5's result array, read whole: one layer of the network over the edge rows.

  The region walks the 1,600,000 rows in 400 blocks of 4,000; at each block the body lays the two input blocks side by
  side, multiplies by the whole 128 × 64 weight, adds the bias and applies `tanh`, and writes the block back. Every row
  of the result depends on the same row of the two inputs only, and the blocks tile the rows, so the array after the
  region is `Spec.lin` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Lin5

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's block, entry by entry -/

/-- The offsets of an access to a whole rank-2 block are all zero. -/
theorem hz2 : (![0, 0] : Fin 2 → Nat) = fun _ => 0 := funext fun a => by fin_cases a <;> rfl

/-- The offset of an access to a whole rank-1 block is zero. -/
theorem hz1 : (![0] : Fin 1 → Nat) = fun _ => 0 := funext fun a => by fin_cases a <;> rfl

/-- In the product of a block of 4000 rows of 128 numbers by the 128 × 64 weight, entry `i` of the result reads the left
    operand in row `i 0` … -/
theorem lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … at the column the sum runs over; -/
theorem lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- it reads the right operand in the row the sum runs over … -/
theorem rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- … at column `i 1`. -/
theorem rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry `(r, j)` of the product onto the zero block is row `r` of the left operand against column `j` of the right one. -/
theorem matmul_apply (x : FVec Ideal S4000x128 .f32) (w : FVec Ideal S128x64 .f32) (r : Fin 4000) (j : Fin 64) :
    matmul dot_S4000x128_S128x64_S4000x64_1_0_0_1_n_n none x w (constant (F := Ideal) S4000x64 .f32 0x00000000#32) (ix2 r j)
      = ∑ k : Fin 128, x (ix2 r k) * w (ix2 k j) := by
  refine (Ideal.matmul_constant_zero_apply dot_S4000x128_S128x64_S4000x64_1_0_0_1_n_n none x w (ix2 r j)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r j) ((contrEquiv1 dot_S4000x128_S128x64_S4000x64_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x64_S4000x64_1_0_0_1_n_n.rhsIdx (ix2 r j) ((contrEquiv1 dot_S4000x128_S128x64_S4000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- `tanh` of a block, at an entry, is `tanh` of the entry. -/
theorem tanh_apply {s : Shape} {φ : FTy} (a : FVec Ideal s φ) (i : s.Idx) : tanh a i = Ideal.tanh (a i) := rfl

/-- One layer at entry `(r, j)`: `tanh` of the joined row `r` against column `j` of the weight, plus the bias at `j`. -/
theorem lin_apply {R : Nat} (a b : Cert.Spec.Mat R 64) (W : Cert.Spec.Mat 128 64) (bias : Cert.Spec.Row 64) (r : Fin R) (j : Fin 64) :
    Cert.Spec.lin a b W bias (ix2 r j)
      = Ideal.tanh ((∑ k : Fin 128, Cert.Spec.joined a b r k * W (ix2 k j)) + bias (ix1 j)) := rfl

/-- THE BODY'S BLOCK is one layer of the four blocks it loaded: the two input blocks side by side, times the weight, plus the
    bias broadcast down the rows, through `tanh`. -/
theorem pay_apply (x0 x1 : Vec Ideal S4000x64 .f32) (x2 : Vec Ideal S128x64 .f32) (x3 : Vec Ideal S64 .f32)
    (r : Fin 4000) (j : Fin 64) :
    k5_pay1 (F := Ideal) x0 x1 x2 x3 (ix2 r j) = Cert.Spec.lin x0 x1 x2 x3 (ix2 r j) := by
  rw [lin_apply]
  unfold k5_pay1
  rw [tanh_apply, addf_apply, matmul_apply, broadcastTo_1b_ab_apply, shapeCast_a_1a_apply]
  simp only [shapeCast_self]
  congr 2
  refine Finset.sum_congr rfl fun k _ => ?_
  rw [Cert.Spec.concat_apply]

/-! ## The blocks as rows of the arrays -/

/-- The printed index maps, decided over the grid: point `t` takes block `t` of the rows of the two inputs and of the output,
    and the whole weight and the whole bias. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Row `r` of block `t` is row `t · 4000 + r` of the 1600000. -/
def row (t : Fin cfg5.N) (r : Fin 4000) : Fin 1600000 :=
  ⟨t.val * 4000 + r.val, by
    have ht : t.val < 400 := Nat.lt_of_lt_of_eq t.isLt N_5
    have hr := r.isLt
    omega⟩

/-- Entry `(r, j)` of the first input's block at point `t` is entry `(t · 4000 + r, j)` of its array. -/
theorem blk0_apply (c : Dev nD) (t : Fin cfg5.N) (r : Fin 4000) (j : Fin 64) :
    (iblk5 V c 0 t : Vec Ideal S4000x64 .f32) (ix2 r j) = (V c main_v33 : Vec Ideal S1600000x64 .f32) (ix2 (row t r) j) := by
  obtain ⟨e0, e1, -⟩ := idx_facts t
  unfold iblk5
  rw [View.read_apply]
  show V c main_v33 _ = V c main_v33 _
  congr 1
  funext a
  apply Fin.ext
  match a with
  | ⟨0, _⟩ => show win5_0.index t (0 : Fin 2) * 4000 + 1 * r.val = t.val * 4000 + r.val; rw [e0]; omega
  | ⟨1, _⟩ => show win5_0.index t (1 : Fin 2) * 64 + 1 * j.val = j.val; rw [e1]; omega

/-- Entry `(r, j)` of the second input's block at point `t` is entry `(t · 4000 + r, j)` of its array. -/
theorem blk1_apply (c : Dev nD) (t : Fin cfg5.N) (r : Fin 4000) (j : Fin 64) :
    (iblk5 V c 1 t : Vec Ideal S4000x64 .f32) (ix2 r j) = (V c main_v24 : Vec Ideal S1600000x64 .f32) (ix2 (row t r) j) := by
  obtain ⟨-, -, e0, e1, -⟩ := idx_facts t
  unfold iblk5
  rw [View.read_apply]
  show V c main_v24 _ = V c main_v24 _
  congr 1
  funext a
  apply Fin.ext
  match a with
  | ⟨0, _⟩ => show win5_1.index t (0 : Fin 2) * 4000 + 1 * r.val = t.val * 4000 + r.val; rw [e0]; omega
  | ⟨1, _⟩ => show win5_1.index t (1 : Fin 2) * 64 + 1 * j.val = j.val; rw [e1]; omega

/-- The weight's block at every point is the whole weight. -/
theorem blk2_apply (c : Dev nD) (t : Fin cfg5.N) (k : Fin 128) (j : Fin 64) :
    (iblk5 V c 2 t : Vec Ideal S128x64 .f32) (ix2 k j) = (V c main_v35 : Vec Ideal S128x64 .f32) (ix2 k j) := by
  obtain ⟨-, -, -, -, e0, e1, -⟩ := idx_facts t
  unfold iblk5
  rw [View.read_apply]
  show V c main_v35 _ = V c main_v35 _
  congr 1
  funext a
  apply Fin.ext
  match a with
  | ⟨0, _⟩ => show win5_2.index t (0 : Fin 2) * 128 + 1 * k.val = k.val; rw [e0]; omega
  | ⟨1, _⟩ => show win5_2.index t (1 : Fin 2) * 64 + 1 * j.val = j.val; rw [e1]; omega

/-- The bias's block at every point is the whole bias. -/
theorem blk3_apply (c : Dev nD) (t : Fin cfg5.N) (j : Fin 64) :
    (iblk5 V c 3 t : Vec Ideal S64 .f32) (ix1 j) = (V c main_v37 : Vec Ideal S64 .f32) (ix1 j) := by
  obtain ⟨-, -, -, -, -, -, e0, -⟩ := idx_facts t
  unfold iblk5
  rw [View.read_apply]
  show V c main_v37 _ = V c main_v37 _
  congr 1
  funext a
  apply Fin.ext
  match a with
  | ⟨0, _⟩ => show win5_3.index t (0 : Fin 1) * 64 + 1 * j.val = j.val; rw [e0]; omega

/-- Entry `(r, j)` of the output's block at point `t` sits at `(t · 4000 + r, j)` in the array. -/
theorem out_emb (t : Fin cfg5.N) (r : Fin 4000) (j : Fin 64) :
    ((cfg5.win 4).blk t).view.emb (ix2 r j) = (ix2 (row t r) j : S1600000x64.Idx) := by
  obtain ⟨-, -, -, -, -, -, -, e0, e1⟩ := idx_facts t
  funext a
  apply Fin.ext
  match a with
  | ⟨0, _⟩ => show win5_4.index t (0 : Fin 2) * 4000 + 1 * r.val = t.val * 4000 + r.val; rw [e0]; omega
  | ⟨1, _⟩ => show win5_4.index t (1 : Fin 2) * 64 + 1 * j.val = j.val; rw [e1]; omega

/-- The joined row `r` of the two input blocks at point `t` is the joined row `t · 4000 + r` of the two arrays. -/
theorem joined_blk (c : Dev nD) (t : Fin cfg5.N) (r : Fin 4000) (k : Fin 128) :
    Cert.Spec.joined (iblk5 V c 0 t : Vec Ideal S4000x64 .f32) (iblk5 V c 1 t : Vec Ideal S4000x64 .f32) r k
      = Cert.Spec.joined (V c main_v33 : Vec Ideal S1600000x64 .f32) (V c main_v24 : Vec Ideal S1600000x64 .f32) (row t r) k := by
  unfold Cert.Spec.joined
  by_cases h : k.val < 64
  · rw [dif_pos h, dif_pos h]; exact blk0_apply V c t r _
  · rw [dif_neg h, dif_neg h]; exact blk1_apply V c t r _

/-! ## From the blocks to the array -/

/-- WHAT POINT `t` WRITES BACK is block `t` of one layer of the four arrays as the region found them. -/
theorem flushed_eq (c : Dev nD) (t : Fin cfg5.N) :
    (dat5 (F := Ideal) V c).flushed 4 t
      = ((cfg5.win 4).blk t).view.read (Elt Ideal) (Cert.Spec.lin (V c main_v33) (V c main_v24) (V c main_v35) (V c main_v37)) := by
  show (cfg5.win 4).cut (grid5.coords t) ((dat5 (F := Ideal) V c).after 4 t) = _
  rw [after5_4]
  unfold out5_4
  rw [View.canon_unit_zero hz2]
  simp only [View.ld_unit_zero (S := S4000x64) hz2, View.ld_unit_zero (S := S128x64) hz2, View.ld_unit_zero (S := S64) hz1]
  funext y
  obtain ⟨r, j, rfl⟩ : ∃ (r : Fin 4000) (j : Fin 64), y = ix2 r j := ⟨y 0, y 1, eq_ix2 y⟩
  show k5_pay1 (F := Ideal) (iblk5 V c 0 t) (iblk5 V c 1 t) (iblk5 V c 2 t) (iblk5 V c 3 t) (ix2 r j)
    = Cert.Spec.lin (V c main_v33) (V c main_v24) (V c main_v35) (V c main_v37) (((cfg5.win 4).blk t).view.emb (ix2 r j))
  rw [out_emb, pay_apply, lin_apply, lin_apply, blk3_apply]
  congr 2
  refine Finset.sum_congr rfl fun k _ => ?_
  rw [joined_blk, blk2_apply]

/-- An index of the array is in point `t`'s block iff each coordinate is in the block's range on its axis. -/
theorem mem_blk (t : Fin cfg5.N) (i : S1600000x64.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v38).slice (win5_4.rect t)).set ↔ _
  rw [View.set_slice_whole, Rect.mem_set_unit]
  exact Iff.rfl

/-- THE BLOCKS TILE THE ROWS: row `n` of the array is in the block of point `n / 4000`. -/
theorem cover (i : S1600000x64.Idx) :
    ∃ t : Fin cfg5.N, (cfg5.win 4).flush t = true ∧ i ∈ ((cfg5.win 4).blk t).view.set := by
  have hi0 : (i 0).val < 1600000 := (i 0).isLt
  have hi1 : (i 1).val < 64 := (i 1).isLt
  obtain ⟨t, ht⟩ : ∃ t : Fin cfg5.N, t.val = (i 0).val / 4000 :=
    ⟨⟨(i 0).val / 4000, by rw [show cfg5.N = 400 from N_5]; omega⟩, rfl⟩
  obtain ⟨-, -, -, -, -, -, -, e0, e1⟩ := idx_facts t
  refine ⟨t, flush5_4 t, ?_⟩
  rw [mem_blk]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 64 ≤ (i 1).val ∧ (i 1).val < win5_4.index t (1 : Fin 2) * 64 + 64; omega

/-- After region 5 its output array holds `Spec.lin` of its four input arrays as the region found them. -/
theorem val (c : Dev nD) :
    (dat5 (F := Ideal) V c).arrAt 4 cfg5.N = Cert.Spec.lin (V c main_v33) (V c main_v24) (V c main_v35) (V c main_v37) := by
  exact (dat5 (F := Ideal) V c).arrAt_eq_of_cover 4 _ (fun t _ => flushed_eq V c t) cover

end Cert.KernelIdeal.Lin5

end
-- ==== Proof.Lin6.lean ====
/-
  Region 6's result array, read whole: one layer of the network over the node rows.

  The region walks the 50,000 rows in 10 blocks of 5,000; at each block the body lays the two input blocks side by
  side, multiplies by the whole 128 × 64 weight, adds the bias and applies `tanh`, and writes the block back. Every row
  of the result depends on the same row of the two inputs only, and the blocks tile the rows, so the array after the
  region is `Spec.lin` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Lin6

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's block, entry by entry -/

/-- The offsets of an access to a whole rank-2 block are all zero. -/
theorem hz2 : (![0, 0] : Fin 2 → Nat) = fun _ => 0 := funext fun a => by fin_cases a <;> rfl

/-- The offset of an access to a whole rank-1 block is zero. -/
theorem hz1 : (![0] : Fin 1 → Nat) = fun _ => 0 := funext fun a => by fin_cases a <;> rfl

/-- In the product of a block of 5000 rows of 128 numbers by the 128 × 64 weight, entry `i` of the result reads the left
    operand in row `i 0` … -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the column the sum runs over; -/
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- it reads the right operand in the row the sum runs over … -/
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … at column `i 1`. -/
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(r, j)` of the product onto the zero block is row `r` of the left operand against column `j` of the right one. -/
theorem matmul_apply (x : FVec Ideal S5000x128 .f32) (w : FVec Ideal S128x64 .f32) (r : Fin 5000) (j : Fin 64) :
    matmul dot_S5000x128_S128x64_S5000x64_1_0_0_1_n_n none x w (constant (F := Ideal) S5000x64 .f32 0x00000000#32) (ix2 r j)
      = ∑ k : Fin 128, x (ix2 r k) * w (ix2 k j) := by
  refine (Ideal.matmul_constant_zero_apply dot_S5000x128_S128x64_S5000x64_1_0_0_1_n_n none x w (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- `tanh` of a block, at an entry, is `tanh` of the entry. -/
theorem tanh_apply {s : Shape} {φ : FTy} (a : FVec Ideal s φ) (i : s.Idx) : tanh a i = Ideal.tanh (a i) := rfl

/-- One layer at entry `(r, j)`: `tanh` of the joined row `r` against column `j` of the weight, plus the bias at `j`. -/
theorem lin_apply {R : Nat} (a b : Cert.Spec.Mat R 64) (W : Cert.Spec.Mat 128 64) (bias : Cert.Spec.Row 64) (r : Fin R) (j : Fin 64) :
    Cert.Spec.lin a b W bias (ix2 r j)
      = Ideal.tanh ((∑ k : Fin 128, Cert.Spec.joined a b r k * W (ix2 k j)) + bias (ix1 j)) := rfl

/-- THE BODY'S BLOCK is one layer of the four blocks it loaded: the two input blocks side by side, times the weight, plus the
    bias broadcast down the rows, through `tanh`. -/
theorem pay_apply (x0 x1 : Vec Ideal S5000x64 .f32) (x2 : Vec Ideal S128x64 .f32) (x3 : Vec Ideal S64 .f32)
    (r : Fin 5000) (j : Fin 64) :
    k6_pay1 (F := Ideal) x0 x1 x2 x3 (ix2 r j) = Cert.Spec.lin x0 x1 x2 x3 (ix2 r j) := by
  rw [lin_apply]
  unfold k6_pay1
  rw [tanh_apply, addf_apply, matmul_apply, broadcastTo_1b_ab_apply, shapeCast_a_1a_apply]
  simp only [shapeCast_self]
  congr 2
  refine Finset.sum_congr rfl fun k _ => ?_
  rw [Cert.Spec.concat_apply]

/-! ## The blocks as rows of the arrays -/

/-- The printed index maps, decided over the grid: point `t` takes block `t` of the rows of the two inputs and of the output,
    and the whole weight and the whole bias. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = t.val ∧ win6_4.index t (1 : Fin 2) = 0 :=
  (by decide +kernel : ∀ t : Fin grid6.N, _)

/-- Row `r` of block `t` is row `t · 5000 + r` of the 50000. -/
def row (t : Fin cfg6.N) (r : Fin 5000) : Fin 50000 :=
  ⟨t.val * 5000 + r.val, by
    have ht : t.val < 10 := Nat.lt_of_lt_of_eq t.isLt N_6
    have hr := r.isLt
    omega⟩

/-- Entry `(r, j)` of the first input's block at point `t` is entry `(t · 5000 + r, j)` of its array. -/
theorem blk0_apply (c : Dev nD) (t : Fin cfg6.N) (r : Fin 5000) (j : Fin 64) :
    (iblk6 V c 0 t : Vec Ideal S5000x64 .f32) (ix2 r j) = (V c main_v32 : Vec Ideal S50000x64 .f32) (ix2 (row t r) j) := by
  obtain ⟨e0, e1, -⟩ := idx_facts t
  unfold iblk6
  rw [View.read_apply]
  show V c main_v32 _ = V c main_v32 _
  congr 1
  funext a
  apply Fin.ext
  match a with
  | ⟨0, _⟩ => show win6_0.index t (0 : Fin 2) * 5000 + 1 * r.val = t.val * 5000 + r.val; rw [e0]; omega
  | ⟨1, _⟩ => show win6_0.index t (1 : Fin 2) * 64 + 1 * j.val = j.val; rw [e1]; omega

/-- Entry `(r, j)` of the second input's block at point `t` is entry `(t · 5000 + r, j)` of its array. -/
theorem blk1_apply (c : Dev nD) (t : Fin cfg6.N) (r : Fin 5000) (j : Fin 64) :
    (iblk6 V c 1 t : Vec Ideal S5000x64 .f32) (ix2 r j) = (V c main_v41 : Vec Ideal S50000x64 .f32) (ix2 (row t r) j) := by
  obtain ⟨-, -, e0, e1, -⟩ := idx_facts t
  unfold iblk6
  rw [View.read_apply]
  show V c main_v41 _ = V c main_v41 _
  congr 1
  funext a
  apply Fin.ext
  match a with
  | ⟨0, _⟩ => show win6_1.index t (0 : Fin 2) * 5000 + 1 * r.val = t.val * 5000 + r.val; rw [e0]; omega
  | ⟨1, _⟩ => show win6_1.index t (1 : Fin 2) * 64 + 1 * j.val = j.val; rw [e1]; omega

/-- The weight's block at every point is the whole weight. -/
theorem blk2_apply (c : Dev nD) (t : Fin cfg6.N) (k : Fin 128) (j : Fin 64) :
    (iblk6 V c 2 t : Vec Ideal S128x64 .f32) (ix2 k j) = (V c main_v43 : Vec Ideal S128x64 .f32) (ix2 k j) := by
  obtain ⟨-, -, -, -, e0, e1, -⟩ := idx_facts t
  unfold iblk6
  rw [View.read_apply]
  show V c main_v43 _ = V c main_v43 _
  congr 1
  funext a
  apply Fin.ext
  match a with
  | ⟨0, _⟩ => show win6_2.index t (0 : Fin 2) * 128 + 1 * k.val = k.val; rw [e0]; omega
  | ⟨1, _⟩ => show win6_2.index t (1 : Fin 2) * 64 + 1 * j.val = j.val; rw [e1]; omega

/-- The bias's block at every point is the whole bias. -/
theorem blk3_apply (c : Dev nD) (t : Fin cfg6.N) (j : Fin 64) :
    (iblk6 V c 3 t : Vec Ideal S64 .f32) (ix1 j) = (V c main_v45 : Vec Ideal S64 .f32) (ix1 j) := by
  obtain ⟨-, -, -, -, -, -, e0, -⟩ := idx_facts t
  unfold iblk6
  rw [View.read_apply]
  show V c main_v45 _ = V c main_v45 _
  congr 1
  funext a
  apply Fin.ext
  match a with
  | ⟨0, _⟩ => show win6_3.index t (0 : Fin 1) * 64 + 1 * j.val = j.val; rw [e0]; omega

/-- Entry `(r, j)` of the output's block at point `t` sits at `(t · 5000 + r, j)` in the array. -/
theorem out_emb (t : Fin cfg6.N) (r : Fin 5000) (j : Fin 64) :
    ((cfg6.win 4).blk t).view.emb (ix2 r j) = (ix2 (row t r) j : S50000x64.Idx) := by
  obtain ⟨-, -, -, -, -, -, -, e0, e1⟩ := idx_facts t
  funext a
  apply Fin.ext
  match a with
  | ⟨0, _⟩ => show win6_4.index t (0 : Fin 2) * 5000 + 1 * r.val = t.val * 5000 + r.val; rw [e0]; omega
  | ⟨1, _⟩ => show win6_4.index t (1 : Fin 2) * 64 + 1 * j.val = j.val; rw [e1]; omega

/-- The joined row `r` of the two input blocks at point `t` is the joined row `t · 5000 + r` of the two arrays. -/
theorem joined_blk (c : Dev nD) (t : Fin cfg6.N) (r : Fin 5000) (k : Fin 128) :
    Cert.Spec.joined (iblk6 V c 0 t : Vec Ideal S5000x64 .f32) (iblk6 V c 1 t : Vec Ideal S5000x64 .f32) r k
      = Cert.Spec.joined (V c main_v32 : Vec Ideal S50000x64 .f32) (V c main_v41 : Vec Ideal S50000x64 .f32) (row t r) k := by
  unfold Cert.Spec.joined
  by_cases h : k.val < 64
  · rw [dif_pos h, dif_pos h]; exact blk0_apply V c t r _
  · rw [dif_neg h, dif_neg h]; exact blk1_apply V c t r _

/-! ## From the blocks to the array -/

/-- WHAT POINT `t` WRITES BACK is block `t` of one layer of the four arrays as the region found them. -/
theorem flushed_eq (c : Dev nD) (t : Fin cfg6.N) :
    (dat6 (F := Ideal) V c).flushed 4 t
      = ((cfg6.win 4).blk t).view.read (Elt Ideal) (Cert.Spec.lin (V c main_v32) (V c main_v41) (V c main_v43) (V c main_v45)) := by
  show (cfg6.win 4).cut (grid6.coords t) ((dat6 (F := Ideal) V c).after 4 t) = _
  rw [after6_4]
  unfold out6_4
  rw [View.canon_unit_zero hz2]
  simp only [View.ld_unit_zero (S := S5000x64) hz2, View.ld_unit_zero (S := S128x64) hz2, View.ld_unit_zero (S := S64) hz1]
  funext y
  obtain ⟨r, j, rfl⟩ : ∃ (r : Fin 5000) (j : Fin 64), y = ix2 r j := ⟨y 0, y 1, eq_ix2 y⟩
  show k6_pay1 (F := Ideal) (iblk6 V c 0 t) (iblk6 V c 1 t) (iblk6 V c 2 t) (iblk6 V c 3 t) (ix2 r j)
    = Cert.Spec.lin (V c main_v32) (V c main_v41) (V c main_v43) (V c main_v45) (((cfg6.win 4).blk t).view.emb (ix2 r j))
  rw [out_emb, pay_apply, lin_apply, lin_apply, blk3_apply]
  congr 2
  refine Finset.sum_congr rfl fun k _ => ?_
  rw [joined_blk, blk2_apply]

/-- An index of the array is in point `t`'s block iff each coordinate is in the block's range on its axis. -/
theorem mem_blk (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v46).slice (win6_4.rect t)).set ↔ _
  rw [View.set_slice_whole, Rect.mem_set_unit]
  exact Iff.rfl

/-- THE BLOCKS TILE THE ROWS: row `n` of the array is in the block of point `n / 5000`. -/
theorem cover (i : S50000x64.Idx) :
    ∃ t : Fin cfg6.N, (cfg6.win 4).flush t = true ∧ i ∈ ((cfg6.win 4).blk t).view.set := by
  have hi0 : (i 0).val < 50000 := (i 0).isLt
  have hi1 : (i 1).val < 64 := (i 1).isLt
  obtain ⟨t, ht⟩ : ∃ t : Fin cfg6.N, t.val = (i 0).val / 5000 :=
    ⟨⟨(i 0).val / 5000, by rw [show cfg6.N = 10 from N_6]; omega⟩, rfl⟩
  obtain ⟨-, -, -, -, -, -, -, e0, e1⟩ := idx_facts t
  refine ⟨t, flush6_4 t, ?_⟩
  rw [mem_blk]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- After region 6 its output array holds `Spec.lin` of its four input arrays as the region found them. -/
theorem val (c : Dev nD) :
    (dat6 (F := Ideal) V c).arrAt 4 cfg6.N = Cert.Spec.lin (V c main_v32) (V c main_v41) (V c main_v43) (V c main_v45) := by
  exact (dat6 (F := Ideal) V c).arrAt_eq_of_cover 4 _ (fun t _ => flushed_eq V c t) cover

end Cert.KernelIdeal.Lin6

end
-- ==== Proof.Dec7.lean ====
/-
  The last region's result array, read whole: the read-out over the node rows.

  The region walks the 50,000 node rows in 10 blocks of 5,000; at each block the body computes
  `tanh (h r · W1 + b1) · W2 + b2` row by row and writes the block of single-column results back. The blocks tile the
  rows, so the array after the region is `Spec.dec` of the arrays the region found.
-/
import proofs.«424121_j82257213653679_2_alg».proof.Proof.Gen.KernelIdeal.Frame
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Dec7

open Cert.KernelIdeal Cert.KernelIdeal.Gen
open Idealize.ShloMosaic Idealize.ShloMosaic.TcCoe Idealize.ShloMosaic.ValueIdx Idealize.SL.Sem
open Idealize.ShloMosaic.Pipeline (Dat Cfg Window)

-- The TensorCore's buffer contents when the region is entered.
variable (V : (c : Dev nD) → (b : Ref sig .tc) → Buf (Elt Ideal) ((c : Thread nD τ).loc b))

/-! ## The two products, read at an entry -/

/-- The first product's left operand index at output `(r, q)` and contraction position `k` has row `r`. -/
theorem lhs_first_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and column the contraction position. -/
theorem lhs_first_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- Its right operand index has row the contraction position … -/
theorem rhs_first_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- … and column `q`. -/
theorem rhs_first_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The first product into the zero accumulator, at `(r, q)`: row `r` of the left operand against column `q` of the right. -/
theorem first_apply (a : FVec Ideal S5000x64 .f32) (b : FVec Ideal S64x32 .f32) (r : Fin 5000) (q : Fin 32) :
    matmul dot_S5000x64_S64x32_S5000x32_1_0_0_1_n_n none a b (constant (F := Ideal) S5000x32 .f32 0x00000000#32) (ix2 r q)
      = ∑ k : Fin 64, a (ix2 r k) * b (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 r q) ((contrEquiv1 dot_S5000x64_S64x32_S5000x32_1_0_0_1_n_n 64 rfl rfl).symm k) = ix2 r k := funext fun d => Fin.ext (by
    match d with
    | ⟨0, _⟩ => exact lhs_first_0 _ _
    | ⟨1, _⟩ => exact (lhs_first_1 _ _).trans hk)
  have er : dot_S5000x64_S64x32_S5000x32_1_0_0_1_n_n.rhsIdx (ix2 r q) ((contrEquiv1 dot_S5000x64_S64x32_S5000x32_1_0_0_1_n_n 64 rfl rfl).symm k) = ix2 k q := funext fun d => Fin.ext (by
    match d with
    | ⟨0, _⟩ => exact (rhs_first_0 _ _).trans hk
    | ⟨1, _⟩ => exact rhs_first_1 _ _)
  rw [el, er]

/-- The second product's left operand index at output `(r, j)` and contraction position `q` has row `r`. -/
theorem lhs_second_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- … and column the contraction position. -/
theorem lhs_second_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
/-- Its right operand index has row the contraction position … -/
theorem rhs_second_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
/-- … and column `j`. -/
theorem rhs_second_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- The second product into the zero accumulator, at `(r, j)`: row `r` of the left operand against column `j` of the right. -/
theorem second_apply (a : FVec Ideal S5000x32 .f32) (b : FVec Ideal S32x1 .f32) (r : Fin 5000) (j : Fin 1) :
    matmul dot_S5000x32_S32x1_S5000x1_1_0_0_1_n_n none a b (constant (F := Ideal) S5000x1 .f32 0x00000000#32) (ix2 r j)
      = ∑ q : Fin 32, a (ix2 r q) * b (ix2 q j) := by
  simp only [matmul]
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 r j) ((contrEquiv1 dot_S5000x32_S32x1_S5000x1_1_0_0_1_n_n 32 rfl rfl).symm k) = ix2 r k := funext fun d => Fin.ext (by
    match d with
    | ⟨0, _⟩ => exact lhs_second_0 _ _
    | ⟨1, _⟩ => exact (lhs_second_1 _ _).trans hk)
  have er : dot_S5000x32_S32x1_S5000x1_1_0_0_1_n_n.rhsIdx (ix2 r j) ((contrEquiv1 dot_S5000x32_S32x1_S5000x1_1_0_0_1_n_n 32 rfl rfl).symm k) = ix2 k j := funext fun d => Fin.ext (by
    match d with
    | ⟨0, _⟩ => exact (rhs_second_0 _ _).trans hk
    | ⟨1, _⟩ => exact rhs_second_1 _ _)
  rw [el, er]

/-! ## The body's payload at an entry -/

/-- `tanh` of a vector, at an index, is `tanh` of the entry. -/
theorem tanh_apply {s : Shape} {φ : FTy} (a : FVec Ideal s φ) (i : s.Idx) : tanh a i = Ideal.tanh (a i) := rfl

/-- The payload at `(r, j)`: `tanh (x0 r · x1 + x2) · x3 + x4`, the sums written out. -/
theorem pay_apply (x0 : Vec Ideal S5000x64 .f32) (x1 : Vec Ideal S64x32 .f32) (x2 : Vec Ideal S32 .f32)
    (x3 : Vec Ideal S32x1 .f32) (x4 : Vec Ideal S1 .f32) (r : Fin 5000) (j : Fin 1) :
    k7_pay1 (F := Ideal) x0 x1 x2 x3 x4 (ix2 r j)
      = (∑ q : Fin 32, Ideal.tanh ((∑ k : Fin 64, x0 (ix2 r k) * x1 (ix2 k q)) + x2 (ix1 q)) * x3 (ix2 q j)) + x4 (ix1 j) := by
  unfold k7_pay1
  rw [addf_apply, second_apply, broadcastTo_1b_ab_apply, shapeCast_a_1a_apply]
  congr 1
  refine Finset.sum_congr rfl fun q _ => ?_
  rw [tanh_apply, addf_apply, first_apply, broadcastTo_1b_ab_apply, shapeCast_a_1a_apply, shapeCast_self]

/-- So, when the payload's first operand is the rows `5000 n … 5000 n + 4999` of a matrix `A`, the payload at `(r, j)` is
    `Spec.dec` of `A` and the two affine maps at row `5000 n + r`. -/
theorem pay_eq_dec (A : Cert.Spec.Mat 50000 64) (W1 : Cert.Spec.Mat 64 32) (b1 : Cert.Spec.Row 32) (W2 : Cert.Spec.Mat 32 1)
    (b2 : Cert.Spec.Row 1) (x0 : Vec Ideal S5000x64 .f32) (n : Nat)
    (h0 : ∀ (r : Fin 5000) (k : Fin 64) (R : Fin 50000), R.val = n * 5000 + r.val → x0 (ix2 r k) = A (ix2 R k))
    (r : Fin 5000) (j : Fin 1) (R : Fin 50000) (hR : R.val = n * 5000 + r.val) :
    k7_pay1 (F := Ideal) x0 W1 b1 W2 b2 (ix2 r j) = Cert.Spec.dec A W1 b1 W2 b2 (ix2 R j) := by
  rw [pay_apply]
  have h0' : ∀ k : Fin 64, x0 (ix2 r k) = A (ix2 R k) := fun k => h0 r k R hR
  simp only [h0']
  rfl

/-! ## From blocks to the array -/

theorem zero2 : (![0, 0] : Fin 2 → Nat) = fun _ => 0 := funext fun a => by fin_cases a <;> rfl
theorem zero1 : (![0] : Fin 1 → Nat) = fun _ => 0 := funext fun a => by fin_cases a <;> rfl

/-- The block indices over the grid: the node rows' block and the result's block at point `t` are block `t` of the rows; the
    two affine maps' blocks are the whole arrays at every point. -/
theorem block_indices : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

/-- The node rows' block at point `t` is rows `5000 t … 5000 t + 4999` of the node rows. -/
theorem rows_block (c : Dev nD) (t : Fin cfg7.N) (r : Fin 5000) (k : Fin 64) (R : Fin 50000) (hR : R.val = t.val * 5000 + r.val) :
    (iblk7 V c 0 t : Vec Ideal S5000x64 .f32) (ix2 r k) = (V c main_v46 : Cert.Spec.Mat 50000 64) (ix2 R k) := by
  obtain ⟨e0, e1, -⟩ := block_indices t
  unfold iblk7
  rw [View.read_apply]
  show V c main_v46 _ = V c main_v46 _
  congr 1
  funext a
  apply Fin.ext
  match a with
  | ⟨0, _⟩ => show win7_0.index t (0 : Fin 2) * 5000 + 1 * r.val = R.val; rw [e0, hR]; omega
  | ⟨1, _⟩ => show win7_0.index t (1 : Fin 2) * 64 + 1 * k.val = k.val; rw [e1]; omega

/-- The first affine map's matrix is staged whole. -/
theorem first_matrix_block (c : Dev nD) (t : Fin cfg7.N) :
    (iblk7 V c 1 t : Vec Ideal S64x32 .f32) = (V c main_arg10 : Cert.Spec.Mat 64 32) := by
  obtain ⟨-, -, e0, e1, -⟩ := block_indices t
  funext y
  unfold iblk7
  rw [View.read_apply]
  show V c main_arg10 _ = V c main_arg10 _
  congr 1
  funext a
  apply Fin.ext
  match a with
  | ⟨0, _⟩ => show win7_1.index t (0 : Fin 2) * 64 + 1 * (y 0).val = (y 0).val; rw [e0]; omega
  | ⟨1, _⟩ => show win7_1.index t (1 : Fin 2) * 32 + 1 * (y 1).val = (y 1).val; rw [e1]; omega

/-- The first affine map's offsets are staged whole. -/
theorem first_offsets_block (c : Dev nD) (t : Fin cfg7.N) :
    (iblk7 V c 2 t : Vec Ideal S32 .f32) = (V c main_arg11 : Cert.Spec.Row 32) := by
  obtain ⟨-, -, -, -, e0, -⟩ := block_indices t
  funext y
  unfold iblk7
  rw [View.read_apply]
  show V c main_arg11 _ = V c main_arg11 _
  congr 1
  funext a
  apply Fin.ext
  match a with
  | ⟨0, _⟩ => show win7_2.index t (0 : Fin 1) * 32 + 1 * (y 0).val = (y 0).val; rw [e0]; omega

/-- The second affine map's matrix is staged whole. -/
theorem second_matrix_block (c : Dev nD) (t : Fin cfg7.N) :
    (iblk7 V c 3 t : Vec Ideal S32x1 .f32) = (V c main_arg12 : Cert.Spec.Mat 32 1) := by
  obtain ⟨-, -, -, -, -, e0, e1, -⟩ := block_indices t
  funext y
  unfold iblk7
  rw [View.read_apply]
  show V c main_arg12 _ = V c main_arg12 _
  congr 1
  funext a
  apply Fin.ext
  match a with
  | ⟨0, _⟩ => show win7_3.index t (0 : Fin 2) * 32 + 1 * (y 0).val = (y 0).val; rw [e0]; omega
  | ⟨1, _⟩ => show win7_3.index t (1 : Fin 2) * 1 + 1 * (y 1).val = (y 1).val; rw [e1]; omega

/-- The second affine map's offset is staged whole. -/
theorem second_offset_block (c : Dev nD) (t : Fin cfg7.N) :
    (iblk7 V c 4 t : Vec Ideal S1 .f32) = (V c main_arg13 : Cert.Spec.Row 1) := by
  obtain ⟨-, -, -, -, -, -, -, e0, -⟩ := block_indices t
  funext y
  unfold iblk7
  rw [View.read_apply]
  show V c main_arg13 _ = V c main_arg13 _
  congr 1
  funext a
  apply Fin.ext
  match a with
  | ⟨0, _⟩ => show win7_4.index t (0 : Fin 1) * 1 + 1 * (y 0).val = (y 0).val; rw [e0]; omega

/-- What point `t` writes back is block `t` of `Spec.dec` of the arrays the region found. -/
theorem flushed_eq (c : Dev nD) (t : Fin cfg7.N) :
    (dat7 (F := Ideal) V c).flushed 5 t
      = ((cfg7.win 5).blk t).view.read (Elt Ideal)
          (Cert.Spec.dec (V c main_v46) (V c main_arg10) (V c main_arg11) (V c main_arg12) (V c main_arg13)) := by
  show (cfg7.win 5).cut (grid7.coords t) ((dat7 V c).after 5 t) = _
  rw [after7_5]
  unfold out7_5
  rw [View.canon_unit_zero zero2]
  simp only [View.ld_unit_zero (S := S5000x64) zero2, View.ld_unit_zero (S := S64x32) zero2, View.ld_unit_zero (S := S32) zero1,
    View.ld_unit_zero (S := S32x1) zero2, View.ld_unit_zero (S := S1) zero1]
  rw [first_matrix_block, first_offsets_block, second_matrix_block, second_offset_block]
  obtain ⟨-, -, -, -, -, -, -, -, e0, e1⟩ := block_indices t
  have ht : t.val < 10 := Nat.lt_of_lt_of_eq t.isLt N_7
  funext y
  have hy0 : (y 0).val < 5000 := (y 0).isLt
  have hy1 : (y 1).val < 1 := (y 1).isLt
  have hl : (cfg7.win 5).xinj (grid7.coords t) y = ix2 (⟨(y 0).val, hy0⟩ : Fin 5000) (⟨(y 1).val, hy1⟩ : Fin 1) :=
    funext fun a => Fin.ext (by match a with | ⟨0, _⟩ => rfl | ⟨1, _⟩ => rfl)
  have hr : ((cfg7.win 5).blk t).view.emb y
      = ix2 (⟨t.val * 5000 + (y 0).val, by omega⟩ : Fin 50000) (⟨(y 1).val, hy1⟩ : Fin 1) :=
    funext fun a => Fin.ext (by
      match a with
      | ⟨0, _⟩ => show win7_5.index t (0 : Fin 2) * 5000 + 1 * (y 0).val = t.val * 5000 + (y 0).val; rw [e0]; omega
      | ⟨1, _⟩ => show win7_5.index t (1 : Fin 2) * 1 + 1 * (y 1).val = (y 1).val; rw [e1]; omega)
  show k7_pay1 (F := Ideal) _ _ _ _ _ ((cfg7.win 5).xinj (grid7.coords t) y)
    = Cert.Spec.dec (V c main_v46) (V c main_arg10) (V c main_arg11) (V c main_arg12) (V c main_arg13) (((cfg7.win 5).blk t).view.emb y)
  rw [hl, hr]
  exact pay_eq_dec (V c main_v46) (V c main_arg10) (V c main_arg11) (V c main_arg12) (V c main_arg13) (iblk7 V c 0 t) t.val
    (fun r k R hR => rows_block V c t r k R hR) ⟨(y 0).val, hy0⟩ ⟨(y 1).val, hy1⟩ ⟨t.val * 5000 + (y 0).val, by omega⟩ rfl

/-- A row index of the result is in point `t`'s block iff each coordinate is in the block's range on its axis. -/
theorem mem_blk (t : Fin cfg7.N) (i : S50000x1.Idx) :
    i ∈ ((cfg7.win 5).blk t).view.set
      ↔ ∀ a : Fin 2, win7_5.index t a * S5000x1.size a ≤ (i a).val ∧ (i a).val < win7_5.index t a * S5000x1.size a + S5000x1.size a := by
  show i ∈ ((View.whole main_v47).slice (win7_5.rect t)).set ↔ _
  rw [View.set_slice_whole, Rect.mem_set_unit]
  exact Iff.rfl

/-- The ten blocks tile the rows: row `i` is in the block of point `i / 5000`. -/
theorem covered (c : Dev nD) (i : ((cfg7.win 5).arr.view.loc (c.tc : Thread nD τ)).2.ty.Idx) :
    ∃ t : Fin cfg7.N, (cfg7.win 5).flush t = true ∧ i ∈ ((cfg7.win 5).blk t).view.set := by
  have hi0 : (i 0).val < 50000 := (i 0).isLt
  have hi1 : (i 1).val < 1 := (i 1).isLt
  have hN : cfg7.N = 10 := N_7
  have hq : (i 0).val / 5000 < cfg7.N := by rw [hN]; omega
  obtain ⟨-, -, -, -, -, -, -, -, e0, e1⟩ := block_indices ⟨(i 0).val / 5000, hq⟩
  refine ⟨⟨(i 0).val / 5000, hq⟩, flush7_5 _, ?_⟩
  rw [mem_blk]
  intro a
  match a with
  | ⟨0, _⟩ =>
    show win7_5.index ⟨(i 0).val / 5000, hq⟩ (0 : Fin 2) * 5000 ≤ (i 0).val
      ∧ (i 0).val < win7_5.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win7_5.index ⟨(i 0).val / 5000, hq⟩ (1 : Fin 2) * 1 ≤ (i 1).val
      ∧ (i 1).val < win7_5.index ⟨(i 0).val / 5000, hq⟩ (1 : Fin 2) * 1 + 1
    rw [e1]
    omega

/-- After region 7 its output array holds `Spec.dec` of the node rows and the two affine maps as the region found them. -/
theorem val (c : Dev nD) :
    (dat7 (F := Ideal) V c).arrAt 5 cfg7.N
      = Cert.Spec.dec (V c main_v46) (V c main_arg10) (V c main_arg11) (V c main_arg12) (V c main_arg13) :=
  (dat7 (F := Ideal) V c).arrAt_eq_of_cover 5
    (Cert.Spec.dec (V c main_v46) (V c main_arg10) (V c main_arg11) (V c main_arg12) (V c main_arg13))
    (fun t _ => flushed_eq V c t) (covered c)

end Cert.KernelIdeal.Dec7

end
-- ==== Proof.KernelValue.lean ====
/-
  The kernel program's result, read as the network `Spec.gnn`.

  @main alternates stretches of host operations with eight regions. Walking the run boundary by boundary: the first
  stretch slices the source and the target numbers out of the edge table; region 0 leaves the first edge rows; then,
  three times over, a stretch fetches the source rows of the current node rows along the edges (guarded, and under the
  hypothesis on the source numbers the plain fetch), a region computes the messages, a stretch sums them into their
  target nodes, and a region updates the node rows; the last region reads the answer off the node rows. Every region's
  result array is its layer of `Spec` applied to the arrays it found, and every buffer a later segment reads is one an
  earlier segment left and nothing in between wrote.
-/
import proofs.«424121_j82257213653679_2_alg».proof.Proof.Gen.KernelIdeal.Frame
import proofs.«424121_j82257213653679_2_alg».proof.Proof.Spec
import proofs.«424121_j82257213653679_2_alg».proof.Proof.Take
import proofs.«424121_j82257213653679_2_alg».proof.Proof.Keeps
import proofs.«424121_j82257213653679_2_alg».proof.Proof.Embed0
import proofs.«424121_j82257213653679_2_alg».proof.Proof.Lin1
import proofs.«424121_j82257213653679_2_alg».proof.Proof.Lin2
import proofs.«424121_j82257213653679_2_alg».proof.Proof.Lin3
import proofs.«424121_j82257213653679_2_alg».proof.Proof.Lin4
import proofs.«424121_j82257213653679_2_alg».proof.Proof.Lin5
import proofs.«424121_j82257213653679_2_alg».proof.Proof.Lin6
import proofs.«424121_j82257213653679_2_alg».proof.Proof.Dec7
import Idealize.ShloMosaic.PureOps.Ideal
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.KernelIdeal.Take (srcCol take takeFill takeFill_eq)
open Cert.KernelIdeal.Keeps

/-! ## The pieces of the network as the program spells them -/

/-- Row 0 of the edge table, as a vector: the source numbers. -/
def srcRow (x : IVec S2x1600000 32) : IVec S1600000 32 :=
  shapeCast S1600000 (extractStridedSlice S1x1600000 ![0, 0] x slices_S2x1600000_S1x1600000_0_0) shapeCasts_S1x1600000_S1600000

/-- Row 1 of the edge table, as a vector: the target numbers. -/
def dstRow (x : IVec S2x1600000 32) : IVec S1600000 32 :=
  shapeCast S1600000 (extractStridedSlice S1x1600000 ![1, 0] x slices_S2x1600000_S1x1600000_1_0) shapeCasts_S1x1600000_S1600000

/-- Node `n` receives the sum of the rows of the edges whose target number is `n`. -/
def seg (d : IVec S1600000 32) (u : FVec Ideal S1600000x64 .f32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 d) u

/-- Layer 0's 128 × 64 weight out of a stack of three. -/
def wmat0 (x : FVec Ideal S3x128x64 .f32) : FVec Ideal S128x64 .f32 :=
  shapeCast S128x64 (extractStridedSlice S1x128x64 ![0, 0, 0] x slices_S3x128x64_S1x128x64_0_0_0) shapeCasts_S1x128x64_S128x64

/-- Layer 0's bias out of a stack of three. -/
def brow0 (x : FVec Ideal S3x64 .f32) : FVec Ideal S64 .f32 :=
  shapeCast S64 (extractStridedSlice S1x64 ![0, 0] x slices_S3x64_S1x64_0_0) shapeCasts_S1x64_S64

/-- Layer 1's 128 × 64 weight out of a stack of three. -/
def wmat1 (x : FVec Ideal S3x128x64 .f32) : FVec Ideal S128x64 .f32 :=
  shapeCast S128x64 (extractStridedSlice S1x128x64 ![1, 0, 0] x slices_S3x128x64_S1x128x64_1_0_0) shapeCasts_S1x128x64_S128x64

/-- Layer 1's bias out of a stack of three. -/
def brow1 (x : FVec Ideal S3x64 .f32) : FVec Ideal S64 .f32 :=
  shapeCast S64 (extractStridedSlice S1x64 ![1, 0] x slices_S3x64_S1x64_1_0) shapeCasts_S1x64_S64

/-- Layer 2's 128 × 64 weight out of a stack of three. -/
def wmat2 (x : FVec Ideal S3x128x64 .f32) : FVec Ideal S128x64 .f32 :=
  shapeCast S128x64 (extractStridedSlice S1x128x64 ![2, 0, 0] x slices_S3x128x64_S1x128x64_2_0_0) shapeCasts_S1x128x64_S128x64

/-- Layer 2's bias out of a stack of three. -/
def brow2 (x : FVec Ideal S3x64 .f32) : FVec Ideal S64 .f32 :=
  shapeCast S64 (extractStridedSlice S1x64 ![2, 0] x slices_S3x64_S1x64_2_0) shapeCasts_S1x64_S64

/-! ## The last operation of a line -/

section Last
variable {Val : EltTy → Type}

theorem after_append (A B : List (HloOp τ sig Val)) (V : Valuation τ sig Val) :
    StableHlo.after (A ++ B) V = StableHlo.after B (StableHlo.after A V) := by
  induction A generalizing V with
  | nil => rfl
  | cons op A ih => simp only [List.cons_append, StableHlo.after_cons, ih]

/-- When a line of host operations ends with a three-operand operation whose result buffer is none of its operands,
    the result is the operation's function of what the WHOLE line leaves at the three operands. -/
theorem after_last_ternary (L A : List (HloOp τ sig Val)) (c a b y : Ref sig .tc)
    (f : c.ty.Contents Val → a.ty.Contents Val → b.ty.Contents Val → y.ty.Contents Val) (hc ha hb hy)
    (hL : L = A ++ [StableHlo.ternary c a b y f hc ha hb hy]) (hcy : c ≠ y) (hay : a ≠ y) (hby : b ≠ y)
    (V : Valuation τ sig Val) :
    StableHlo.after L V (Proc.devRef .tc y)
      = f (StableHlo.after L V (Proc.devRef .tc c)) (StableHlo.after L V (Proc.devRef .tc a))
          (StableHlo.after L V (Proc.devRef .tc b)) := by
  subst hL
  simp only [after_append, StableHlo.after_cons, StableHlo.after_nil]
  rw [StableHlo.ternary_result, StableHlo.ternary_result_ne _ _ _ _ _ _ _ _ _ _ hcy,
    StableHlo.ternary_result_ne _ _ _ _ _ _ _ _ _ _ hay, StableHlo.ternary_result_ne _ _ _ _ _ _ _ _ _ _ hby]

/-- A one-operand operation in the middle of a line, when nothing after it writes its result or its operand: the
    result at the end of the line is the operation's function of what the line leaves at the operand. -/
theorem after_mid_unary (L A B : List (HloOp τ sig Val)) (x y : Ref sig .tc)
    (f : x.ty.Contents Val → y.ty.Contents Val) (hx hy)
    (hL : L = A ++ StableHlo.unary x y f hx hy :: B)
    (hBy : ∀ op ∈ B, (Proc.devRef .tc y : DevRef τ sig) ∉ op.writes)
    (hBx : ∀ op ∈ B, (Proc.devRef .tc x : DevRef τ sig) ∉ op.writes) (hxy : x ≠ y)
    (V : Valuation τ sig Val) :
    StableHlo.after L V (Proc.devRef .tc y) = f (StableHlo.after L V (Proc.devRef .tc x)) := by
  subst hL
  simp only [after_append, StableHlo.after_cons]
  rw [StableHlo.after_of_forall_not_mem B _ hBy, StableHlo.after_of_forall_not_mem B _ hBx,
    StableHlo.unary_result, StableHlo.unary_result_ne _ _ _ _ _ _ hxy]

/-- Contents carried to a typed reference's own buffer type and back are the contents. -/
theorem toBuf_id (r : Ref sig .tc) (h2 h3) (v : r.ty.Contents Val) :
    (StableHlo.TRef.of (sig := sig) (T := r.ty) r rfl h2 h3).toBuf v = v := rfl
theorem ofBuf_id (r : Ref sig .tc) (h2 h3) (v : r.ty.Contents Val) :
    (StableHlo.TRef.of (sig := sig) (T := r.ty) r rfl h2 h3).ofBuf v = v := rfl

end Last

/-! ## What each host stretch leaves, over any contents it starts from -/

section Host
variable (Wp : Valuation τ sig (Elt Ideal))

theorem host0_v1 : StableHlo.after hostOps0 Wp (Proc.devRef .tc main_v1) = srcRow (Wp (Proc.devRef .tc main_arg1)) := by
  after_results_simp; rfl
theorem host0_v3 : StableHlo.after hostOps0 Wp (Proc.devRef .tc main_v3) = dstRow (Wp (Proc.devRef .tc main_arg1)) := by
  after_results_simp; rfl

/-! ### The guarded fetch of stretch `hostOps1` -/

/-- The guard's bit per edge. -/
theorem host1_v5_mask : StableHlo.after hostOps1 Wp (Proc.devRef .tc main_call0_v12)
    = Host.reduce IntOp.andi
        (andi (cmpi .sge (srcCol (Wp (Proc.devRef .tc main_v1))) (broadcastInDim S1600000x1 ![] bcast_S_S1600000x1 (constantI S_ 32 0#32)))
          (cmpi .sle (srcCol (Wp (Proc.devRef .tc main_v1)))
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_ := by
  after_results_simp
  simp only [TRef.toBuf, TRef.ofBuf, cast_eq]
  unfold Cert.KernelIdeal.Take.srcCol
  with_reducible rfl

/-- Nothing after the guard's broadcast writes the guard or its bit: the last three operations write the fill constant,
    its broadcast and the result. -/
theorem host1_v5_tail_writes (b : Ref sig .tc) (h1 : b ≠ main_call0_cst) (h2 : b ≠ main_call0_v15) (h3 : b ≠ main_v5) :
    ∀ op ∈ (hostOps1 (F := Ideal)).drop 20, (Proc.devRef .tc b : DevRef τ sig) ∉ op.writes := by
  refine List.forall_iff_forall_mem.mp ?_
  show List.Forall _ [_, _, _]
  simp only [List.Forall, StableHlo.nullary_writes, StableHlo.unary_writes, StableHlo.ternary_writes, Finset.mem_singleton]
  exact ⟨StableHlo.devRef_ne_of_ne h1, StableHlo.devRef_ne_of_ne h2, StableHlo.devRef_ne_of_ne h3⟩

/-- The guard's bit laid along the 64 columns. -/
theorem host1_v5_guard : StableHlo.after hostOps1 Wp (Proc.devRef .tc main_call0_v14)
    = broadcastInDim S1600000x64 ![0] bcast_S1600000_S1600000x64_0
      (Host.reduce IntOp.andi
        (andi (cmpi .sge (srcCol (Wp (Proc.devRef .tc main_v1))) (broadcastInDim S1600000x1 ![] bcast_S_S1600000x1 (constantI S_ 32 0#32)))
          (cmpi .sle (srcCol (Wp (Proc.devRef .tc main_v1)))
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_) := by
  rw [after_mid_unary hostOps1 (hostOps1.take 19) (hostOps1.drop 20) main_call0_v12 main_call0_v14 _ _ _ rfl
      (host1_v5_tail_writes main_call0_v14 (by decide) (by decide) (by decide))
      (host1_v5_tail_writes main_call0_v12 (by decide) (by decide) (by decide)) (by decide) Wp,
    host1_v5_mask]
  beta_reduce
  rw [toBuf_id, ofBuf_id]

/-- The fetched rows. -/
theorem host1_v5_fetch : StableHlo.after hostOps1 Wp (Proc.devRef .tc main_call0_v13)
    = Host.gather gather_S50000x64_S1600000x1_S1600000x64_1_0_n_n_0_1_164 (Wp (Proc.devRef .tc main_arg0)) (srcCol (Wp (Proc.devRef .tc main_v1))) := by
  after_results_simp; rfl

/-- The fill value, everywhere. -/
theorem host1_v5_fill : StableHlo.after hostOps1 Wp (Proc.devRef .tc main_call0_v15)
    = broadcastInDim S1600000x64 ![] bcast_S_S1600000x64 (constant (F := Ideal) S_ .f32 0x7FC00000#32) := by
  after_results_simp; rfl

theorem host1_v5 : StableHlo.after hostOps1 Wp (Proc.devRef .tc main_v5) = takeFill (Wp (Proc.devRef .tc main_v1)) (Wp (Proc.devRef .tc main_arg0)) := by
  rw [after_last_ternary hostOps1 hostOps1.dropLast main_call0_v14 main_call0_v13 main_call0_v15 main_v5 _ _ _ _ _ rfl (by decide) (by decide) (by decide) Wp,
    host1_v5_guard, host1_v5_fetch, host1_v5_fill]
  beta_reduce
  rw [toBuf_id, ofBuf_id, ofBuf_id, ofBuf_id]
  rfl

theorem host1_1_v7 : StableHlo.after hostOps1_1 Wp (Proc.devRef .tc main_v7) = wmat0 (Wp (Proc.devRef .tc main_arg6)) := by
  after_results_simp; rfl
theorem host1_1_v9 : StableHlo.after hostOps1_1 Wp (Proc.devRef .tc main_v9) = brow0 (Wp (Proc.devRef .tc main_arg7)) := by
  after_results_simp; rfl

theorem host2_v13 : StableHlo.after hostOps2 Wp (Proc.devRef .tc main_v13) = seg (Wp (Proc.devRef .tc main_v3)) (Wp (Proc.devRef .tc main_v10)) := by
  after_results_simp; rfl
theorem host2_v15 : StableHlo.after hostOps2 Wp (Proc.devRef .tc main_v15) = wmat0 (Wp (Proc.devRef .tc main_arg8)) := by
  after_results_simp; rfl
theorem host2_v17 : StableHlo.after hostOps2 Wp (Proc.devRef .tc main_v17) = brow0 (Wp (Proc.devRef .tc main_arg9)) := by
  after_results_simp; rfl

/-! ### The guarded fetch of stretch `hostOps3` -/

/-- The guard's bit per edge. -/
theorem host3_v19_mask : StableHlo.after hostOps3 Wp (Proc.devRef .tc main_call1_v12)
    = Host.reduce IntOp.andi
        (andi (cmpi .sge (srcCol (Wp (Proc.devRef .tc main_v1))) (broadcastInDim S1600000x1 ![] bcast_S_S1600000x1 (constantI S_ 32 0#32)))
          (cmpi .sle (srcCol (Wp (Proc.devRef .tc main_v1)))
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_ := by
  after_results_simp
  simp only [TRef.toBuf, TRef.ofBuf, cast_eq]
  unfold Cert.KernelIdeal.Take.srcCol
  with_reducible rfl

/-- Nothing after the guard's broadcast writes the guard or its bit: the last three operations write the fill constant,
    its broadcast and the result. -/
theorem host3_v19_tail_writes (b : Ref sig .tc) (h1 : b ≠ main_call1_cst) (h2 : b ≠ main_call1_v15) (h3 : b ≠ main_v19) :
    ∀ op ∈ (hostOps3 (F := Ideal)).drop 20, (Proc.devRef .tc b : DevRef τ sig) ∉ op.writes := by
  refine List.forall_iff_forall_mem.mp ?_
  show List.Forall _ [_, _, _]
  simp only [List.Forall, StableHlo.nullary_writes, StableHlo.unary_writes, StableHlo.ternary_writes, Finset.mem_singleton]
  exact ⟨StableHlo.devRef_ne_of_ne h1, StableHlo.devRef_ne_of_ne h2, StableHlo.devRef_ne_of_ne h3⟩

/-- The guard's bit laid along the 64 columns. -/
theorem host3_v19_guard : StableHlo.after hostOps3 Wp (Proc.devRef .tc main_call1_v14)
    = broadcastInDim S1600000x64 ![0] bcast_S1600000_S1600000x64_0
      (Host.reduce IntOp.andi
        (andi (cmpi .sge (srcCol (Wp (Proc.devRef .tc main_v1))) (broadcastInDim S1600000x1 ![] bcast_S_S1600000x1 (constantI S_ 32 0#32)))
          (cmpi .sle (srcCol (Wp (Proc.devRef .tc main_v1)))
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_) := by
  rw [after_mid_unary hostOps3 (hostOps3.take 19) (hostOps3.drop 20) main_call1_v12 main_call1_v14 _ _ _ rfl
      (host3_v19_tail_writes main_call1_v14 (by decide) (by decide) (by decide))
      (host3_v19_tail_writes main_call1_v12 (by decide) (by decide) (by decide)) (by decide) Wp,
    host3_v19_mask]
  beta_reduce
  rw [toBuf_id, ofBuf_id]

/-- The fetched rows. -/
theorem host3_v19_fetch : StableHlo.after hostOps3 Wp (Proc.devRef .tc main_call1_v13)
    = Host.gather gather_S50000x64_S1600000x1_S1600000x64_1_0_n_n_0_1_164 (Wp (Proc.devRef .tc main_v18)) (srcCol (Wp (Proc.devRef .tc main_v1))) := by
  after_results_simp; rfl

/-- The fill value, everywhere. -/
theorem host3_v19_fill : StableHlo.after hostOps3 Wp (Proc.devRef .tc main_call1_v15)
    = broadcastInDim S1600000x64 ![] bcast_S_S1600000x64 (constant (F := Ideal) S_ .f32 0x7FC00000#32) := by
  after_results_simp; rfl

theorem host3_v19 : StableHlo.after hostOps3 Wp (Proc.devRef .tc main_v19) = takeFill (Wp (Proc.devRef .tc main_v1)) (Wp (Proc.devRef .tc main_v18)) := by
  rw [after_last_ternary hostOps3 hostOps3.dropLast main_call1_v14 main_call1_v13 main_call1_v15 main_v19 _ _ _ _ _ rfl (by decide) (by decide) (by decide) Wp,
    host3_v19_guard, host3_v19_fetch, host3_v19_fill]
  beta_reduce
  rw [toBuf_id, ofBuf_id, ofBuf_id, ofBuf_id]
  rfl

theorem host3_1_v21 : StableHlo.after hostOps3_1 Wp (Proc.devRef .tc main_v21) = wmat1 (Wp (Proc.devRef .tc main_arg6)) := by
  after_results_simp; rfl
theorem host3_1_v23 : StableHlo.after hostOps3_1 Wp (Proc.devRef .tc main_v23) = brow1 (Wp (Proc.devRef .tc main_arg7)) := by
  after_results_simp; rfl

theorem host4_v27 : StableHlo.after hostOps4 Wp (Proc.devRef .tc main_v27) = seg (Wp (Proc.devRef .tc main_v3)) (Wp (Proc.devRef .tc main_v24)) := by
  after_results_simp; rfl
theorem host4_v29 : StableHlo.after hostOps4 Wp (Proc.devRef .tc main_v29) = wmat1 (Wp (Proc.devRef .tc main_arg8)) := by
  after_results_simp; rfl
theorem host4_v31 : StableHlo.after hostOps4 Wp (Proc.devRef .tc main_v31) = brow1 (Wp (Proc.devRef .tc main_arg9)) := by
  after_results_simp; rfl

/-! ### The guarded fetch of stretch `hostOps5` -/

/-- The guard's bit per edge. -/
theorem host5_v33_mask : StableHlo.after hostOps5 Wp (Proc.devRef .tc main_call2_v12)
    = Host.reduce IntOp.andi
        (andi (cmpi .sge (srcCol (Wp (Proc.devRef .tc main_v1))) (broadcastInDim S1600000x1 ![] bcast_S_S1600000x1 (constantI S_ 32 0#32)))
          (cmpi .sle (srcCol (Wp (Proc.devRef .tc main_v1)))
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_ := by
  after_results_simp
  simp only [TRef.toBuf, TRef.ofBuf, cast_eq]
  unfold Cert.KernelIdeal.Take.srcCol
  with_reducible rfl

/-- Nothing after the guard's broadcast writes the guard or its bit: the last three operations write the fill constant,
    its broadcast and the result. -/
theorem host5_v33_tail_writes (b : Ref sig .tc) (h1 : b ≠ main_call2_cst) (h2 : b ≠ main_call2_v15) (h3 : b ≠ main_v33) :
    ∀ op ∈ (hostOps5 (F := Ideal)).drop 20, (Proc.devRef .tc b : DevRef τ sig) ∉ op.writes := by
  refine List.forall_iff_forall_mem.mp ?_
  show List.Forall _ [_, _, _]
  simp only [List.Forall, StableHlo.nullary_writes, StableHlo.unary_writes, StableHlo.ternary_writes, Finset.mem_singleton]
  exact ⟨StableHlo.devRef_ne_of_ne h1, StableHlo.devRef_ne_of_ne h2, StableHlo.devRef_ne_of_ne h3⟩

/-- The guard's bit laid along the 64 columns. -/
theorem host5_v33_guard : StableHlo.after hostOps5 Wp (Proc.devRef .tc main_call2_v14)
    = broadcastInDim S1600000x64 ![0] bcast_S1600000_S1600000x64_0
      (Host.reduce IntOp.andi
        (andi (cmpi .sge (srcCol (Wp (Proc.devRef .tc main_v1))) (broadcastInDim S1600000x1 ![] bcast_S_S1600000x1 (constantI S_ 32 0#32)))
          (cmpi .sle (srcCol (Wp (Proc.devRef .tc main_v1)))
            (broadcastInDim S1600000x1 ![0, 1] bcast_S1x1_S1600000x1_0_1
              (broadcastInDim S1x1 ![1] bcast_S1_S1x1_1 (constantI S1 32 49999#32)))))
        (constantI S_ 1 1#1) reducesTo_S1600000x1_S1600000_d1 h_S_) := by
  rw [after_mid_unary hostOps5 (hostOps5.take 19) (hostOps5.drop 20) main_call2_v12 main_call2_v14 _ _ _ rfl
      (host5_v33_tail_writes main_call2_v14 (by decide) (by decide) (by decide))
      (host5_v33_tail_writes main_call2_v12 (by decide) (by decide) (by decide)) (by decide) Wp,
    host5_v33_mask]
  beta_reduce
  rw [toBuf_id, ofBuf_id]

/-- The fetched rows. -/
theorem host5_v33_fetch : StableHlo.after hostOps5 Wp (Proc.devRef .tc main_call2_v13)
    = Host.gather gather_S50000x64_S1600000x1_S1600000x64_1_0_n_n_0_1_164 (Wp (Proc.devRef .tc main_v32)) (srcCol (Wp (Proc.devRef .tc main_v1))) := by
  after_results_simp; rfl

/-- The fill value, everywhere. -/
theorem host5_v33_fill : StableHlo.after hostOps5 Wp (Proc.devRef .tc main_call2_v15)
    = broadcastInDim S1600000x64 ![] bcast_S_S1600000x64 (constant (F := Ideal) S_ .f32 0x7FC00000#32) := by
  after_results_simp; rfl

theorem host5_v33 : StableHlo.after hostOps5 Wp (Proc.devRef .tc main_v33) = takeFill (Wp (Proc.devRef .tc main_v1)) (Wp (Proc.devRef .tc main_v32)) := by
  rw [after_last_ternary hostOps5 hostOps5.dropLast main_call2_v14 main_call2_v13 main_call2_v15 main_v33 _ _ _ _ _ rfl (by decide) (by decide) (by decide) Wp,
    host5_v33_guard, host5_v33_fetch, host5_v33_fill]
  beta_reduce
  rw [toBuf_id, ofBuf_id, ofBuf_id, ofBuf_id]
  rfl

theorem host5_1_v35 : StableHlo.after hostOps5_1 Wp (Proc.devRef .tc main_v35) = wmat2 (Wp (Proc.devRef .tc main_arg6)) := by
  after_results_simp; rfl
theorem host5_1_v37 : StableHlo.after hostOps5_1 Wp (Proc.devRef .tc main_v37) = brow2 (Wp (Proc.devRef .tc main_arg7)) := by
  after_results_simp; rfl

theorem host6_v41 : StableHlo.after hostOps6 Wp (Proc.devRef .tc main_v41) = seg (Wp (Proc.devRef .tc main_v3)) (Wp (Proc.devRef .tc main_v38)) := by
  after_results_simp; rfl
theorem host6_v43 : StableHlo.after hostOps6 Wp (Proc.devRef .tc main_v43) = wmat2 (Wp (Proc.devRef .tc main_arg8)) := by
  after_results_simp; rfl
theorem host6_v45 : StableHlo.after hostOps6 Wp (Proc.devRef .tc main_v45) = brow2 (Wp (Proc.devRef .tc main_arg9)) := by
  after_results_simp; rfl

end Host

/-! ## The run, boundary by boundary -/

section Chain
variable (m : (ℓ : Loc nD τ sig) → Buf (Elt Ideal) ℓ) (ρ : Dev nD → PrngReg) (c : Dev nD)

/-- The edges' source numbers in the launch memory. -/
def src : IVec S1600000 32 := srcRow (m ((c : Thread nD τ).loc main_arg1))
/-- The edges' target numbers in the launch memory. -/
def dst : IVec S1600000 32 := dstRow (m ((c : Thread nD τ).loc main_arg1))

/-- The first edge rows. -/
def e0 : Cert.Spec.Mat 1600000 64 := Cert.Spec.embed (m ((c : Thread nD τ).loc main_arg2)) (m ((c : Thread nD τ).loc main_arg4)) (m ((c : Thread nD τ).loc main_arg5))
/-- Round 0's messages. -/
def m0 : Cert.Spec.Mat 1600000 64 := Cert.Spec.lin (take (src m c) (m ((c : Thread nD τ).loc main_arg0))) (e0 m c) (wmat0 (m ((c : Thread nD τ).loc main_arg6))) (brow0 (m ((c : Thread nD τ).loc main_arg7)))
/-- The node rows after round 0. -/
def h1 : Cert.Spec.Mat 50000 64 := Cert.Spec.lin (m ((c : Thread nD τ).loc main_arg0)) (seg (dst m c) (m0 m c)) (wmat0 (m ((c : Thread nD τ).loc main_arg8))) (brow0 (m ((c : Thread nD τ).loc main_arg9)))
/-- Round 1's messages. -/
def m1 : Cert.Spec.Mat 1600000 64 := Cert.Spec.lin (take (src m c) (h1 m c)) (m0 m c) (wmat1 (m ((c : Thread nD τ).loc main_arg6))) (brow1 (m ((c : Thread nD τ).loc main_arg7)))
/-- The node rows after round 1. -/
def h2 : Cert.Spec.Mat 50000 64 := Cert.Spec.lin (h1 m c) (seg (dst m c) (m1 m c)) (wmat1 (m ((c : Thread nD τ).loc main_arg8))) (brow1 (m ((c : Thread nD τ).loc main_arg9)))
/-- Round 2's messages. -/
def m2 : Cert.Spec.Mat 1600000 64 := Cert.Spec.lin (take (src m c) (h2 m c)) (m1 m c) (wmat2 (m ((c : Thread nD τ).loc main_arg6))) (brow2 (m ((c : Thread nD τ).loc main_arg7)))
/-- The node rows after round 2. -/
def h3 : Cert.Spec.Mat 50000 64 := Cert.Spec.lin (h2 m c) (seg (dst m c) (m2 m c)) (wmat2 (m ((c : Thread nD τ).loc main_arg8))) (brow2 (m ((c : Thread nD τ).loc main_arg9)))

/-- At the launch a buffer holds the launch memory. -/
theorem W0_at (b : Ref sig .tc) : W0 m ρ c (Proc.devRef .tc b) = m ((c : Thread nD τ).loc b) := rfl

theorem W1_v1 : W1 m ρ c (Proc.devRef .tc main_v1) = src m c := by
  dsimp only [W1]
  exact host0_v1 (W0 m ρ c)
theorem W1_v3 : W1 m ρ c (Proc.devRef .tc main_v3) = dst m c := by
  dsimp only [W1]
  exact host0_v3 (W0 m ρ c)

theorem W2_v4 : W2 m ρ c (Proc.devRef .tc main_v4) = e0 m c := by
  refine (W2_arr m ρ c 3).trans ((Cert.KernelIdeal.Embed0.val (V1 m ρ) c).trans ?_)
  rw [show V1 m ρ c main_arg2 = (m ((c : Thread nD τ).loc main_arg2)) from keep_main_arg2_0_1 m ρ c,
    show V1 m ρ c main_arg4 = (m ((c : Thread nD τ).loc main_arg4)) from keep_main_arg4_0_1 m ρ c,
    show V1 m ρ c main_arg5 = (m ((c : Thread nD τ).loc main_arg5)) from keep_main_arg5_0_1 m ρ c]
  rfl

/-- Every source number names a row of the node table. -/
def SrcOk : Prop := ∀ e : S1600000.Idx, 0 ≤ (src m c e).toInt ∧ (src m c e).toInt < 50000

/-! ### Round 0 -/

/-- The guarded fetch of the node rows along the edges is, under the hypothesis on the source numbers, the plain fetch. -/
theorem W3_v5 (hs : SrcOk m c) : W3 m ρ c (Proc.devRef .tc main_v5) = take (src m c) ((m ((c : Thread nD τ).loc main_arg0))) := by
  dsimp only [W3]
  rw [host1_v5 (W2 m ρ c),
    show W2 m ρ c (Proc.devRef .tc main_v1) = src m c from (keep_main_v1_1_2 m ρ c).trans (W1_v1 m ρ c),
    show W2 m ρ c (Proc.devRef .tc main_arg0) = (m ((c : Thread nD τ).loc main_arg0)) from keep_main_arg0_0_2 m ρ c]
  exact takeFill_eq _ hs _

theorem W4_v7 : W4 m ρ c (Proc.devRef .tc main_v7) = wmat0 (m ((c : Thread nD τ).loc main_arg6)) := by
  dsimp only [W4]
  rw [host1_1_v7 (W3 m ρ c), show W3 m ρ c (Proc.devRef .tc main_arg6) = (m ((c : Thread nD τ).loc main_arg6)) from keep_main_arg6_0_3 m ρ c]
theorem W4_v9 : W4 m ρ c (Proc.devRef .tc main_v9) = brow0 (m ((c : Thread nD τ).loc main_arg7)) := by
  dsimp only [W4]
  rw [host1_1_v9 (W3 m ρ c), show W3 m ρ c (Proc.devRef .tc main_arg7) = (m ((c : Thread nD τ).loc main_arg7)) from keep_main_arg7_0_3 m ρ c]

/-- The messages: the layer of the fetched source rows and the edges' own rows. -/
theorem W5_v10 (hs : SrcOk m c) : W5 m ρ c (Proc.devRef .tc main_v10) = m0 m c := by
  refine (W5_arr m ρ c 4).trans ((Cert.KernelIdeal.Lin1.val (V4 m ρ) c).trans ?_)
  rw [show V4 m ρ c main_v5 = take (src m c) ((m ((c : Thread nD τ).loc main_arg0))) from (keep_main_v5_3_4 m ρ c).trans (W3_v5 m ρ c hs),
    show V4 m ρ c main_v4 = e0 m c from (keep_main_v4_2_4 m ρ c).trans (W2_v4 m ρ c),
    show V4 m ρ c main_v7 = wmat0 (m ((c : Thread nD τ).loc main_arg6)) from W4_v7 m ρ c,
    show V4 m ρ c main_v9 = brow0 (m ((c : Thread nD τ).loc main_arg7)) from W4_v9 m ρ c]
  rfl

/-- The messages summed into their target nodes, and the update's weight and bias. -/
theorem W6_v13 (hs : SrcOk m c) : W6 m ρ c (Proc.devRef .tc main_v13) = seg (dst m c) (m0 m c) := by
  dsimp only [W6]
  rw [host2_v13 (W5 m ρ c),
    show W5 m ρ c (Proc.devRef .tc main_v3) = dst m c from (keep_main_v3_1_5 m ρ c).trans (W1_v3 m ρ c),
    show W5 m ρ c (Proc.devRef .tc main_v10) = m0 m c from W5_v10 m ρ c hs]
theorem W6_v15 : W6 m ρ c (Proc.devRef .tc main_v15) = wmat0 (m ((c : Thread nD τ).loc main_arg8)) := by
  dsimp only [W6]
  rw [host2_v15 (W5 m ρ c), show W5 m ρ c (Proc.devRef .tc main_arg8) = (m ((c : Thread nD τ).loc main_arg8)) from keep_main_arg8_0_5 m ρ c]
theorem W6_v17 : W6 m ρ c (Proc.devRef .tc main_v17) = brow0 (m ((c : Thread nD τ).loc main_arg9)) := by
  dsimp only [W6]
  rw [host2_v17 (W5 m ρ c), show W5 m ρ c (Proc.devRef .tc main_arg9) = (m ((c : Thread nD τ).loc main_arg9)) from keep_main_arg9_0_5 m ρ c]

/-- The node rows after the round: the layer of the node rows and the summed messages. -/
theorem W7_v18 (hs : SrcOk m c) : W7 m ρ c (Proc.devRef .tc main_v18) = h1 m c := by
  refine (W7_arr m ρ c 4).trans ((Cert.KernelIdeal.Lin2.val (V6 m ρ) c).trans ?_)
  rw [show V6 m ρ c main_arg0 = (m ((c : Thread nD τ).loc main_arg0)) from keep_main_arg0_0_6 m ρ c,
    show V6 m ρ c main_v13 = seg (dst m c) (m0 m c) from W6_v13 m ρ c hs,
    show V6 m ρ c main_v15 = wmat0 (m ((c : Thread nD τ).loc main_arg8)) from W6_v15 m ρ c,
    show V6 m ρ c main_v17 = brow0 (m ((c : Thread nD τ).loc main_arg9)) from W6_v17 m ρ c]
  rfl

/-! ### Round 1 -/

/-- The guarded fetch of the node rows along the edges is, under the hypothesis on the source numbers, the plain fetch. -/
theorem W8_v19 (hs : SrcOk m c) : W8 m ρ c (Proc.devRef .tc main_v19) = take (src m c) (h1 m c) := by
  dsimp only [W8]
  rw [host3_v19 (W7 m ρ c),
    show W7 m ρ c (Proc.devRef .tc main_v1) = src m c from (keep_main_v1_1_7 m ρ c).trans (W1_v1 m ρ c),
    show W7 m ρ c (Proc.devRef .tc main_v18) = h1 m c from W7_v18 m ρ c hs]
  exact takeFill_eq _ hs _

theorem W9_v21 : W9 m ρ c (Proc.devRef .tc main_v21) = wmat1 (m ((c : Thread nD τ).loc main_arg6)) := by
  dsimp only [W9]
  rw [host3_1_v21 (W8 m ρ c), show W8 m ρ c (Proc.devRef .tc main_arg6) = (m ((c : Thread nD τ).loc main_arg6)) from keep_main_arg6_0_8 m ρ c]
theorem W9_v23 : W9 m ρ c (Proc.devRef .tc main_v23) = brow1 (m ((c : Thread nD τ).loc main_arg7)) := by
  dsimp only [W9]
  rw [host3_1_v23 (W8 m ρ c), show W8 m ρ c (Proc.devRef .tc main_arg7) = (m ((c : Thread nD τ).loc main_arg7)) from keep_main_arg7_0_8 m ρ c]

/-- The messages: the layer of the fetched source rows and the edges' own rows. -/
theorem W10_v24 (hs : SrcOk m c) : W10 m ρ c (Proc.devRef .tc main_v24) = m1 m c := by
  refine (W10_arr m ρ c 4).trans ((Cert.KernelIdeal.Lin3.val (V9 m ρ) c).trans ?_)
  rw [show V9 m ρ c main_v19 = take (src m c) (h1 m c) from (keep_main_v19_8_9 m ρ c).trans (W8_v19 m ρ c hs),
    show V9 m ρ c main_v10 = m0 m c from (keep_main_v10_5_9 m ρ c).trans (W5_v10 m ρ c hs),
    show V9 m ρ c main_v21 = wmat1 (m ((c : Thread nD τ).loc main_arg6)) from W9_v21 m ρ c,
    show V9 m ρ c main_v23 = brow1 (m ((c : Thread nD τ).loc main_arg7)) from W9_v23 m ρ c]
  rfl

/-- The messages summed into their target nodes, and the update's weight and bias. -/
theorem W11_v27 (hs : SrcOk m c) : W11 m ρ c (Proc.devRef .tc main_v27) = seg (dst m c) (m1 m c) := by
  dsimp only [W11]
  rw [host4_v27 (W10 m ρ c),
    show W10 m ρ c (Proc.devRef .tc main_v3) = dst m c from (keep_main_v3_1_10 m ρ c).trans (W1_v3 m ρ c),
    show W10 m ρ c (Proc.devRef .tc main_v24) = m1 m c from W10_v24 m ρ c hs]
theorem W11_v29 : W11 m ρ c (Proc.devRef .tc main_v29) = wmat1 (m ((c : Thread nD τ).loc main_arg8)) := by
  dsimp only [W11]
  rw [host4_v29 (W10 m ρ c), show W10 m ρ c (Proc.devRef .tc main_arg8) = (m ((c : Thread nD τ).loc main_arg8)) from keep_main_arg8_0_10 m ρ c]
theorem W11_v31 : W11 m ρ c (Proc.devRef .tc main_v31) = brow1 (m ((c : Thread nD τ).loc main_arg9)) := by
  dsimp only [W11]
  rw [host4_v31 (W10 m ρ c), show W10 m ρ c (Proc.devRef .tc main_arg9) = (m ((c : Thread nD τ).loc main_arg9)) from keep_main_arg9_0_10 m ρ c]

/-- The node rows after the round: the layer of the node rows and the summed messages. -/
theorem W12_v32 (hs : SrcOk m c) : W12 m ρ c (Proc.devRef .tc main_v32) = h2 m c := by
  refine (W12_arr m ρ c 4).trans ((Cert.KernelIdeal.Lin4.val (V11 m ρ) c).trans ?_)
  rw [show V11 m ρ c main_v18 = h1 m c from (keep_main_v18_7_11 m ρ c).trans (W7_v18 m ρ c hs),
    show V11 m ρ c main_v27 = seg (dst m c) (m1 m c) from W11_v27 m ρ c hs,
    show V11 m ρ c main_v29 = wmat1 (m ((c : Thread nD τ).loc main_arg8)) from W11_v29 m ρ c,
    show V11 m ρ c main_v31 = brow1 (m ((c : Thread nD τ).loc main_arg9)) from W11_v31 m ρ c]
  rfl

/-! ### Round 2 -/

/-- The guarded fetch of the node rows along the edges is, under the hypothesis on the source numbers, the plain fetch. -/
theorem W13_v33 (hs : SrcOk m c) : W13 m ρ c (Proc.devRef .tc main_v33) = take (src m c) (h2 m c) := by
  dsimp only [W13]
  rw [host5_v33 (W12 m ρ c),
    show W12 m ρ c (Proc.devRef .tc main_v1) = src m c from (keep_main_v1_1_12 m ρ c).trans (W1_v1 m ρ c),
    show W12 m ρ c (Proc.devRef .tc main_v32) = h2 m c from W12_v32 m ρ c hs]
  exact takeFill_eq _ hs _

theorem W14_v35 : W14 m ρ c (Proc.devRef .tc main_v35) = wmat2 (m ((c : Thread nD τ).loc main_arg6)) := by
  dsimp only [W14]
  rw [host5_1_v35 (W13 m ρ c), show W13 m ρ c (Proc.devRef .tc main_arg6) = (m ((c : Thread nD τ).loc main_arg6)) from keep_main_arg6_0_13 m ρ c]
theorem W14_v37 : W14 m ρ c (Proc.devRef .tc main_v37) = brow2 (m ((c : Thread nD τ).loc main_arg7)) := by
  dsimp only [W14]
  rw [host5_1_v37 (W13 m ρ c), show W13 m ρ c (Proc.devRef .tc main_arg7) = (m ((c : Thread nD τ).loc main_arg7)) from keep_main_arg7_0_13 m ρ c]

/-- The messages: the layer of the fetched source rows and the edges' own rows. -/
theorem W15_v38 (hs : SrcOk m c) : W15 m ρ c (Proc.devRef .tc main_v38) = m2 m c := by
  refine (W15_arr m ρ c 4).trans ((Cert.KernelIdeal.Lin5.val (V14 m ρ) c).trans ?_)
  rw [show V14 m ρ c main_v33 = take (src m c) (h2 m c) from (keep_main_v33_13_14 m ρ c).trans (W13_v33 m ρ c hs),
    show V14 m ρ c main_v24 = m1 m c from (keep_main_v24_10_14 m ρ c).trans (W10_v24 m ρ c hs),
    show V14 m ρ c main_v35 = wmat2 (m ((c : Thread nD τ).loc main_arg6)) from W14_v35 m ρ c,
    show V14 m ρ c main_v37 = brow2 (m ((c : Thread nD τ).loc main_arg7)) from W14_v37 m ρ c]
  rfl

/-- The messages summed into their target nodes, and the update's weight and bias. -/
theorem W16_v41 (hs : SrcOk m c) : W16 m ρ c (Proc.devRef .tc main_v41) = seg (dst m c) (m2 m c) := by
  dsimp only [W16]
  rw [host6_v41 (W15 m ρ c),
    show W15 m ρ c (Proc.devRef .tc main_v3) = dst m c from (keep_main_v3_1_15 m ρ c).trans (W1_v3 m ρ c),
    show W15 m ρ c (Proc.devRef .tc main_v38) = m2 m c from W15_v38 m ρ c hs]
theorem W16_v43 : W16 m ρ c (Proc.devRef .tc main_v43) = wmat2 (m ((c : Thread nD τ).loc main_arg8)) := by
  dsimp only [W16]
  rw [host6_v43 (W15 m ρ c), show W15 m ρ c (Proc.devRef .tc main_arg8) = (m ((c : Thread nD τ).loc main_arg8)) from keep_main_arg8_0_15 m ρ c]
theorem W16_v45 : W16 m ρ c (Proc.devRef .tc main_v45) = brow2 (m ((c : Thread nD τ).loc main_arg9)) := by
  dsimp only [W16]
  rw [host6_v45 (W15 m ρ c), show W15 m ρ c (Proc.devRef .tc main_arg9) = (m ((c : Thread nD τ).loc main_arg9)) from keep_main_arg9_0_15 m ρ c]

/-- The node rows after the round: the layer of the node rows and the summed messages. -/
theorem W17_v46 (hs : SrcOk m c) : W17 m ρ c (Proc.devRef .tc main_v46) = h3 m c := by
  refine (W17_arr m ρ c 4).trans ((Cert.KernelIdeal.Lin6.val (V16 m ρ) c).trans ?_)
  rw [show V16 m ρ c main_v32 = h2 m c from (keep_main_v32_12_16 m ρ c).trans (W12_v32 m ρ c hs),
    show V16 m ρ c main_v41 = seg (dst m c) (m2 m c) from W16_v41 m ρ c hs,
    show V16 m ρ c main_v43 = wmat2 (m ((c : Thread nD τ).loc main_arg8)) from W16_v43 m ρ c,
    show V16 m ρ c main_v45 = brow2 (m ((c : Thread nD τ).loc main_arg9)) from W16_v45 m ρ c]
  rfl

/-! ### The read-out -/

/-- THE RESULT: after the last region the result array holds the network of the launch memory's arrays. -/
theorem W18_v47 (hs : SrcOk m c) : W18 m ρ c (Proc.devRef .tc main_v47)
    = Cert.Spec.gnn (take (src m c)) (seg (dst m c)) (m ((c : Thread nD τ).loc main_arg0)) (m ((c : Thread nD τ).loc main_arg2)) (m ((c : Thread nD τ).loc main_arg4)) (m ((c : Thread nD τ).loc main_arg5))
        (wmat0 (m ((c : Thread nD τ).loc main_arg6))) (brow0 (m ((c : Thread nD τ).loc main_arg7))) (wmat0 (m ((c : Thread nD τ).loc main_arg8))) (brow0 (m ((c : Thread nD τ).loc main_arg9)))
        (wmat1 (m ((c : Thread nD τ).loc main_arg6))) (brow1 (m ((c : Thread nD τ).loc main_arg7))) (wmat1 (m ((c : Thread nD τ).loc main_arg8))) (brow1 (m ((c : Thread nD τ).loc main_arg9)))
        (wmat2 (m ((c : Thread nD τ).loc main_arg6))) (brow2 (m ((c : Thread nD τ).loc main_arg7))) (wmat2 (m ((c : Thread nD τ).loc main_arg8))) (brow2 (m ((c : Thread nD τ).loc main_arg9)))
        (m ((c : Thread nD τ).loc main_arg10)) (m ((c : Thread nD τ).loc main_arg11)) (m ((c : Thread nD τ).loc main_arg12)) (m ((c : Thread nD τ).loc main_arg13)) := by
  refine (W18_arr m ρ c 5).trans ((Cert.KernelIdeal.Dec7.val (V17 m ρ) c).trans ?_)
  rw [show V17 m ρ c main_v46 = h3 m c from W17_v46 m ρ c hs,
    show V17 m ρ c main_arg10 = (m ((c : Thread nD τ).loc main_arg10)) from keep_main_arg10_0_17 m ρ c,
    show V17 m ρ c main_arg11 = (m ((c : Thread nD τ).loc main_arg11)) from keep_main_arg11_0_17 m ρ c,
    show V17 m ρ c main_arg12 = (m ((c : Thread nD τ).loc main_arg12)) from keep_main_arg12_0_17 m ρ c,
    show V17 m ρ c main_arg13 = (m ((c : Thread nD τ).loc main_arg13)) from keep_main_arg13_0_17 m ρ c]
  rfl

end Chain

end Cert.KernelIdeal.KValue

end
-- ==== Proof.PreDecode.lean ====
/-
  What the precondition says about the edges' source numbers.

  The precondition is one conjunction: every float input finite, and every source number — row 0 of the edge table —
  at least 0 and below 50000. Its last conjunct is the one read here, entry by entry.
-/
import proofs.«424121_j82257213653679_2_alg».proof.Defs
import proofs.«424121_j82257213653679_2_alg».proof.Proof.Gen.KernelIdeal
import proofs.«424121_j82257213653679_2_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.PreDecode

open Cert.KernelIdeal Idealize.ShloMosaic Idealize.ShloMosaic.ValueIdx Idealize.SL.Sem
open Cert.KernelIdeal.Facts₀ Cert.KernelIdeal.Facts

/-- The edges' source numbers: row 0 of the edge table, as a vector. -/
def srcOf (m : (ℓ : Loc nD τ sig) → Buf (Elt Ideal) ℓ) (c : Dev nD) : IVec S1600000 32 :=
  shapeCast S1600000
    (extractStridedSlice S1x1600000 ![0, 0] (m ((c.tc : Thread nD τ).loc main_arg1)) slices_S2x1600000_S1x1600000_0_0)
    shapeCasts_S1x1600000_S1600000

/-- The scalar shape has exactly one index: an index is a function out of the empty set of axes. -/
instance scalarIdx_subsingleton : Subsingleton Cert.Pre_finite_inputs.S_.Idx :=
  ⟨fun _ _ => funext fun d => d.elim0⟩

/-- The tail of the precondition, over any edge table `a1` (the other arguments play no part).
    The tail's value is a conjunction `p ∧ q` of two bits, and it is 1, so `q` is 1. The bit `q` is the conjunction,
    over all 1,600,000 entries `e`, of the bit `(0 ≤ s e) ∧ (s e < 50000)`, where `s` is row 0 of `a1` and both
    comparisons read the words signed. A conjunction over all entries that is 1 is 1 at each entry, so at `e` both
    comparison bits are 1, which is the two inequalities. The constants compared against are the words 0 and 50000
    repeated along the vector; read signed they are the integers 0 and 50000. -/
theorem part3_last (a1 : IVec Cert.Pre_finite_inputs.S2x1600000 32) (a13 : FVec Ideal Cert.Pre_finite_inputs.S1 .f32)
    (v48 : IVec Cert.Pre_finite_inputs.S_ 1) (v49 v50 : FVec Ideal Cert.Pre_finite_inputs.S32x1 .f32)
    (h : Cert.Pre_finite_inputs.fn_part3 (F := Ideal) a1 a13 v48 v49 v50 ix0 = 1#1)
    (e : Cert.Pre_finite_inputs.S1600000.Idx) :
    0 ≤ (shapeCast Cert.Pre_finite_inputs.S1600000
          (extractStridedSlice Cert.Pre_finite_inputs.S1x1600000 ![0, 0] a1
            Cert.Pre_finite_inputs.Facts.slices_S2x1600000_S1x1600000_0_0)
          Cert.Pre_finite_inputs.Facts.shapeCasts_S1x1600000_S1600000 e).toInt
      ∧ (shapeCast Cert.Pre_finite_inputs.S1600000
          (extractStridedSlice Cert.Pre_finite_inputs.S1x1600000 ![0, 0] a1
            Cert.Pre_finite_inputs.Facts.slices_S2x1600000_S1x1600000_0_0)
          Cert.Pre_finite_inputs.Facts.shapeCasts_S1x1600000_S1600000 e).toInt < 50000 := by
  -- the tail written out: (… ∧ …) ∧ (all entries of (0 ≤ s) ∧ (s < 50000)), read at the one scalar index
  dsimp only [Cert.Pre_finite_inputs.fn_part3, Cert.Pre_finite_inputs.fn_part4] at h
  -- the right operand of the outer conjunction is 1
  have h68 := (IntOp.andi_eq_one.1 h).2
  -- a conjunction over all entries that is 1 is 1 at entry e
  have h67 := Host.reduce_andi_all _ _ _ _ _ h68 e
  -- at e both comparison bits are 1
  obtain ⟨hge, hlt⟩ := IntOp.andi_eq_one.1 h67
  have h0 : (0#32 : BitVec 32).toInt = 0 := by decide
  have h5 : (50000#32 : BitVec 32).toInt = 50000 := by decide
  exact ⟨h0 ▸ IntOp.cmpi_sge.1 hge, h5 ▸ IntOp.cmpi_slt.1 hlt⟩

/-- Under the precondition every source number lies in `[0, 50000)`. -/
theorem src_range (m : (ℓ : Loc nD τ sig) → Buf (Elt Ideal) ℓ) (hpre : Cert.Pre_KernelIdeal m) (c : Dev nD)
    (e : S1600000.Idx) : 0 ≤ (srcOf m c e).toInt ∧ (srcOf m c e).toInt < 50000 := by
  -- the precondition on device c, read at the one scalar index: the whole conjunction is 1
  have h := congrFun (hpre c) ix0
  -- its first stretches only compute the finiteness bits handed on to the tail
  dsimp only [Cert.Pre_finite_inputs.fn, Cert.Pre_finite_inputs.fn_part1, Cert.Pre_finite_inputs.fn_part2] at h
  -- the tail's vector of source numbers is row 0 of device c's edge table
  exact part3_last _ _ _ _ _ h e

end Cert.KernelIdeal.PreDecode

end
-- ==== Proof.RefLayers.lean ====
/-
  The reference's layers, entry by entry.

  The reference computes every layer with whole-array operations: a matrix product of the two inputs laid side by
  side with the weight, the bias broadcast over the rows and added, `tanh`. Entry by entry that is `Spec.lin` (and
  `Spec.embed`, `Spec.dec` for the first and the last map). What moves rows between nodes and edges — the fetch of
  source rows and the sum into target rows — is named here as the two maps `take` and `seg`, together with the slices
  that cut the edge table into its two rows and the weight stacks into their layers.
-/
import proofs.«424121_j82257213653679_2_alg».proof.Proof.Gen.ReferenceIdeal
import proofs.«424121_j82257213653679_2_alg».proof.Proof.Spec
import proofs.«424121_j82257213653679_2_alg».proof.Proof.LibJoin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-- Row `r` of the edge table, as a vector: row 0 holds the source numbers, row 1 the target numbers. -/
def src (m : (ℓ : Loc nD τ sig) → Buf (Elt Ideal) ℓ) (c : Dev nD) : IVec S1600000 32 :=
  shapeCast S1600000
    (extractStridedSlice S1x1600000 ![0, 0] (m ((c.tc : Thread nD τ).loc main_arg1)) slices_S2x1600000_S1x1600000_0_0)
    shapeCasts_S1x1600000_S1600000

def dst (m : (ℓ : Loc nD τ sig) → Buf (Elt Ideal) ℓ) (c : Dev nD) : IVec S1600000 32 :=
  shapeCast S1600000
    (extractStridedSlice S1x1600000 ![1, 0] (m ((c.tc : Thread nD τ).loc main_arg1)) slices_S2x1600000_S1x1600000_1_0)
    shapeCasts_S1x1600000_S1600000

/-- The column of source rows: a negative number wrapped once by the number of rows, laid out as `[E, 1]`. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- Edge `e` receives the row its source number names. -/
def take (s : IVec S1600000 32) (x : FVec Ideal S50000x64 .f32) : FVec Ideal S1600000x64 .f32 :=
  Host.gather gather_S50000x64_S1600000x1_S1600000x64_1_0_n_n_0_1_164 x (srcCol s)

/-- Node `n` receives the sum of the rows of the edges whose target number is `n`. -/
def seg (d : IVec S1600000 32) (u : FVec Ideal S1600000x64 .f32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 d) u

/-- Layer 0's 128 × 64 weight out of a stack of three. -/
def wmat0 (x : FVec Ideal S3x128x64 .f32) : FVec Ideal S128x64 .f32 :=
  shapeCast S128x64 (extractStridedSlice S1x128x64 ![0, 0, 0] x slices_S3x128x64_S1x128x64_0_0_0) shapeCasts_S1x128x64_S128x64

/-- Layer 0's bias out of a stack of three. -/
def brow0 (x : FVec Ideal S3x64 .f32) : FVec Ideal S64 .f32 :=
  shapeCast S64 (extractStridedSlice S1x64 ![0, 0] x slices_S3x64_S1x64_0_0) shapeCasts_S1x64_S64

/-- Layer 1's 128 × 64 weight out of a stack of three. -/
def wmat1 (x : FVec Ideal S3x128x64 .f32) : FVec Ideal S128x64 .f32 :=
  shapeCast S128x64 (extractStridedSlice S1x128x64 ![1, 0, 0] x slices_S3x128x64_S1x128x64_1_0_0) shapeCasts_S1x128x64_S128x64

/-- Layer 1's bias out of a stack of three. -/
def brow1 (x : FVec Ideal S3x64 .f32) : FVec Ideal S64 .f32 :=
  shapeCast S64 (extractStridedSlice S1x64 ![1, 0] x slices_S3x64_S1x64_1_0) shapeCasts_S1x64_S64

/-- Layer 2's 128 × 64 weight out of a stack of three. -/
def wmat2 (x : FVec Ideal S3x128x64 .f32) : FVec Ideal S128x64 .f32 :=
  shapeCast S128x64 (extractStridedSlice S1x128x64 ![2, 0, 0] x slices_S3x128x64_S1x128x64_2_0_0) shapeCasts_S1x128x64_S128x64

/-- Layer 2's bias out of a stack of three. -/
def brow2 (x : FVec Ideal S3x64 .f32) : FVec Ideal S64 .f32 :=
  shapeCast S64 (extractStridedSlice S1x64 ![2, 0] x slices_S3x64_S1x64_2_0) shapeCasts_S1x64_S64

/-! ## The layers, entry by entry

  Every product below is a plain matrix product `[R, K] · [K, C]`: the result's entry `(r, j)` reads the left factor
  along its row `r` and the right factor along its column `j`, both at the same summation index `k`. For each of the
  five shapes that is said axis by axis first (the left factor's axis 0 follows the result's row and its axis 1 the
  summation index; the right factor's axis 0 follows the summation index and its axis 1 the result's column), then as
  the sum `∑ k, l (r, k) * w (k, j)`. A bias is a vector laid under every row, so its entry `(r, j)` is the vector's
  entry `j`. With those two readings each layer of the reference is, entry by entry, the corresponding map of `Spec`. -/

/-! ## Pointwise: `tanh` of a sum of two arrays, read at an entry -/

/-- Entry `i` of `tanh (a + b)` is `tanh (a i + b i)`. -/
theorem tanh_addf_apply {s : Shape} (a b : FVec Ideal s .f32) (i : s.Idx) :
    Host.tanh (addf a b) i = Ideal.tanh (a i + b i) := rfl

/-! ## The 2 → 64 product: `[E, 2] · [2, 64]` -/

theorem lhsE_0 (i : S1600000x64.Idx) (q : dot_S1600000x2_S2x64_S1600000x64_1_0_0_1_n_n.contr.Idx) :
    (dot_S1600000x2_S2x64_S1600000x64_1_0_0_1_n_n.lhsIdx i q 0).val = (i 0).val := by
  unfold DotDims.lhsIdx
  rw [dif_neg (show ¬(0 : Fin S1600000x2.rank) ∈ dot_S1600000x2_S2x64_S1600000x64_1_0_0_1_n_n.lhsBatch by decide),
    dif_pos (show (0 : Fin S1600000x2.rank) ∈ dot_S1600000x2_S2x64_S1600000x64_1_0_0_1_n_n.lhsNonContracting by decide)]
  rfl
theorem lhsE_1 (i : S1600000x64.Idx) (q : dot_S1600000x2_S2x64_S1600000x64_1_0_0_1_n_n.contr.Idx) :
    (dot_S1600000x2_S2x64_S1600000x64_1_0_0_1_n_n.lhsIdx i q 1).val = (q ⟨0, by decide⟩).val :=
  dot_S1600000x2_S2x64_S1600000x64_1_0_0_1_n_n.lhsIdx_val_of_single rfl i q
theorem rhsE_0 (i : S1600000x64.Idx) (q : dot_S1600000x2_S2x64_S1600000x64_1_0_0_1_n_n.contr.Idx) :
    (dot_S1600000x2_S2x64_S1600000x64_1_0_0_1_n_n.rhsIdx i q 0).val = (q ⟨0, by decide⟩).val :=
  dot_S1600000x2_S2x64_S1600000x64_1_0_0_1_n_n.rhsIdx_val_of_single rfl i q
theorem rhsE_1 (i : S1600000x64.Idx) (q : dot_S1600000x2_S2x64_S1600000x64_1_0_0_1_n_n.contr.Idx) :
    (dot_S1600000x2_S2x64_S1600000x64_1_0_0_1_n_n.rhsIdx i q 1).val = (i 1).val := by
  unfold DotDims.rhsIdx
  rw [dif_neg (show ¬(1 : Fin S2x64.rank) ∈ dot_S1600000x2_S2x64_S1600000x64_1_0_0_1_n_n.rhsBatch by decide),
    dif_pos (show (1 : Fin S2x64.rank) ∈ dot_S1600000x2_S2x64_S1600000x64_1_0_0_1_n_n.rhsNonContracting by decide)]
  rfl

/-- Entry `(r, j)` of `l · w` is `∑ k, l (r, k) * w (k, j)`. -/
theorem dotE_apply (l : FVec Ideal S1600000x2 .f32) (w : FVec Ideal S2x64 .f32) (i : S1600000x64.Idx) :
    Host.dotGeneral dot_S1600000x2_S2x64_S1600000x64_1_0_0_1_n_n none l w i
      = ∑ k : Fin 2, l (ix2 (i 0) k) * w (ix2 k (i 1)) := by
  simp only [Host.dotGeneral]
  rw [Ideal.dotGeneral_apply, ← Equiv.sum_comp (contrEquiv1 dot_S1600000x2_S2x64_S1600000x64_1_0_0_1_n_n 2 rfl rfl).symm]
  refine Finset.sum_congr rfl fun k _ => ?_
  have hk := contrEquiv1_symm_val dot_S1600000x2_S2x64_S1600000x64_1_0_0_1_n_n 2 rfl rfl k
  have el : dot_S1600000x2_S2x64_S1600000x64_1_0_0_1_n_n.lhsIdx i
      ((contrEquiv1 dot_S1600000x2_S2x64_S1600000x64_1_0_0_1_n_n 2 rfl rfl).symm k) = (ix2 (i 0) k : S1600000x2.Idx) :=
    funext fun a => Fin.ext (by
      match a with
      | ⟨0, _⟩ => exact lhsE_0 _ _
      | ⟨1, _⟩ => exact (lhsE_1 _ _).trans hk)
  have er : dot_S1600000x2_S2x64_S1600000x64_1_0_0_1_n_n.rhsIdx i
      ((contrEquiv1 dot_S1600000x2_S2x64_S1600000x64_1_0_0_1_n_n 2 rfl rfl).symm k) = (ix2 k (i 1) : S2x64.Idx) :=
    funext fun a => Fin.ext (by
      match a with
      | ⟨0, _⟩ => exact (rhsE_0 _ _).trans hk
      | ⟨1, _⟩ => exact rhsE_1 _ _)
  rw [el, er]

/-! ## A bias row laid under every row of a matrix -/

/-- Entry `(r, j)` of a 64-vector broadcast over 1 600 000 rows is the vector's entry `j`. -/
theorem biasE_apply (b : FVec Ideal S64 .f32) (i : S1600000x64.Idx) :
    broadcastInDim S1600000x64 ![0, 1] bcast_S1x64_S1600000x64_0_1 (broadcastInDim S1x64 ![1] bcast_S64_S1x64_1 b) i
      = b (ix1 (i 1)) := by
  rw [broadcastInDim_apply _ bcast_S1x64_S1600000x64_0_1 _ i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (ix2 0 (i 1)) (ix1 (i 1)) (fun a => match a with
    | ⟨0, _⟩ => by show (i 1).val = if (64 : Nat) = 1 then 0 else (i 1).val; rw [if_neg (by decide)])

/-- The first edge rows, as the reference computes them, are `Spec.embed`. -/
theorem embed_eq (ef : FVec Ideal S1600000x2 .f32) (W : FVec Ideal S2x64 .f32) (b : FVec Ideal S64 .f32) :
    Host.tanh (addf (Host.dotGeneral dot_S1600000x2_S2x64_S1600000x64_1_0_0_1_n_n none ef W)
      (broadcastInDim S1600000x64 ![0, 1] bcast_S1x64_S1600000x64_0_1 (broadcastInDim S1x64 ![1] bcast_S64_S1x64_1 b)))
    = Cert.Spec.embed ef W b := by
  funext i
  rw [tanh_addf_apply, dotE_apply, biasE_apply, Fin.sum_univ_two]
  rfl

/-! ## The 128 → 64 product over the edges: `[E, 128] · [128, 64]` -/

theorem lhsM_0 (i : S1600000x64.Idx) (q : dot_S1600000x128_S128x64_S1600000x64_1_0_0_1_n_n.contr.Idx) :
    (dot_S1600000x128_S128x64_S1600000x64_1_0_0_1_n_n.lhsIdx i q 0).val = (i 0).val := by
  unfold DotDims.lhsIdx
  rw [dif_neg (show ¬(0 : Fin S1600000x128.rank) ∈ dot_S1600000x128_S128x64_S1600000x64_1_0_0_1_n_n.lhsBatch by decide),
    dif_pos (show (0 : Fin S1600000x128.rank) ∈ dot_S1600000x128_S128x64_S1600000x64_1_0_0_1_n_n.lhsNonContracting by decide)]
  rfl
theorem lhsM_1 (i : S1600000x64.Idx) (q : dot_S1600000x128_S128x64_S1600000x64_1_0_0_1_n_n.contr.Idx) :
    (dot_S1600000x128_S128x64_S1600000x64_1_0_0_1_n_n.lhsIdx i q 1).val = (q ⟨0, by decide⟩).val :=
  dot_S1600000x128_S128x64_S1600000x64_1_0_0_1_n_n.lhsIdx_val_of_single rfl i q
theorem rhsM_0 (i : S1600000x64.Idx) (q : dot_S1600000x128_S128x64_S1600000x64_1_0_0_1_n_n.contr.Idx) :
    (dot_S1600000x128_S128x64_S1600000x64_1_0_0_1_n_n.rhsIdx i q 0).val = (q ⟨0, by decide⟩).val :=
  dot_S1600000x128_S128x64_S1600000x64_1_0_0_1_n_n.rhsIdx_val_of_single rfl i q
theorem rhsM_1 (i : S1600000x64.Idx) (q : dot_S1600000x128_S128x64_S1600000x64_1_0_0_1_n_n.contr.Idx) :
    (dot_S1600000x128_S128x64_S1600000x64_1_0_0_1_n_n.rhsIdx i q 1).val = (i 1).val := by
  unfold DotDims.rhsIdx
  rw [dif_neg (show ¬(1 : Fin S128x64.rank) ∈ dot_S1600000x128_S128x64_S1600000x64_1_0_0_1_n_n.rhsBatch by decide),
    dif_pos (show (1 : Fin S128x64.rank) ∈ dot_S1600000x128_S128x64_S1600000x64_1_0_0_1_n_n.rhsNonContracting by decide)]
  rfl

/-- Entry `(r, j)` of `l · w` is `∑ k, l (r, k) * w (k, j)`. -/
theorem dotM_apply (l : FVec Ideal S1600000x128 .f32) (w : FVec Ideal S128x64 .f32) (i : S1600000x64.Idx) :
    Host.dotGeneral dot_S1600000x128_S128x64_S1600000x64_1_0_0_1_n_n none l w i
      = ∑ k : Fin 128, l (ix2 (i 0) k) * w (ix2 k (i 1)) := by
  simp only [Host.dotGeneral]
  rw [Ideal.dotGeneral_apply, ← Equiv.sum_comp (contrEquiv1 dot_S1600000x128_S128x64_S1600000x64_1_0_0_1_n_n 128 rfl rfl).symm]
  refine Finset.sum_congr rfl fun k _ => ?_
  have hk := contrEquiv1_symm_val dot_S1600000x128_S128x64_S1600000x64_1_0_0_1_n_n 128 rfl rfl k
  have el : dot_S1600000x128_S128x64_S1600000x64_1_0_0_1_n_n.lhsIdx i
      ((contrEquiv1 dot_S1600000x128_S128x64_S1600000x64_1_0_0_1_n_n 128 rfl rfl).symm k) = (ix2 (i 0) k : S1600000x128.Idx) :=
    funext fun a => Fin.ext (by
      match a with
      | ⟨0, _⟩ => exact lhsM_0 _ _
      | ⟨1, _⟩ => exact (lhsM_1 _ _).trans hk)
  have er : dot_S1600000x128_S128x64_S1600000x64_1_0_0_1_n_n.rhsIdx i
      ((contrEquiv1 dot_S1600000x128_S128x64_S1600000x64_1_0_0_1_n_n 128 rfl rfl).symm k) = (ix2 k (i 1) : S128x64.Idx) :=
    funext fun a => Fin.ext (by
      match a with
      | ⟨0, _⟩ => exact (rhsM_0 _ _).trans hk
      | ⟨1, _⟩ => exact rhsM_1 _ _)
  rw [el, er]

/-- One layer over the edges, as the reference computes it, is `Spec.lin`. -/
theorem linE_eq (a b : FVec Ideal S1600000x64 .f32) (W : FVec Ideal S128x64 .f32) (bias : FVec Ideal S64 .f32) :
    Host.tanh (addf (Host.dotGeneral dot_S1600000x128_S128x64_S1600000x64_1_0_0_1_n_n none
        (concatenate S1600000x128 1 [⟨S1600000x64, a⟩, ⟨S1600000x64, b⟩] concatenates_S1600000x64_S1600000x64_S1600000x128_d1) W)
      (broadcastInDim S1600000x64 ![0, 1] bcast_S1x64_S1600000x64_0_1 (broadcastInDim S1x64 ![1] bcast_S64_S1x64_1 bias)))
    = Cert.Spec.lin a b W bias := by
  funext i
  rw [tanh_addf_apply, dotM_apply, biasE_apply]
  have hs : ∀ k : Fin 128,
      concatenate S1600000x128 1 [⟨S1600000x64, a⟩, ⟨S1600000x64, b⟩] concatenates_S1600000x64_S1600000x64_S1600000x128_d1
        (ix2 (i 0) k) = Cert.Spec.joined a b (i 0) k :=
    fun k => Cert.Spec.concat_apply a b concatenates_S1600000x64_S1600000x64_S1600000x128_d1 (i 0) k
  simp only [hs]
  rfl

/-! ## The 128 → 64 product over the nodes: `[N, 128] · [128, 64]` -/

theorem lhsN_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl
theorem lhsN_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhsN_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhsN_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- Entry `(r, j)` of `l · w` is `∑ k, l (r, k) * w (k, j)`. -/
theorem dotN_apply (l : FVec Ideal S50000x128 .f32) (w : FVec Ideal S128x64 .f32) (i : S50000x64.Idx) :
    Host.dotGeneral dot_S50000x128_S128x64_S50000x64_1_0_0_1_n_n none l w i
      = ∑ k : Fin 128, l (ix2 (i 0) k) * w (ix2 k (i 1)) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx i
      ((contrEquiv1 dot_S50000x128_S128x64_S50000x64_1_0_0_1_n_n 128 rfl rfl).symm k) = (ix2 (i 0) k : S50000x128.Idx) :=
    funext fun a => Fin.ext (by
      match a with
      | ⟨0, _⟩ => exact lhsN_0 _ _
      | ⟨1, _⟩ => exact (lhsN_1 _ _).trans hk)
  have er : dot_S50000x128_S128x64_S50000x64_1_0_0_1_n_n.rhsIdx i
      ((contrEquiv1 dot_S50000x128_S128x64_S50000x64_1_0_0_1_n_n 128 rfl rfl).symm k) = (ix2 k (i 1) : S128x64.Idx) :=
    funext fun a => Fin.ext (by
      match a with
      | ⟨0, _⟩ => exact (rhsN_0 _ _).trans hk
      | ⟨1, _⟩ => exact rhsN_1 _ _)
  rw [el, er]

/-- Entry `(r, j)` of a 64-vector broadcast over 50 000 rows is the vector's entry `j`. -/
theorem biasN_apply (b : FVec Ideal S64 .f32) (i : S50000x64.Idx) :
    broadcastInDim S50000x64 ![0, 1] bcast_S1x64_S50000x64_0_1 (broadcastInDim S1x64 ![1] bcast_S64_S1x64_1 b) i
      = b (ix1 (i 1)) := by
  rw [broadcastInDim_apply _ bcast_S1x64_S50000x64_0_1 _ i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (ix2 0 (i 1)) (ix1 (i 1)) (fun a => match a with
    | ⟨0, _⟩ => by show (i 1).val = if (64 : Nat) = 1 then 0 else (i 1).val; rw [if_neg (by decide)])

/-- One layer over the nodes, as the reference computes it, is `Spec.lin`. -/
theorem linN_eq (a b : FVec Ideal S50000x64 .f32) (W : FVec Ideal S128x64 .f32) (bias : FVec Ideal S64 .f32) :
    Host.tanh (addf (Host.dotGeneral dot_S50000x128_S128x64_S50000x64_1_0_0_1_n_n none
        (concatenate S50000x128 1 [⟨S50000x64, a⟩, ⟨S50000x64, b⟩] concatenates_S50000x64_S50000x64_S50000x128_d1) W)
      (broadcastInDim S50000x64 ![0, 1] bcast_S1x64_S50000x64_0_1 (broadcastInDim S1x64 ![1] bcast_S64_S1x64_1 bias)))
    = Cert.Spec.lin a b W bias := by
  funext i
  rw [tanh_addf_apply, dotN_apply, biasN_apply]
  have hs : ∀ k : Fin 128,
      concatenate S50000x128 1 [⟨S50000x64, a⟩, ⟨S50000x64, b⟩] concatenates_S50000x64_S50000x64_S50000x128_d1
        (ix2 (i 0) k) = Cert.Spec.joined a b (i 0) k :=
    fun k => Cert.Spec.concat_apply a b concatenates_S50000x64_S50000x64_S50000x128_d1 (i 0) k
  simp only [hs]
  rfl

/-! ## The read-out's 64 → 32 product: `[N, 64] · [64, 32]` -/

theorem lhsP_0 (i : S50000x32.Idx) (q : dot_S50000x64_S64x32_S50000x32_1_0_0_1_n_n.contr.Idx) :
    (dot_S50000x64_S64x32_S50000x32_1_0_0_1_n_n.lhsIdx i q 0).val = (i 0).val := by
  unfold DotDims.lhsIdx
  rw [dif_neg (show ¬(0 : Fin S50000x64.rank) ∈ dot_S50000x64_S64x32_S50000x32_1_0_0_1_n_n.lhsBatch by decide),
    dif_pos (show (0 : Fin S50000x64.rank) ∈ dot_S50000x64_S64x32_S50000x32_1_0_0_1_n_n.lhsNonContracting by decide)]
  rfl
theorem lhsP_1 (i : S50000x32.Idx) (q : dot_S50000x64_S64x32_S50000x32_1_0_0_1_n_n.contr.Idx) :
    (dot_S50000x64_S64x32_S50000x32_1_0_0_1_n_n.lhsIdx i q 1).val = (q ⟨0, by decide⟩).val :=
  dot_S50000x64_S64x32_S50000x32_1_0_0_1_n_n.lhsIdx_val_of_single rfl i q
theorem rhsP_0 (i : S50000x32.Idx) (q : dot_S50000x64_S64x32_S50000x32_1_0_0_1_n_n.contr.Idx) :
    (dot_S50000x64_S64x32_S50000x32_1_0_0_1_n_n.rhsIdx i q 0).val = (q ⟨0, by decide⟩).val :=
  dot_S50000x64_S64x32_S50000x32_1_0_0_1_n_n.rhsIdx_val_of_single rfl i q
theorem rhsP_1 (i : S50000x32.Idx) (q : dot_S50000x64_S64x32_S50000x32_1_0_0_1_n_n.contr.Idx) :
    (dot_S50000x64_S64x32_S50000x32_1_0_0_1_n_n.rhsIdx i q 1).val = (i 1).val := by
  unfold DotDims.rhsIdx
  rw [dif_neg (show ¬(1 : Fin S64x32.rank) ∈ dot_S50000x64_S64x32_S50000x32_1_0_0_1_n_n.rhsBatch by decide),
    dif_pos (show (1 : Fin S64x32.rank) ∈ dot_S50000x64_S64x32_S50000x32_1_0_0_1_n_n.rhsNonContracting by decide)]
  rfl

/-- Entry `(r, j)` of `l · w` is `∑ k, l (r, k) * w (k, j)`. -/
theorem dotP_apply (l : FVec Ideal S50000x64 .f32) (w : FVec Ideal S64x32 .f32) (i : S50000x32.Idx) :
    Host.dotGeneral dot_S50000x64_S64x32_S50000x32_1_0_0_1_n_n none l w i
      = ∑ k : Fin 64, l (ix2 (i 0) k) * w (ix2 k (i 1)) := by
  simp only [Host.dotGeneral]
  rw [Ideal.dotGeneral_apply, ← Equiv.sum_comp (contrEquiv1 dot_S50000x64_S64x32_S50000x32_1_0_0_1_n_n 64 rfl rfl).symm]
  refine Finset.sum_congr rfl fun k _ => ?_
  have hk := contrEquiv1_symm_val dot_S50000x64_S64x32_S50000x32_1_0_0_1_n_n 64 rfl rfl k
  have el : dot_S50000x64_S64x32_S50000x32_1_0_0_1_n_n.lhsIdx i
      ((contrEquiv1 dot_S50000x64_S64x32_S50000x32_1_0_0_1_n_n 64 rfl rfl).symm k) = (ix2 (i 0) k : S50000x64.Idx) :=
    funext fun a => Fin.ext (by
      match a with
      | ⟨0, _⟩ => exact lhsP_0 _ _
      | ⟨1, _⟩ => exact (lhsP_1 _ _).trans hk)
  have er : dot_S50000x64_S64x32_S50000x32_1_0_0_1_n_n.rhsIdx i
      ((contrEquiv1 dot_S50000x64_S64x32_S50000x32_1_0_0_1_n_n 64 rfl rfl).symm k) = (ix2 k (i 1) : S64x32.Idx) :=
    funext fun a => Fin.ext (by
      match a with
      | ⟨0, _⟩ => exact (rhsP_0 _ _).trans hk
      | ⟨1, _⟩ => exact rhsP_1 _ _)
  rw [el, er]

/-- Entry `(r, q)` of a 32-vector broadcast over 50 000 rows is the vector's entry `q`. -/
theorem biasP_apply (b : FVec Ideal S32 .f32) (i : S50000x32.Idx) :
    broadcastInDim S50000x32 ![0, 1] bcast_S1x32_S50000x32_0_1 (broadcastInDim S1x32 ![1] bcast_S32_S1x32_1 b) i
      = b (ix1 (i 1)) := by
  rw [broadcastInDim_apply _ bcast_S1x32_S50000x32_0_1 _ i (ix2 0 (i 1)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])]
  exact broadcastInDim_apply _ bcast_S32_S1x32_1 b (ix2 0 (i 1)) (ix1 (i 1)) (fun a => match a with
    | ⟨0, _⟩ => by show (i 1).val = if (32 : Nat) = 1 then 0 else (i 1).val; rw [if_neg (by decide)])

/-! ## The read-out's 32 → 1 product: `[N, 32] · [32, 1]` -/

theorem lhsQ_0 (i : S50000x1.Idx) (q : dot_S50000x32_S32x1_S50000x1_1_0_0_1_n_n.contr.Idx) :
    (dot_S50000x32_S32x1_S50000x1_1_0_0_1_n_n.lhsIdx i q 0).val = (i 0).val := by
  unfold DotDims.lhsIdx
  rw [dif_neg (show ¬(0 : Fin S50000x32.rank) ∈ dot_S50000x32_S32x1_S50000x1_1_0_0_1_n_n.lhsBatch by decide),
    dif_pos (show (0 : Fin S50000x32.rank) ∈ dot_S50000x32_S32x1_S50000x1_1_0_0_1_n_n.lhsNonContracting by decide)]
  rfl
theorem lhsQ_1 (i : S50000x1.Idx) (q : dot_S50000x32_S32x1_S50000x1_1_0_0_1_n_n.contr.Idx) :
    (dot_S50000x32_S32x1_S50000x1_1_0_0_1_n_n.lhsIdx i q 1).val = (q ⟨0, by decide⟩).val :=
  dot_S50000x32_S32x1_S50000x1_1_0_0_1_n_n.lhsIdx_val_of_single rfl i q
theorem rhsQ_0 (i : S50000x1.Idx) (q : dot_S50000x32_S32x1_S50000x1_1_0_0_1_n_n.contr.Idx) :
    (dot_S50000x32_S32x1_S50000x1_1_0_0_1_n_n.rhsIdx i q 0).val = (q ⟨0, by decide⟩).val :=
  dot_S50000x32_S32x1_S50000x1_1_0_0_1_n_n.rhsIdx_val_of_single rfl i q
theorem rhsQ_1 (i : S50000x1.Idx) (q : dot_S50000x32_S32x1_S50000x1_1_0_0_1_n_n.contr.Idx) :
    (dot_S50000x32_S32x1_S50000x1_1_0_0_1_n_n.rhsIdx i q 1).val = (i 1).val := by
  unfold DotDims.rhsIdx
  rw [dif_neg (show ¬(1 : Fin S32x1.rank) ∈ dot_S50000x32_S32x1_S50000x1_1_0_0_1_n_n.rhsBatch by decide),
    dif_pos (show (1 : Fin S32x1.rank) ∈ dot_S50000x32_S32x1_S50000x1_1_0_0_1_n_n.rhsNonContracting by decide)]
  rfl

/-- Entry `(r, j)` of `l · w` is `∑ q, l (r, q) * w (q, j)`. -/
theorem dotQ_apply (l : FVec Ideal S50000x32 .f32) (w : FVec Ideal S32x1 .f32) (i : S50000x1.Idx) :
    Host.dotGeneral dot_S50000x32_S32x1_S50000x1_1_0_0_1_n_n none l w i
      = ∑ k : Fin 32, l (ix2 (i 0) k) * w (ix2 k (i 1)) := by
  simp only [Host.dotGeneral]
  rw [Ideal.dotGeneral_apply, ← Equiv.sum_comp (contrEquiv1 dot_S50000x32_S32x1_S50000x1_1_0_0_1_n_n 32 rfl rfl).symm]
  refine Finset.sum_congr rfl fun k _ => ?_
  have hk := contrEquiv1_symm_val dot_S50000x32_S32x1_S50000x1_1_0_0_1_n_n 32 rfl rfl k
  have el : dot_S50000x32_S32x1_S50000x1_1_0_0_1_n_n.lhsIdx i
      ((contrEquiv1 dot_S50000x32_S32x1_S50000x1_1_0_0_1_n_n 32 rfl rfl).symm k) = (ix2 (i 0) k : S50000x32.Idx) :=
    funext fun a => Fin.ext (by
      match a with
      | ⟨0, _⟩ => exact lhsQ_0 _ _
      | ⟨1, _⟩ => exact (lhsQ_1 _ _).trans hk)
  have er : dot_S50000x32_S32x1_S50000x1_1_0_0_1_n_n.rhsIdx i
      ((contrEquiv1 dot_S50000x32_S32x1_S50000x1_1_0_0_1_n_n 32 rfl rfl).symm k) = (ix2 k (i 1) : S32x1.Idx) :=
    funext fun a => Fin.ext (by
      match a with
      | ⟨0, _⟩ => exact (rhsQ_0 _ _).trans hk
      | ⟨1, _⟩ => exact rhsQ_1 _ _)
  rw [el, er]

/-- Entry `(r, j)` of a 1-vector broadcast over 50 000 rows is the vector's one entry (`j` can only be `0`). -/
theorem biasQ_apply (b : FVec Ideal S1 .f32) (i : S50000x1.Idx) :
    broadcastInDim S50000x1 ![0, 1] bcast_S1x1_S50000x1_0_1 (broadcastInDim S1x1 ![1] bcast_S1_S1x1_1 b) i
      = b (ix1 (i 1)) := by
  have h1 : (i 1).val = 0 := by have := idx2_lt1 i; omega
  rw [broadcastInDim_apply _ bcast_S1x1_S50000x1_0_1 _ i (ix2 0 (i 1)) (fun a => match a with
    | ⟨0, _⟩ => by show 0 = if (1 : Nat) = 1 then 0 else (i 0).val; rw [if_pos rfl]
    | ⟨1, _⟩ => by show (i 1).val = if (1 : Nat) = 1 then 0 else (i 1).val; rw [if_pos rfl]; exact h1)]
  exact broadcastInDim_apply _ bcast_S1_S1x1_1 b (ix2 0 (i 1)) (ix1 (i 1)) (fun a => match a with
    | ⟨0, _⟩ => by show (i 1).val = if (1 : Nat) = 1 then 0 else (i 1).val; rw [if_pos rfl]; exact h1)

/-- The read-out, as the reference computes it, is `Spec.dec`. -/
theorem dec_eq (h : FVec Ideal S50000x64 .f32) (W1 : FVec Ideal S64x32 .f32) (b1 : FVec Ideal S32 .f32)
    (W2 : FVec Ideal S32x1 .f32) (b2 : FVec Ideal S1 .f32) :
    addf (Host.dotGeneral dot_S50000x32_S32x1_S50000x1_1_0_0_1_n_n none
        (Host.tanh (addf (Host.dotGeneral dot_S50000x64_S64x32_S50000x32_1_0_0_1_n_n none h W1)
          (broadcastInDim S50000x32 ![0, 1] bcast_S1x32_S50000x32_0_1 (broadcastInDim S1x32 ![1] bcast_S32_S1x32_1 b1)))) W2)
      (broadcastInDim S50000x1 ![0, 1] bcast_S1x1_S50000x1_0_1 (broadcastInDim S1x1 ![1] bcast_S1_S1x1_1 b2))
    = Cert.Spec.dec h W1 b1 W2 b2 := by
  funext i
  rw [addf_apply, dotQ_apply, biasQ_apply]
  show _ = (∑ q : Fin 32, Ideal.tanh ((∑ k : Fin 64, h (ix2 (i 0) k) * W1 (ix2 k q)) + b1 (ix1 q)) * W2 (ix2 q (i 1)))
    + b2 (ix1 (i 1))
  refine congrArg (· + b2 (ix1 (i 1))) (Finset.sum_congr rfl fun q _ => ?_)
  rw [tanh_addf_apply, dotP_apply, biasP_apply]

end Cert.ReferenceIdeal.RefValue

end
-- ==== Proof.RefRun.lean ====
/-
  The reference's run, read as the network `Spec.gnn`.

  @main is a straight line of 117 whole-array operations. Cut at the layer boundaries it is eight stretches: the two
  rows of the edge table and the first edge rows; three rounds of a stretch along the edges (the fetch of source rows
  and the message layer) and a stretch into the nodes (the sum of messages into their targets and the update layer);
  the read-out. Each stretch is read on its own, from ANY contents of the buffers it reads: the buffer it ends in
  holds one layer of `Spec` of those contents, and every buffer it does not write is as it was. Chained from the launch
  contents, the result buffer ends at `Spec.gnn` of the arguments and the arguments end as they were launched.
-/
import proofs.«424121_j82257213653679_2_alg».proof.Proof.Gen.ReferenceIdeal
import Idealize.ShloMosaic.Lib.StableHlo.Run
import proofs.«424121_j82257213653679_2_alg».proof.Proof.RefLayers

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

/-! ## The program as eight stretches of operations -/

/-- The edge table cut into its row of source numbers and its row of target numbers, and the first edge rows. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg2 main_arg4 main_v4 ((fun l r => Host.dotGeneral dot_S1600000x2_S2x64_S1600000x64_1_0_0_1_n_n none l r) : (⟨S1600000x2, .f32⟩ : BufTy).Contents (Elt F) → (⟨S2x64, .f32⟩ : BufTy).Contents (Elt F) → (⟨S1600000x64, .f32⟩ : BufTy).Contents (Elt F)),
    unary main_arg5 main_v5 (broadcastInDim S1x64 ![1] bcast_S64_S1x64_1 : (⟨S64, .f32⟩ : BufTy).Contents (Elt F) → (⟨S1x64, .f32⟩ : BufTy).Contents (Elt F)),
    unary main_v5 main_v6 (broadcastInDim S1600000x64 ![0, 1] bcast_S1x64_S1600000x64_0_1 : (⟨S1x64, .f32⟩ : BufTy).Contents (Elt F) → (⟨S1600000x64, .f32⟩ : BufTy).Contents (Elt F)),
    binary main_v4 main_v6 main_v7 (addf : (⟨S1600000x64, .f32⟩ : BufTy).Contents (Elt F) → (⟨S1600000x64, .f32⟩ : BufTy).Contents (Elt F) → (⟨S1600000x64, .f32⟩ : BufTy).Contents (Elt F)),
    unary main_v7 main_v8 (Host.tanh : (⟨S1600000x64, .f32⟩ : BufTy).Contents (Elt F) → (⟨S1600000x64, .f32⟩ : BufTy).Contents (Elt F)) ]

/-- Round 0, along the edges: the source column, the fetch of source rows, the message layer. -/
abbrev opsB0 : List (HloOp τ sig (Elt F)) :=
  [ nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_v1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v11 (broadcastInDim S1600000 ![] bcast_S_S1600000 : (⟨S_, .i32⟩ : BufTy).Contents (Elt F) → (⟨S1600000, .i32⟩ : BufTy).Contents (Elt F)),
    binary main_v1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    binary main_v15 main_v8 main_v16 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    unary main_arg6 main_v17 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v17 main_v18 rfl shapeCasts_S1x128x64_S128x64,
    binary main_v16 main_v18 main_v19 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg7 main_v20 ((extractStridedSlice S1x64 ![0, 0] · slices_S3x64_S1x64_0_0) : (⟨S3x64, .f32⟩ : BufTy).Contents (Elt F) → (⟨S1x64, .f32⟩ : BufTy).Contents (Elt F)),
    reshape main_v20 main_v21 rfl shapeCasts_S1x64_S64,
    unary main_v21 main_v22 (broadcastInDim S1x64 ![1] bcast_S64_S1x64_1 : (⟨S64, .f32⟩ : BufTy).Contents (Elt F) → (⟨S1x64, .f32⟩ : BufTy).Contents (Elt F)),
    unary main_v22 main_v23 (broadcastInDim S1600000x64 ![0, 1] bcast_S1x64_S1600000x64_0_1 : (⟨S1x64, .f32⟩ : BufTy).Contents (Elt F) → (⟨S1600000x64, .f32⟩ : BufTy).Contents (Elt F)),
    binary main_v19 main_v23 main_v24 (addf : (⟨S1600000x64, .f32⟩ : BufTy).Contents (Elt F) → (⟨S1600000x64, .f32⟩ : BufTy).Contents (Elt F) → (⟨S1600000x64, .f32⟩ : BufTy).Contents (Elt F)),
    unary main_v24 main_v25 (Host.tanh : (⟨S1600000x64, .f32⟩ : BufTy).Contents (Elt F) → (⟨S1600000x64, .f32⟩ : BufTy).Contents (Elt F)) ]

/-- Round 0, into the nodes: the sum of messages into their targets, the update layer. -/
abbrev opsC0 : List (HloOp τ sig (Elt F)) :=
  [ nullary main_cst (constant S_ .f32 0x00000000#32),
    unary main_cst main_v26 (broadcastInDim S50000x64 ![] bcast_S_S50000x64 : (⟨S_, .f32⟩ : BufTy).Contents (Elt F) → (⟨S50000x64, .f32⟩ : BufTy).Contents (Elt F)),
    unary main_v3 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    binary main_arg0 main_v28 main_v29 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg8 main_v30 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v30 main_v31 rfl shapeCasts_S1x128x64_S128x64,
    binary main_v29 main_v31 main_v32 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v33 ((extractStridedSlice S1x64 ![0, 0] · slices_S3x64_S1x64_0_0) : (⟨S3x64, .f32⟩ : BufTy).Contents (Elt F) → (⟨S1x64, .f32⟩ : BufTy).Contents (Elt F)),
    reshape main_v33 main_v34 rfl shapeCasts_S1x64_S64,
    unary main_v34 main_v35 (broadcastInDim S1x64 ![1] bcast_S64_S1x64_1 : (⟨S64, .f32⟩ : BufTy).Contents (Elt F) → (⟨S1x64, .f32⟩ : BufTy).Contents (Elt F)),
    unary main_v35 main_v36 (broadcastInDim S50000x64 ![0, 1] bcast_S1x64_S50000x64_0_1 : (⟨S1x64, .f32⟩ : BufTy).Contents (Elt F) → (⟨S50000x64, .f32⟩ : BufTy).Contents (Elt F)),
    binary main_v32 main_v36 main_v37 (addf : (⟨S50000x64, .f32⟩ : BufTy).Contents (Elt F) → (⟨S50000x64, .f32⟩ : BufTy).Contents (Elt F) → (⟨S50000x64, .f32⟩ : BufTy).Contents (Elt F)),
    unary main_v37 main_v38 (Host.tanh : (⟨S50000x64, .f32⟩ : BufTy).Contents (Elt F) → (⟨S50000x64, .f32⟩ : BufTy).Contents (Elt F)) ]

/-- Round 1, along the edges. -/
abbrev opsB1 : List (HloOp τ sig (Elt F)) :=
  [ nullary main_c_1 (constantI S_ 32 0#32),
    unary main_c_1 main_v39 (broadcastInDim S1600000 ![] bcast_S_S1600000 : (⟨S_, .i32⟩ : BufTy).Contents (Elt F) → (⟨S1600000, .i32⟩ : BufTy).Contents (Elt F)),
    binary main_v1 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v41 (broadcastInDim S1600000 ![] bcast_S_S1600000 : (⟨S_, .i32⟩ : BufTy).Contents (Elt F) → (⟨S1600000, .i32⟩ : BufTy).Contents (Elt F)),
    binary main_v1 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_v1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v38 main_v44 main_v45 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    binary main_v45 main_v25 main_v46 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    unary main_arg6 main_v47 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v47 main_v48 rfl shapeCasts_S1x128x64_S128x64,
    binary main_v46 main_v48 main_v49 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg7 main_v50 ((extractStridedSlice S1x64 ![1, 0] · slices_S3x64_S1x64_1_0) : (⟨S3x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S1600000x64 ![0, 1] bcast_S1x64_S1600000x64_0_1 : (⟨S1x64, .f32⟩ : BufTy).Contents (Elt F) → (⟨S1600000x64, .f32⟩ : BufTy).Contents (Elt F)),
    binary main_v49 main_v53 main_v54 (addf : (⟨S1600000x64, .f32⟩ : BufTy).Contents (Elt F) → (⟨S1600000x64, .f32⟩ : BufTy).Contents (Elt F) → (⟨S1600000x64, .f32⟩ : BufTy).Contents (Elt F)),
    unary main_v54 main_v55 (Host.tanh : (⟨S1600000x64, .f32⟩ : BufTy).Contents (Elt F) → (⟨S1600000x64, .f32⟩ : BufTy).Contents (Elt F)) ]

/-- Round 1, into the nodes. -/
abbrev opsC1 : List (HloOp τ sig (Elt F)) :=
  [ nullary main_cst_3 (constant S_ .f32 0x00000000#32),
    unary main_cst_3 main_v56 (broadcastInDim S50000x64 ![] bcast_S_S50000x64 : (⟨S_, .f32⟩ : BufTy).Contents (Elt F) → (⟨S50000x64, .f32⟩ : BufTy).Contents (Elt F)),
    unary main_v3 main_v57 (broadcastInDim S1600000x1 ![0] bcast_S1600000_S1600000x1_0 : (⟨S1600000, .i32⟩ : BufTy).Contents (Elt F) → (⟨S1600000x1, .i32⟩ : BufTy).Contents (Elt F)),
    ternary main_v56 main_v57 main_v55 main_v58 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    binary main_v38 main_v58 main_v59 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg8 main_v60 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v60 main_v61 rfl shapeCasts_S1x128x64_S128x64,
    binary main_v59 main_v61 main_v62 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v63 ((extractStridedSlice S1x64 ![1, 0] · slices_S3x64_S1x64_1_0) : (⟨S3x64, .f32⟩ : BufTy).Contents (Elt F) → (⟨S1x64, .f32⟩ : BufTy).Contents (Elt F)),
    reshape main_v63 main_v64 rfl shapeCasts_S1x64_S64,
    unary main_v64 main_v65 (broadcastInDim S1x64 ![1] bcast_S64_S1x64_1 : (⟨S64, .f32⟩ : BufTy).Contents (Elt F) → (⟨S1x64, .f32⟩ : BufTy).Contents (Elt F)),
    unary main_v65 main_v66 (broadcastInDim S50000x64 ![0, 1] bcast_S1x64_S50000x64_0_1 : (⟨S1x64, .f32⟩ : BufTy).Contents (Elt F) → (⟨S50000x64, .f32⟩ : BufTy).Contents (Elt F)),
    binary main_v62 main_v66 main_v67 (addf : (⟨S50000x64, .f32⟩ : BufTy).Contents (Elt F) → (⟨S50000x64, .f32⟩ : BufTy).Contents (Elt F) → (⟨S50000x64, .f32⟩ : BufTy).Contents (Elt F)),
    unary main_v67 main_v68 (Host.tanh : (⟨S50000x64, .f32⟩ : BufTy).Contents (Elt F) → (⟨S50000x64, .f32⟩ : BufTy).Contents (Elt F)) ]

/-- Round 2, along the edges. -/
abbrev opsB2 : List (HloOp τ sig (Elt F)) :=
  [ nullary main_c_4 (constantI S_ 32 0#32),
    unary main_c_4 main_v69 (broadcastInDim S1600000 ![] bcast_S_S1600000 : (⟨S_, .i32⟩ : BufTy).Contents (Elt F) → (⟨S1600000, .i32⟩ : BufTy).Contents (Elt F)),
    binary main_v1 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v71 (broadcastInDim S1600000 ![] bcast_S_S1600000 : (⟨S_, .i32⟩ : BufTy).Contents (Elt F) → (⟨S1600000, .i32⟩ : BufTy).Contents (Elt F)),
    binary main_v1 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_v1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v68 main_v74 main_v75 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    binary main_v75 main_v55 main_v76 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    unary main_arg6 main_v77 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v77 main_v78 rfl shapeCasts_S1x128x64_S128x64,
    binary main_v76 main_v78 main_v79 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg7 main_v80 ((extractStridedSlice S1x64 ![2, 0] · slices_S3x64_S1x64_2_0) : (⟨S3x64, .f32⟩ : BufTy).Contents (Elt F) → (⟨S1x64, .f32⟩ : BufTy).Contents (Elt F)),
    reshape main_v80 main_v81 rfl shapeCasts_S1x64_S64,
    unary main_v81 main_v82 (broadcastInDim S1x64 ![1] bcast_S64_S1x64_1 : (⟨S64, .f32⟩ : BufTy).Contents (Elt F) → (⟨S1x64, .f32⟩ : BufTy).Contents (Elt F)),
    unary main_v82 main_v83 (broadcastInDim S1600000x64 ![0, 1] bcast_S1x64_S1600000x64_0_1 : (⟨S1x64, .f32⟩ : BufTy).Contents (Elt F) → (⟨S1600000x64, .f32⟩ : BufTy).Contents (Elt F)),
    binary main_v79 main_v83 main_v84 (addf : (⟨S1600000x64, .f32⟩ : BufTy).Contents (Elt F) → (⟨S1600000x64, .f32⟩ : BufTy).Contents (Elt F) → (⟨S1600000x64, .f32⟩ : BufTy).Contents (Elt F)),
    unary main_v84 main_v85 (Host.tanh : (⟨S1600000x64, .f32⟩ : BufTy).Contents (Elt F) → (⟨S1600000x64, .f32⟩ : BufTy).Contents (Elt F)) ]

/-- Round 2, into the nodes. -/
abbrev opsC2 : List (HloOp τ sig (Elt F)) :=
  [ nullary main_cst_6 (constant S_ .f32 0x00000000#32),
    unary main_cst_6 main_v86 (broadcastInDim S50000x64 ![] bcast_S_S50000x64 : (⟨S_, .f32⟩ : BufTy).Contents (Elt F) → (⟨S50000x64, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    binary main_v68 main_v88 main_v89 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg8 main_v90 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v90 main_v91 rfl shapeCasts_S1x128x64_S128x64,
    binary main_v89 main_v91 main_v92 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v93 ((extractStridedSlice S1x64 ![2, 0] · slices_S3x64_S1x64_2_0) : (⟨S3x64, .f32⟩ : BufTy).Contents (Elt F) → (⟨S1x64, .f32⟩ : BufTy).Contents (Elt F)),
    reshape main_v93 main_v94 rfl shapeCasts_S1x64_S64,
    unary main_v94 main_v95 (broadcastInDim S1x64 ![1] bcast_S64_S1x64_1 : (⟨S64, .f32⟩ : BufTy).Contents (Elt F) → (⟨S1x64, .f32⟩ : BufTy).Contents (Elt F)),
    unary main_v95 main_v96 (broadcastInDim S50000x64 ![0, 1] bcast_S1x64_S50000x64_0_1 : (⟨S1x64, .f32⟩ : BufTy).Contents (Elt F) → (⟨S50000x64, .f32⟩ : BufTy).Contents (Elt F)),
    binary main_v92 main_v96 main_v97 (addf : (⟨S50000x64, .f32⟩ : BufTy).Contents (Elt F) → (⟨S50000x64, .f32⟩ : BufTy).Contents (Elt F) → (⟨S50000x64, .f32⟩ : BufTy).Contents (Elt F)),
    unary main_v97 main_v98 (Host.tanh : (⟨S50000x64, .f32⟩ : BufTy).Contents (Elt F) → (⟨S50000x64, .f32⟩ : BufTy).Contents (Elt F)) ]

/-- The read-out. -/
abbrev opsD : List (HloOp τ sig (Elt F)) :=
  [ binary main_v98 main_arg10 main_v99 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_arg11 main_v100 (broadcastInDim S1x32 ![1] bcast_S32_S1x32_1 : (⟨S32, .f32⟩ : BufTy).Contents (Elt F) → (⟨S1x32, .f32⟩ : BufTy).Contents (Elt F)),
    unary main_v100 main_v101 (broadcastInDim S50000x32 ![0, 1] bcast_S1x32_S50000x32_0_1 : (⟨S1x32, .f32⟩ : BufTy).Contents (Elt F) → (⟨S50000x32, .f32⟩ : BufTy).Contents (Elt F)),
    binary main_v99 main_v101 main_v102 (addf : (⟨S50000x32, .f32⟩ : BufTy).Contents (Elt F) → (⟨S50000x32, .f32⟩ : BufTy).Contents (Elt F) → (⟨S50000x32, .f32⟩ : BufTy).Contents (Elt F)),
    unary main_v102 main_v103 (Host.tanh : (⟨S50000x32, .f32⟩ : BufTy).Contents (Elt F) → (⟨S50000x32, .f32⟩ : BufTy).Contents (Elt F)),
    binary main_v103 main_arg12 main_v104 ((fun l r => Host.dotGeneral dot_S50000x32_S32x1_S50000x1_1_0_0_1_n_n none l r) : (⟨S50000x32, .f32⟩ : BufTy).Contents (Elt F) → (⟨S32x1, .f32⟩ : BufTy).Contents (Elt F) → (⟨S50000x1, .f32⟩ : BufTy).Contents (Elt F)),
    unary main_arg13 main_v105 (broadcastInDim S1x1 ![1] bcast_S1_S1x1_1 : (⟨S1, .f32⟩ : BufTy).Contents (Elt F) → (⟨S1x1, .f32⟩ : BufTy).Contents (Elt F)),
    unary main_v105 main_v106 (broadcastInDim S50000x1 ![0, 1] bcast_S1x1_S50000x1_0_1 : (⟨S1x1, .f32⟩ : BufTy).Contents (Elt F) → (⟨S50000x1, .f32⟩ : BufTy).Contents (Elt F)),
    binary main_v104 main_v106 main_v107 (addf : (⟨S50000x1, .f32⟩ : BufTy).Contents (Elt F) → (⟨S50000x1, .f32⟩ : BufTy).Contents (Elt F) → (⟨S50000x1, .f32⟩ : BufTy).Contents (Elt F)) ]

/-- @main's 117 operations, in order. -/
abbrev ops : List (HloOp τ sig (Elt F)) :=
  opsA ++ (opsB0 ++ (opsC0 ++ (opsB1 ++ (opsC1 ++ (opsB2 ++ (opsC2 ++ opsD))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem opsA_sub : (opsA : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., unary_bufs_sub ..⟩
theorem opsB0_sub : (opsB0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem opsC0_sub : (opsC0 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem opsB1_sub : (opsB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem opsC1_sub : (opsC1 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem opsC2_sub : (opsC2 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem opsD_sub : (opsD : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  forall_append opsA_sub (forall_append opsB0_sub (forall_append opsC0_sub (forall_append opsB1_sub
    (forall_append opsC1_sub (forall_append opsB2_sub (forall_append opsC2_sub opsD_sub))))))

theorem opsA_fresh : (opsA : List (HloOp τ sig (Elt F))).Forall fun op => op.fresh = ∅ := by
  simp only [List.Forall]; repeat' constructor
theorem opsB0_fresh : (opsB0 : List (HloOp τ sig (Elt F))).Forall fun op => op.fresh = ∅ := by
  simp only [List.Forall]; repeat' constructor
theorem opsC0_fresh : (opsC0 : List (HloOp τ sig (Elt F))).Forall fun op => op.fresh = ∅ := by
  simp only [List.Forall]; repeat' constructor
theorem opsB1_fresh : (opsB1 : List (HloOp τ sig (Elt F))).Forall fun op => op.fresh = ∅ := by
  simp only [List.Forall]; repeat' constructor
theorem opsC1_fresh : (opsC1 : List (HloOp τ sig (Elt F))).Forall fun op => op.fresh = ∅ := by
  simp only [List.Forall]; repeat' constructor
theorem opsB2_fresh : (opsB2 : List (HloOp τ sig (Elt F))).Forall fun op => op.fresh = ∅ := by
  simp only [List.Forall]; repeat' constructor
theorem opsC2_fresh : (opsC2 : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

theorem ops_fresh : (ops : List (HloOp τ sig (Elt F))).Forall fun op => op.fresh = ∅ :=
  forall_append opsA_fresh (forall_append opsB0_fresh (forall_append opsC0_fresh (forall_append opsB1_fresh
    (forall_append opsC1_fresh (forall_append opsB2_fresh (forall_append opsC2_fresh opsD_fresh))))))

/-- Running two stretches one after the other is running their concatenation. -/
theorem after_append (A B : List (HloOp τ sig (Elt F))) (V : Valuation τ sig (Elt F)) :
    after (A ++ B) V = after B (after A V) := by
  induction A generalizing V with
  | nil => rfl
  | cons op A ih => exact ih (op.result V)

/-! ## What each stretch writes, and what it leaves alone -/

/-- The buffers the operations of `opsA` write. -/
abbrev WA : List (Ref sig .tc) := [main_v0, main_v1, main_v2, main_v3, main_v4, main_v5, main_v6, main_v7, main_v8]
theorem opsA_writes : (opsA : List (HloOp τ sig (Elt F))).Forall fun op => op.writes ⊆ (WA.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_⟩ <;> exact List.mem_map_of_mem (by decide)
/-- A buffer `opsA` does not write is as it was. -/
theorem keepA (V : Valuation τ sig (Elt F)) {r : Ref sig .tc} (h : r ∉ WA) :
    after opsA V (Proc.devRef .tc r) = V (Proc.devRef .tc r) :=
  after_of_writes_sub opsA V opsA_writes h

/-- The buffers the operations of `opsB0` write. -/
abbrev WB0 : List (Ref sig .tc) := [main_c, main_v9, main_v10, main_c_0, main_v11, main_v12, main_v13, main_v14, main_v15, main_v16, main_v17, main_v18, main_v19, main_v20, main_v21, main_v22, main_v23, main_v24, main_v25]
theorem opsB0_writes : (opsB0 : List (HloOp τ sig (Elt F))).Forall fun op => op.writes ⊆ (WB0.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
/-- A buffer `opsB0` does not write is as it was. -/
theorem keepB0 (V : Valuation τ sig (Elt F)) {r : Ref sig .tc} (h : r ∉ WB0) :
    after opsB0 V (Proc.devRef .tc r) = V (Proc.devRef .tc r) :=
  after_of_writes_sub opsB0 V opsB0_writes h

/-- The buffers the operations of `opsC0` write. -/
abbrev WC0 : List (Ref sig .tc) := [main_cst, main_v26, main_v27, main_v28, main_v29, main_v30, main_v31, main_v32, main_v33, main_v34, main_v35, main_v36, main_v37, main_v38]
theorem opsC0_writes : (opsC0 : List (HloOp τ sig (Elt F))).Forall fun op => op.writes ⊆ (WC0.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_⟩ <;> exact List.mem_map_of_mem (by decide)
/-- A buffer `opsC0` does not write is as it was. -/
theorem keepC0 (V : Valuation τ sig (Elt F)) {r : Ref sig .tc} (h : r ∉ WC0) :
    after opsC0 V (Proc.devRef .tc r) = V (Proc.devRef .tc r) :=
  after_of_writes_sub opsC0 V opsC0_writes h

/-- The buffers the operations of `opsB1` write. -/
abbrev WB1 : List (Ref sig .tc) := [main_c_1, main_v39, main_v40, main_c_2, main_v41, main_v42, main_v43, main_v44, main_v45, main_v46, main_v47, main_v48, main_v49, main_v50, main_v51, main_v52, main_v53, main_v54, main_v55]
theorem opsB1_writes : (opsB1 : List (HloOp τ sig (Elt F))).Forall fun op => op.writes ⊆ (WB1.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
/-- A buffer `opsB1` does not write is as it was. -/
theorem keepB1 (V : Valuation τ sig (Elt F)) {r : Ref sig .tc} (h : r ∉ WB1) :
    after opsB1 V (Proc.devRef .tc r) = V (Proc.devRef .tc r) :=
  after_of_writes_sub opsB1 V opsB1_writes h

/-- The buffers the operations of `opsC1` write. -/
abbrev WC1 : List (Ref sig .tc) := [main_cst_3, main_v56, main_v57, main_v58, main_v59, main_v60, main_v61, main_v62, main_v63, main_v64, main_v65, main_v66, main_v67, main_v68]
theorem opsC1_writes : (opsC1 : List (HloOp τ sig (Elt F))).Forall fun op => op.writes ⊆ (WC1.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_⟩ <;> exact List.mem_map_of_mem (by decide)
/-- A buffer `opsC1` does not write is as it was. -/
theorem keepC1 (V : Valuation τ sig (Elt F)) {r : Ref sig .tc} (h : r ∉ WC1) :
    after opsC1 V (Proc.devRef .tc r) = V (Proc.devRef .tc r) :=
  after_of_writes_sub opsC1 V opsC1_writes h

/-- The buffers the operations of `opsB2` write. -/
abbrev WB2 : List (Ref sig .tc) := [main_c_4, main_v69, main_v70, main_c_5, main_v71, main_v72, main_v73, main_v74, main_v75, main_v76, main_v77, main_v78, main_v79, main_v80, main_v81, main_v82, main_v83, main_v84, main_v85]
theorem opsB2_writes : (opsB2 : List (HloOp τ sig (Elt F))).Forall fun op => op.writes ⊆ (WB2.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
/-- A buffer `opsB2` does not write is as it was. -/
theorem keepB2 (V : Valuation τ sig (Elt F)) {r : Ref sig .tc} (h : r ∉ WB2) :
    after opsB2 V (Proc.devRef .tc r) = V (Proc.devRef .tc r) :=
  after_of_writes_sub opsB2 V opsB2_writes h

/-- The buffers the operations of `opsC2` write. -/
abbrev WC2 : List (Ref sig .tc) := [main_cst_6, main_v86, main_v87, main_v88, main_v89, main_v90, main_v91, main_v92, main_v93, main_v94, main_v95, main_v96, main_v97, main_v98]
theorem opsC2_writes : (opsC2 : List (HloOp τ sig (Elt F))).Forall fun op => op.writes ⊆ (WC2.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_⟩ <;> exact List.mem_map_of_mem (by decide)
/-- A buffer `opsC2` does not write is as it was. -/
theorem keepC2 (V : Valuation τ sig (Elt F)) {r : Ref sig .tc} (h : r ∉ WC2) :
    after opsC2 V (Proc.devRef .tc r) = V (Proc.devRef .tc r) :=
  after_of_writes_sub opsC2 V opsC2_writes h

/-- The buffers the operations of `opsD` write. -/
abbrev WD : List (Ref sig .tc) := [main_v99, main_v100, main_v101, main_v102, main_v103, main_v104, main_v105, main_v106, main_v107]
theorem opsD_writes : (opsD : List (HloOp τ sig (Elt F))).Forall fun op => op.writes ⊆ (WD.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_⟩ <;> exact List.mem_map_of_mem (by decide)
/-- A buffer `opsD` does not write is as it was. -/
theorem keepD (V : Valuation τ sig (Elt F)) {r : Ref sig .tc} (h : r ∉ WD) :
    after opsD V (Proc.devRef .tc r) = V (Proc.devRef .tc r) :=
  after_of_writes_sub opsD V opsD_writes h

/-! ## What each stretch computes, from any contents `V` of the buffers it reads -/

/-- The row of source numbers, cut out of the edge table. -/
theorem A_v1 (V : Valuation τ sig (Elt Ideal)) :
    after (opsA (F := Ideal)) V (Proc.devRef .tc main_v1)
      = shapeCast S1600000 (extractStridedSlice S1x1600000 ![0, 0] (V (Proc.devRef .tc main_arg1)) slices_S2x1600000_S1x1600000_0_0)
          shapeCasts_S1x1600000_S1600000 := by
  after_results <;> rfl

/-- The row of target numbers, cut out of the edge table. -/
theorem A_v3 (V : Valuation τ sig (Elt Ideal)) :
    after (opsA (F := Ideal)) V (Proc.devRef .tc main_v3)
      = shapeCast S1600000 (extractStridedSlice S1x1600000 ![1, 0] (V (Proc.devRef .tc main_arg1)) slices_S2x1600000_S1x1600000_1_0)
          shapeCasts_S1x1600000_S1600000 := by
  after_results <;> rfl

/-- The first edge rows are `Spec.embed` of the raw edge features. -/
theorem A_v8 (V : Valuation τ sig (Elt Ideal)) :
    after (opsA (F := Ideal)) V (Proc.devRef .tc main_v8)
      = Cert.Spec.embed (V (Proc.devRef .tc main_arg2)) (V (Proc.devRef .tc main_arg4)) (V (Proc.devRef .tc main_arg5)) := by
  refine Eq.trans ?_ (embed_eq _ _ _)
  after_results <;> rfl

/-- Round 0's messages: the layer `Spec.lin` of the fetched source rows and the edge rows. -/
theorem B0_v25 (V : Valuation τ sig (Elt Ideal)) :
    after (opsB0 (F := Ideal)) V (Proc.devRef .tc main_v25)
      = Cert.Spec.lin (take (V (Proc.devRef .tc main_v1)) (V (Proc.devRef .tc main_arg0))) (V (Proc.devRef .tc main_v8))
          (wmat0 (V (Proc.devRef .tc main_arg6))) (brow0 (V (Proc.devRef .tc main_arg7))) := by
  refine Eq.trans ?_ (linE_eq _ _ _ _)
  after_results <;> rfl

/-- Round 0's node rows: the layer `Spec.lin` of the node rows and the messages summed into their targets. -/
theorem C0_v38 (V : Valuation τ sig (Elt Ideal)) :
    after (opsC0 (F := Ideal)) V (Proc.devRef .tc main_v38)
      = Cert.Spec.lin (V (Proc.devRef .tc main_arg0)) (seg (V (Proc.devRef .tc main_v3)) (V (Proc.devRef .tc main_v25)))
          (wmat0 (V (Proc.devRef .tc main_arg8))) (brow0 (V (Proc.devRef .tc main_arg9))) := by
  refine Eq.trans ?_ (linN_eq _ _ _ _)
  after_results <;> rfl

/-- Round 1's messages. -/
theorem B1_v55 (V : Valuation τ sig (Elt Ideal)) :
    after (opsB1 (F := Ideal)) V (Proc.devRef .tc main_v55)
      = Cert.Spec.lin (take (V (Proc.devRef .tc main_v1)) (V (Proc.devRef .tc main_v38))) (V (Proc.devRef .tc main_v25))
          (wmat1 (V (Proc.devRef .tc main_arg6))) (brow1 (V (Proc.devRef .tc main_arg7))) := by
  refine Eq.trans ?_ (linE_eq _ _ _ _)
  after_results <;> rfl

/-- Round 1's node rows. -/
theorem C1_v68 (V : Valuation τ sig (Elt Ideal)) :
    after (opsC1 (F := Ideal)) V (Proc.devRef .tc main_v68)
      = Cert.Spec.lin (V (Proc.devRef .tc main_v38)) (seg (V (Proc.devRef .tc main_v3)) (V (Proc.devRef .tc main_v55)))
          (wmat1 (V (Proc.devRef .tc main_arg8))) (brow1 (V (Proc.devRef .tc main_arg9))) := by
  refine Eq.trans ?_ (linN_eq _ _ _ _)
  after_results <;> rfl

/-- Round 2's messages. -/
theorem B2_v85 (V : Valuation τ sig (Elt Ideal)) :
    after (opsB2 (F := Ideal)) V (Proc.devRef .tc main_v85)
      = Cert.Spec.lin (take (V (Proc.devRef .tc main_v1)) (V (Proc.devRef .tc main_v68))) (V (Proc.devRef .tc main_v55))
          (wmat2 (V (Proc.devRef .tc main_arg6))) (brow2 (V (Proc.devRef .tc main_arg7))) := by
  refine Eq.trans ?_ (linE_eq _ _ _ _)
  after_results <;> rfl

/-- Round 2's node rows. -/
theorem C2_v98 (V : Valuation τ sig (Elt Ideal)) :
    after (opsC2 (F := Ideal)) V (Proc.devRef .tc main_v98)
      = Cert.Spec.lin (V (Proc.devRef .tc main_v68)) (seg (V (Proc.devRef .tc main_v3)) (V (Proc.devRef .tc main_v85)))
          (wmat2 (V (Proc.devRef .tc main_arg8))) (brow2 (V (Proc.devRef .tc main_arg9))) := by
  refine Eq.trans ?_ (linN_eq _ _ _ _)
  after_results <;> rfl

/-- The read-out is `Spec.dec` of the last node rows. -/
theorem D_v107 (V : Valuation τ sig (Elt Ideal)) :
    after (opsD (F := Ideal)) V (Proc.devRef .tc main_v107)
      = Cert.Spec.dec (V (Proc.devRef .tc main_v98)) (V (Proc.devRef .tc main_arg10)) (V (Proc.devRef .tc main_arg11))
          (V (Proc.devRef .tc main_arg12)) (V (Proc.devRef .tc main_arg13)) := by
  refine Eq.trans ?_ (dec_eq _ _ _ _ _)
  after_results <;> rfl

/-! ## The buffers' contents between the stretches, from the launch contents `m` on core `c` -/

section Stages
variable (m : (ℓ : Loc nD τ sig) → Buf (Elt Ideal) ℓ) (c : Dev nD)

/-- The buffers after the first stretch. -/
def V1 : Valuation τ sig (Elt Ideal) := after opsA (launchContents m c)
/-- … after round 0's stretch along the edges. -/
def V2 : Valuation τ sig (Elt Ideal) := after opsB0 (V1 m c)
/-- … after round 0's stretch into the nodes. -/
def V3 : Valuation τ sig (Elt Ideal) := after opsC0 (V2 m c)
/-- … after round 1's stretch along the edges. -/
def V4 : Valuation τ sig (Elt Ideal) := after opsB1 (V3 m c)
/-- … after round 1's stretch into the nodes. -/
def V5 : Valuation τ sig (Elt Ideal) := after opsC1 (V4 m c)
/-- … after round 2's stretch along the edges. -/
def V6 : Valuation τ sig (Elt Ideal) := after opsB2 (V5 m c)
/-- … after round 2's stretch into the nodes. -/
def V7 : Valuation τ sig (Elt Ideal) := after opsC2 (V6 m c)
/-- … after the read-out: the end of @main. -/
def V8 : Valuation τ sig (Elt Ideal) := after opsD (V7 m c)

/-- The whole program's fold is the last of these. -/
theorem after_ops : after (ops (F := Ideal)) (launchContents m c) = V8 m c := by
  show after (opsA ++ (opsB0 ++ (opsC0 ++ (opsB1 ++ (opsC1 ++ (opsB2 ++ (opsC2 ++ opsD))))))) (launchContents m c) = _
  rw [after_append, after_append, after_append, after_append, after_append, after_append, after_append]
  rfl

theorem V1_keep {r : Ref sig .tc} (h : r ∉ WA) : V1 m c (Proc.devRef .tc r) = m ((c.tc : Thread nD τ).loc r) :=
  keepA (launchContents m c) h
theorem V2_keep {r : Ref sig .tc} (h : r ∉ WB0) : V2 m c (Proc.devRef .tc r) = V1 m c (Proc.devRef .tc r) := keepB0 (V1 m c) h
theorem V3_keep {r : Ref sig .tc} (h : r ∉ WC0) : V3 m c (Proc.devRef .tc r) = V2 m c (Proc.devRef .tc r) := keepC0 (V2 m c) h
theorem V4_keep {r : Ref sig .tc} (h : r ∉ WB1) : V4 m c (Proc.devRef .tc r) = V3 m c (Proc.devRef .tc r) := keepB1 (V3 m c) h
theorem V5_keep {r : Ref sig .tc} (h : r ∉ WC1) : V5 m c (Proc.devRef .tc r) = V4 m c (Proc.devRef .tc r) := keepC1 (V4 m c) h
theorem V6_keep {r : Ref sig .tc} (h : r ∉ WB2) : V6 m c (Proc.devRef .tc r) = V5 m c (Proc.devRef .tc r) := keepB2 (V5 m c) h
theorem V7_keep {r : Ref sig .tc} (h : r ∉ WC2) : V7 m c (Proc.devRef .tc r) = V6 m c (Proc.devRef .tc r) := keepC2 (V6 m c) h
theorem V8_keep {r : Ref sig .tc} (h : r ∉ WD) : V8 m c (Proc.devRef .tc r) = V7 m c (Proc.devRef .tc r) := keepD (V7 m c) h

/-- A buffer no stretch writes — every argument of @main — ends as it was launched. -/
theorem V8_arg {r : Ref sig .tc} (hA : r ∉ WA) (hB0 : r ∉ WB0) (hC0 : r ∉ WC0) (hB1 : r ∉ WB1) (hC1 : r ∉ WC1)
    (hB2 : r ∉ WB2) (hC2 : r ∉ WC2) (hD : r ∉ WD) : V8 m c (Proc.devRef .tc r) = m ((c.tc : Thread nD τ).loc r) :=
  (V8_keep m c hD).trans <| (V7_keep m c hC2).trans <| (V6_keep m c hB2).trans <| (V5_keep m c hC1).trans <|
    (V4_keep m c hB1).trans <| (V3_keep m c hC0).trans <| (V2_keep m c hB0).trans <| V1_keep m c hA

theorem V1_v1 : V1 m c (Proc.devRef .tc main_v1) = src m c := A_v1 (launchContents m c)
theorem V1_v3 : V1 m c (Proc.devRef .tc main_v3) = dst m c := A_v3 (launchContents m c)
theorem V1_v8 : V1 m c (Proc.devRef .tc main_v8)
    = Cert.Spec.embed (m ((c.tc : Thread nD τ).loc main_arg2)) (m ((c.tc : Thread nD τ).loc main_arg4)) (m ((c.tc : Thread nD τ).loc main_arg5)) := A_v8 (launchContents m c)
theorem V2_v25 : V2 m c (Proc.devRef .tc main_v25)
    = Cert.Spec.lin (take (V1 m c (Proc.devRef .tc main_v1)) (V1 m c (Proc.devRef .tc main_arg0))) (V1 m c (Proc.devRef .tc main_v8))
        (wmat0 (V1 m c (Proc.devRef .tc main_arg6))) (brow0 (V1 m c (Proc.devRef .tc main_arg7))) := B0_v25 (V1 m c)
theorem V3_v38 : V3 m c (Proc.devRef .tc main_v38)
    = Cert.Spec.lin (V2 m c (Proc.devRef .tc main_arg0)) (seg (V2 m c (Proc.devRef .tc main_v3)) (V2 m c (Proc.devRef .tc main_v25)))
        (wmat0 (V2 m c (Proc.devRef .tc main_arg8))) (brow0 (V2 m c (Proc.devRef .tc main_arg9))) := C0_v38 (V2 m c)
theorem V4_v55 : V4 m c (Proc.devRef .tc main_v55)
    = Cert.Spec.lin (take (V3 m c (Proc.devRef .tc main_v1)) (V3 m c (Proc.devRef .tc main_v38))) (V3 m c (Proc.devRef .tc main_v25))
        (wmat1 (V3 m c (Proc.devRef .tc main_arg6))) (brow1 (V3 m c (Proc.devRef .tc main_arg7))) := B1_v55 (V3 m c)
theorem V5_v68 : V5 m c (Proc.devRef .tc main_v68)
    = Cert.Spec.lin (V4 m c (Proc.devRef .tc main_v38)) (seg (V4 m c (Proc.devRef .tc main_v3)) (V4 m c (Proc.devRef .tc main_v55)))
        (wmat1 (V4 m c (Proc.devRef .tc main_arg8))) (brow1 (V4 m c (Proc.devRef .tc main_arg9))) := C1_v68 (V4 m c)
theorem V6_v85 : V6 m c (Proc.devRef .tc main_v85)
    = Cert.Spec.lin (take (V5 m c (Proc.devRef .tc main_v1)) (V5 m c (Proc.devRef .tc main_v68))) (V5 m c (Proc.devRef .tc main_v55))
        (wmat2 (V5 m c (Proc.devRef .tc main_arg6))) (brow2 (V5 m c (Proc.devRef .tc main_arg7))) := B2_v85 (V5 m c)
theorem V7_v98 : V7 m c (Proc.devRef .tc main_v98)
    = Cert.Spec.lin (V6 m c (Proc.devRef .tc main_v68)) (seg (V6 m c (Proc.devRef .tc main_v3)) (V6 m c (Proc.devRef .tc main_v85)))
        (wmat2 (V6 m c (Proc.devRef .tc main_arg8))) (brow2 (V6 m c (Proc.devRef .tc main_arg9))) := C2_v98 (V6 m c)
theorem V8_v107 : V8 m c (Proc.devRef .tc main_v107)
    = Cert.Spec.dec (V7 m c (Proc.devRef .tc main_v98)) (V7 m c (Proc.devRef .tc main_arg10)) (V7 m c (Proc.devRef .tc main_arg11))
        (V7 m c (Proc.devRef .tc main_arg12)) (V7 m c (Proc.devRef .tc main_arg13)) := D_v107 (V7 m c)

/-- The result buffer at the end of @main holds the network of the launch contents: walking back from the read-out, each
    stretch's result is its layer of what the stretch before left, and what a stretch does not write is what it was. -/
theorem out_eq : V8 m c (Proc.devRef .tc main_v107)
      = Cert.Spec.gnn (take (src m c)) (seg (dst m c))
          (m ((c.tc : Thread nD τ).loc main_arg0)) (m ((c.tc : Thread nD τ).loc main_arg2))
          (m ((c.tc : Thread nD τ).loc main_arg4)) (m ((c.tc : Thread nD τ).loc main_arg5))
          (wmat0 (m ((c.tc : Thread nD τ).loc main_arg6))) (brow0 (m ((c.tc : Thread nD τ).loc main_arg7)))
          (wmat0 (m ((c.tc : Thread nD τ).loc main_arg8))) (brow0 (m ((c.tc : Thread nD τ).loc main_arg9)))
          (wmat1 (m ((c.tc : Thread nD τ).loc main_arg6))) (brow1 (m ((c.tc : Thread nD τ).loc main_arg7)))
          (wmat1 (m ((c.tc : Thread nD τ).loc main_arg8))) (brow1 (m ((c.tc : Thread nD τ).loc main_arg9)))
          (wmat2 (m ((c.tc : Thread nD τ).loc main_arg6))) (brow2 (m ((c.tc : Thread nD τ).loc main_arg7)))
          (wmat2 (m ((c.tc : Thread nD τ).loc main_arg8))) (brow2 (m ((c.tc : Thread nD τ).loc main_arg9)))
          (m ((c.tc : Thread nD τ).loc main_arg10)) (m ((c.tc : Thread nD τ).loc main_arg11))
          (m ((c.tc : Thread nD τ).loc main_arg12)) (m ((c.tc : Thread nD τ).loc main_arg13)) := by
  rw [V8_v107 m c,
    V7_v98 m c, V7_keep m c (r := main_arg10) (by decide), V7_keep m c (r := main_arg11) (by decide), V7_keep m c (r := main_arg12) (by decide), V7_keep m c (r := main_arg13) (by decide),
    V6_v85 m c, V6_keep m c (r := main_v68) (by decide), V6_keep m c (r := main_v3) (by decide), V6_keep m c (r := main_arg8) (by decide), V6_keep m c (r := main_arg9) (by decide), V6_keep m c (r := main_arg10) (by decide), V6_keep m c (r := main_arg11) (by decide), V6_keep m c (r := main_arg12) (by decide), V6_keep m c (r := main_arg13) (by decide),
    V5_v68 m c, V5_keep m c (r := main_v1) (by decide), V5_keep m c (r := main_v3) (by decide), V5_keep m c (r := main_v55) (by decide), V5_keep m c (r := main_arg6) (by decide), V5_keep m c (r := main_arg7) (by decide), V5_keep m c (r := main_arg8) (by decide), V5_keep m c (r := main_arg9) (by decide), V5_keep m c (r := main_arg10) (by decide), V5_keep m c (r := main_arg11) (by decide), V5_keep m c (r := main_arg12) (by decide), V5_keep m c (r := main_arg13) (by decide),
    V4_v55 m c, V4_keep m c (r := main_v1) (by decide), V4_keep m c (r := main_v3) (by decide), V4_keep m c (r := main_v38) (by decide), V4_keep m c (r := main_arg6) (by decide), V4_keep m c (r := main_arg7) (by decide), V4_keep m c (r := main_arg8) (by decide), V4_keep m c (r := main_arg9) (by decide), V4_keep m c (r := main_arg10) (by decide), V4_keep m c (r := main_arg11) (by decide), V4_keep m c (r := main_arg12) (by decide), V4_keep m c (r := main_arg13) (by decide),
    V3_v38 m c, V3_keep m c (r := main_v1) (by decide), V3_keep m c (r := main_v3) (by decide), V3_keep m c (r := main_v25) (by decide), V3_keep m c (r := main_arg6) (by decide), V3_keep m c (r := main_arg7) (by decide), V3_keep m c (r := main_arg8) (by decide), V3_keep m c (r := main_arg9) (by decide), V3_keep m c (r := main_arg10) (by decide), V3_keep m c (r := main_arg11) (by decide), V3_keep m c (r := main_arg12) (by decide), V3_keep m c (r := main_arg13) (by decide),
    V2_v25 m c, V2_keep m c (r := main_v1) (by decide), V2_keep m c (r := main_v3) (by decide), V2_keep m c (r := main_arg0) (by decide), V2_keep m c (r := main_arg6) (by decide), V2_keep m c (r := main_arg7) (by decide), V2_keep m c (r := main_arg8) (by decide), V2_keep m c (r := main_arg9) (by decide), V2_keep m c (r := main_arg10) (by decide), V2_keep m c (r := main_arg11) (by decide), V2_keep m c (r := main_arg12) (by decide), V2_keep m c (r := main_arg13) (by decide),
    V1_v1 m c, V1_v3 m c, V1_v8 m c, V1_keep m c (r := main_arg0) (by decide), V1_keep m c (r := main_arg6) (by decide), V1_keep m c (r := main_arg7) (by decide), V1_keep m c (r := main_arg8) (by decide), V1_keep m c (r := main_arg9) (by decide), V1_keep m c (r := main_arg10) (by decide), V1_keep m c (r := main_arg11) (by decide), V1_keep m c (r := main_arg12) (by decide), V1_keep m c (r := main_arg13) (by decide)]
  rfl

end Stages

/-! ## The run -/

/-- On every device, from any memory with zero counters: every weakly fair execution of @main terminates with the
    result buffer at the network `Spec.gnn` of the arguments' launch contents — over the reference's own fetch of source
    rows and sum into target rows, the weights sliced out of their stacks — and the arguments unchanged. -/
theorem run_gnn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107)
        = Cert.Spec.gnn (take (src m c)) (seg (dst m c))
            (m ((c.tc : Thread nD τ).loc main_arg0)) (m ((c.tc : Thread nD τ).loc main_arg2))
            (m ((c.tc : Thread nD τ).loc main_arg4)) (m ((c.tc : Thread nD τ).loc main_arg5))
            (wmat0 (m ((c.tc : Thread nD τ).loc main_arg6))) (brow0 (m ((c.tc : Thread nD τ).loc main_arg7)))
            (wmat0 (m ((c.tc : Thread nD τ).loc main_arg8))) (brow0 (m ((c.tc : Thread nD τ).loc main_arg9)))
            (wmat1 (m ((c.tc : Thread nD τ).loc main_arg6))) (brow1 (m ((c.tc : Thread nD τ).loc main_arg7)))
            (wmat1 (m ((c.tc : Thread nD τ).loc main_arg8))) (brow1 (m ((c.tc : Thread nD τ).loc main_arg9)))
            (wmat2 (m ((c.tc : Thread nD τ).loc main_arg6))) (brow2 (m ((c.tc : Thread nD τ).loc main_arg7)))
            (wmat2 (m ((c.tc : Thread nD τ).loc main_arg8))) (brow2 (m ((c.tc : Thread nD τ).loc main_arg9)))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v107).trans ((congrFun (after_ops m c) _).trans (out_eq m c)),
      (h c main_arg0).trans ((congrFun (after_ops m c) _).trans (V8_arg m c (by decide) (by decide) (by decide) (by decide) (by decide) (by decide) (by decide) (by decide))),
      (h c main_arg1).trans ((congrFun (after_ops m c) _).trans (V8_arg m c (by decide) (by decide) (by decide) (by decide) (by decide) (by decide) (by decide) (by decide))),
      (h c main_arg2).trans ((congrFun (after_ops m c) _).trans (V8_arg m c (by decide) (by decide) (by decide) (by decide) (by decide) (by decide) (by decide) (by decide))),
      (h c main_arg3).trans ((congrFun (after_ops m c) _).trans (V8_arg m c (by decide) (by decide) (by decide) (by decide) (by decide) (by decide) (by decide) (by decide))),
      (h c main_arg4).trans ((congrFun (after_ops m c) _).trans (V8_arg m c (by decide) (by decide) (by decide) (by decide) (by decide) (by decide) (by decide) (by decide))),
      (h c main_arg5).trans ((congrFun (after_ops m c) _).trans (V8_arg m c (by decide) (by decide) (by decide) (by decide) (by decide) (by decide) (by decide) (by decide))),
      (h c main_arg6).trans ((congrFun (after_ops m c) _).trans (V8_arg m c (by decide) (by decide) (by decide) (by decide) (by decide) (by decide) (by decide) (by decide))),
      (h c main_arg7).trans ((congrFun (after_ops m c) _).trans (V8_arg m c (by decide) (by decide) (by decide) (by decide) (by decide) (by decide) (by decide) (by decide))),
      (h c main_arg8).trans ((congrFun (after_ops m c) _).trans (V8_arg m c (by decide) (by decide) (by decide) (by decide) (by decide) (by decide) (by decide) (by decide))),
      (h c main_arg9).trans ((congrFun (after_ops m c) _).trans (V8_arg m c (by decide) (by decide) (by decide) (by decide) (by decide) (by decide) (by decide) (by decide))),
      (h c main_arg10).trans ((congrFun (after_ops m c) _).trans (V8_arg m c (by decide) (by decide) (by decide) (by decide) (by decide) (by decide) (by decide) (by decide))),
      (h c main_arg11).trans ((congrFun (after_ops m c) _).trans (V8_arg m c (by decide) (by decide) (by decide) (by decide) (by decide) (by decide) (by decide) (by decide))),
      (h c main_arg12).trans ((congrFun (after_ops m c) _).trans (V8_arg m c (by decide) (by decide) (by decide) (by decide) (by decide) (by decide) (by decide) (by decide))),
      (h c main_arg13).trans ((congrFun (after_ops m c) _).trans (V8_arg m c (by decide) (by decide) (by decide) (by decide) (by decide) (by decide) (by decide) (by decide)))⟩)
    (run_seq scopedRefs_eq scopedSems_eq defs main (fun _ => ops) main_eq (fun _ => ops_sub) m ρ
      (fun _ => List.forall_iff_forall_mem.1 ops_fresh))

end Cert.ReferenceIdeal.RefRun

end
-- ==== Proof.lean ====
/-
  The kernel program and its reference compute the same message-passing network.

  Both programs run three rounds of (messages along the edges; sum into the target nodes; update of the nodes) between
  an edge embedding and a read-out, and every dense layer — an affine map of two row blocks laid side by side, then
  `tanh` — is one function of its rows on the extended reals, `Spec.lin`, whether it is computed block by block by a
  kernel region or by one whole-array matrix product. The sum into the target nodes is the same operation of the same
  operands in both programs. The one place where the two differ is the fetch of source rows: the kernel's fetch fills
  a row whose source number lies outside the node table, the reference's clamps the number into the table. Under the
  precondition every source number names a row, the fill is never used, and the two fetches are one function.

  So both results are `Spec.gnn` of the same maps and the same arrays. The three frames are the generated ones; the
  idealization rewrote nothing, so there is nothing to preserve.
-/
import proofs.«424121_j82257213653679_2_alg».proof.Defs
import proofs.«424121_j82257213653679_2_alg».proof.Proof.Gen.Kernel
import proofs.«424121_j82257213653679_2_alg».proof.Proof.Gen.Kernel.Skeleton
import proofs.«424121_j82257213653679_2_alg».proof.Proof.Gen.Kernel.Launch
import proofs.«424121_j82257213653679_2_alg».proof.Proof.Gen.Kernel.Points
import proofs.«424121_j82257213653679_2_alg».proof.Proof.Gen.Kernel.Frame
import proofs.«424121_j82257213653679_2_alg».proof.Proof.Gen.KernelIdeal
import proofs.«424121_j82257213653679_2_alg».proof.Proof.Gen.KernelIdeal.Skeleton
import proofs.«424121_j82257213653679_2_alg».proof.Proof.Gen.KernelIdeal.Launch
import proofs.«424121_j82257213653679_2_alg».proof.Proof.Gen.KernelIdeal.Points
import proofs.«424121_j82257213653679_2_alg».proof.Proof.Gen.KernelIdeal.Frame
import proofs.«424121_j82257213653679_2_alg».proof.Proof.Gen.ReferenceIdeal
import proofs.«424121_j82257213653679_2_alg».proof.Proof.Gen.Pre_finite_inputs
import proofs.«424121_j82257213653679_2_alg».proof.Proof.Spec
import proofs.«424121_j82257213653679_2_alg».proof.Proof.KernelRun
import proofs.«424121_j82257213653679_2_alg».proof.Proof.KernelValue
import proofs.«424121_j82257213653679_2_alg».proof.Proof.PreDecode
import proofs.«424121_j82257213653679_2_alg».proof.Proof.RefLayers
import proofs.«424121_j82257213653679_2_alg».proof.Proof.RefRun
import Idealize.ShloMosaic.Adequacy
import Idealize.ShloMosaic.Init

noncomputable section

namespace Cert.Proof

open Idealize.ShloMosaic Idealize.ShloMosaic.TcCoe Idealize.SL.Sem

/-! ## The two programs spell the same fetch, the same sum and the same slices -/

theorem take_same (s : IVec Cert.KernelIdeal.S1600000 32) :
    Cert.KernelIdeal.Take.take s = Cert.ReferenceIdeal.RefValue.take s := rfl

theorem seg_same (d : IVec Cert.KernelIdeal.S1600000 32) :
    Cert.KernelIdeal.KValue.seg d = Cert.ReferenceIdeal.RefValue.seg d := rfl

theorem srcRow_same (x : IVec Cert.KernelIdeal.S2x1600000 32) :
    Cert.KernelIdeal.KValue.srcRow x
      = shapeCast Cert.ReferenceIdeal.S1600000
          (extractStridedSlice Cert.ReferenceIdeal.S1x1600000 ![0, 0] x Cert.ReferenceIdeal.Facts₀.slices_S2x1600000_S1x1600000_0_0)
          Cert.ReferenceIdeal.Facts₀.shapeCasts_S1x1600000_S1600000 := rfl

theorem dstRow_same (x : IVec Cert.KernelIdeal.S2x1600000 32) :
    Cert.KernelIdeal.KValue.dstRow x
      = shapeCast Cert.ReferenceIdeal.S1600000
          (extractStridedSlice Cert.ReferenceIdeal.S1x1600000 ![1, 0] x Cert.ReferenceIdeal.Facts₀.slices_S2x1600000_S1x1600000_1_0)
          Cert.ReferenceIdeal.Facts₀.shapeCasts_S1x1600000_S1600000 := rfl

theorem wmat0_same (x : FVec Ideal Cert.KernelIdeal.S3x128x64 .f32) :
    Cert.KernelIdeal.KValue.wmat0 x = Cert.ReferenceIdeal.RefValue.wmat0 x := rfl
theorem wmat1_same (x : FVec Ideal Cert.KernelIdeal.S3x128x64 .f32) :
    Cert.KernelIdeal.KValue.wmat1 x = Cert.ReferenceIdeal.RefValue.wmat1 x := rfl
theorem wmat2_same (x : FVec Ideal Cert.KernelIdeal.S3x128x64 .f32) :
    Cert.KernelIdeal.KValue.wmat2 x = Cert.ReferenceIdeal.RefValue.wmat2 x := rfl
theorem brow0_same (x : FVec Ideal Cert.KernelIdeal.S3x64 .f32) :
    Cert.KernelIdeal.KValue.brow0 x = Cert.ReferenceIdeal.RefValue.brow0 x := rfl
theorem brow1_same (x : FVec Ideal Cert.KernelIdeal.S3x64 .f32) :
    Cert.KernelIdeal.KValue.brow1 x = Cert.ReferenceIdeal.RefValue.brow1 x := rfl
theorem brow2_same (x : FVec Ideal Cert.KernelIdeal.S3x64 .f32) :
    Cert.KernelIdeal.KValue.brow2 x = Cert.ReferenceIdeal.RefValue.brow2 x := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run_gnn m ρ)

/-- The idealization rewrote no operation. -/
theorem preserves : Cert.preserves_Kernel_KernelIdeal := trivial

/-- Both programs end with the network `Spec.gnn` of the argument arrays: the kernel's by the run read boundary by
    boundary (under the precondition's range of the source numbers), the reference's by its run read layer by layer;
    the arguments agree, and the two programs' fetch, sum and slices are the same functions. -/
theorem algebraic : Cert.algebraic_KernelIdeal_ReferenceIdeal := by
  intro m ρ m' ρ' hpre hagree
  have hs : ∀ c, Cert.KernelIdeal.KValue.SrcOk m c := fun c e => Cert.KernelIdeal.PreDecode.src_range m hpre c e
  refine ⟨fun c => Cert.Spec.gnn (Cert.KernelIdeal.Take.take (Cert.KernelIdeal.KValue.src m c))
      (Cert.KernelIdeal.KValue.seg (Cert.KernelIdeal.KValue.dst m c))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (Cert.KernelIdeal.KValue.wmat0 (m ((c.tc : Thread Cert.KernelIdeal.nD Cert.KernelIdeal.τ).loc Cert.KernelIdeal.main_arg6))) (Cert.KernelIdeal.KValue.brow0 (m ((c.tc : Thread Cert.KernelIdeal.nD Cert.KernelIdeal.τ).loc Cert.KernelIdeal.main_arg7)))
      (Cert.KernelIdeal.KValue.wmat0 (m ((c.tc : Thread Cert.KernelIdeal.nD Cert.KernelIdeal.τ).loc Cert.KernelIdeal.main_arg8))) (Cert.KernelIdeal.KValue.brow0 (m ((c.tc : Thread Cert.KernelIdeal.nD Cert.KernelIdeal.τ).loc Cert.KernelIdeal.main_arg9)))
      (Cert.KernelIdeal.KValue.wmat1 (m ((c.tc : Thread Cert.KernelIdeal.nD Cert.KernelIdeal.τ).loc Cert.KernelIdeal.main_arg6))) (Cert.KernelIdeal.KValue.brow1 (m ((c.tc : Thread Cert.KernelIdeal.nD Cert.KernelIdeal.τ).loc Cert.KernelIdeal.main_arg7)))
      (Cert.KernelIdeal.KValue.wmat1 (m ((c.tc : Thread Cert.KernelIdeal.nD Cert.KernelIdeal.τ).loc Cert.KernelIdeal.main_arg8))) (Cert.KernelIdeal.KValue.brow1 (m ((c.tc : Thread Cert.KernelIdeal.nD Cert.KernelIdeal.τ).loc Cert.KernelIdeal.main_arg9)))
      (Cert.KernelIdeal.KValue.wmat2 (m ((c.tc : Thread Cert.KernelIdeal.nD Cert.KernelIdeal.τ).loc Cert.KernelIdeal.main_arg6))) (Cert.KernelIdeal.KValue.brow2 (m ((c.tc : Thread Cert.KernelIdeal.nD Cert.KernelIdeal.τ).loc Cert.KernelIdeal.main_arg7)))
      (Cert.KernelIdeal.KValue.wmat2 (m ((c.tc : Thread Cert.KernelIdeal.nD Cert.KernelIdeal.τ).loc Cert.KernelIdeal.main_arg8))) (Cert.KernelIdeal.KValue.brow2 (m ((c.tc : Thread Cert.KernelIdeal.nD Cert.KernelIdeal.τ).loc Cert.KernelIdeal.main_arg9)))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KValue.W18_v47 m ρ c (hs c)), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RefRun.run_gnn m' ρ')
    obtain ⟨a0, a1, a2, a3, a4, a5, a6, a7, a8, a9, a10, a11, a12, a13⟩ := hagree c
    unfold Cert.ReferenceIdeal.RefValue.src Cert.ReferenceIdeal.RefValue.dst
    rw [a0, a1, a2, a4, a5, a6, a7, a8, a9, a10, a11, a12, a13]
    rw [← take_same, ← seg_same, ← wmat0_same, ← wmat1_same, ← wmat2_same, ← brow0_same, ← brow1_same, ← brow2_same]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
